-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x256 : Shape := ⟨3, ![4, 16384, 256]⟩
abbrev S64x256 : Shape := ⟨2, ![64, 256]⟩
abbrev S_ : Shape := ⟨0, ![]⟩

class Facts : Prop where
  bcast_S_S4x16384x256 : S_.BroadcastsInDim S4x16384x256 (![] : Fin 0 → Fin S4x16384x256.rank)
  reducesTo_S4x16384x256_S_d0_1_2 : S4x16384x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn_part2 {F : FTy → Type} [FloatOps F] (main_arg7 : FVec F S64x256 .f32) (main_v33 : IVec S_ 1) : IVec S_ 1 :=
  let main_v34 : FVec F S64x256 .f32 := Host.absf main_arg7
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  main_v38

def fn_part1 {F : FTy → Type} [FloatOps F] (main_arg4 : FVec F S64x256 .f32) (main_arg5 : FVec F S64x256 .f32) (main_arg6 : FVec F S64x256 .f32) (main_arg7 : FVec F S64x256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_v33

def fn {F : FTy → Type} [FloatOps F] (main_arg0 : FVec F S4x16384x256 .f32) (main_arg1 : FVec F S4x16384x256 .f32) (main_arg2 : FVec F S64x256 .f32) (main_arg3 : FVec F S64x256 .f32) (main_arg4 : FVec F S64x256 .f32) (main_arg5 : FVec F S64x256 .f32) (main_arg6 : FVec F S64x256 .f32) (main_arg7 : FVec F S64x256 .f32) : IVec S_ 1 :=
  let main_v0 : FVec F S4x16384x256 .f32 := Host.absf main_arg0
  let main_cst : FVec F S_ .f32 := constant S_ .f32 0x7F800000#32
  let main_v1 : FVec F S4x16384x256 .f32 := broadcastInDim S4x16384x256 ![] bcast_S_S4x16384x256 main_cst
  let main_v2 : IVec S4x16384x256 1 := cmpf .olt main_v0 main_v1
  let main_c : IVec S_ 1 := constantI S_ 1 1#1
  let main_v3 : IVec S_ 1 := (fun x v => Host.reduce IntOp.andi x v reducesTo_S4x16384x256_S_d0_1_2 h_S_) main_v2 main_c
  let main_v4 : FVec F S4x16384x256 .f32 := Host.absf main_arg1
  let main_cst_0 : FVec F S_ .f32 := constant S_ .f32 0x7F800000#32
  let main_v5 : FVec F S4x16384x256 .f32 := broadcastInDim S4x16384x256 ![] bcast_S_S4x16384x256 main_cst_0
  let main_v6 : IVec S4x16384x256 1 := cmpf .olt main_v4 main_v5
  let main_c_1 : IVec S_ 1 := constantI S_ 1 1#1
  let main_v7 : IVec S_ 1 := (fun x v => Host.reduce IntOp.andi x v reducesTo_S4x16384x256_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_v13 main_v16
-- ==== Kernel.lean ====
abbrev S4x16384x256 : Shape := ⟨3, ![4, 16384, 256]⟩
abbrev S64x256 : Shape := ⟨2, ![64, 256]⟩
abbrev S4x64x64 : Shape := ⟨3, ![4, 64, 64]⟩
abbrev S1x2048x256 : Shape := ⟨3, ![1, 2048, 256]⟩
abbrev S1x64x64 : Shape := ⟨3, ![1, 64, 64]⟩
abbrev S64x1 : Shape := ⟨2, ![64, 1]⟩
abbrev S64x64 : Shape := ⟨2, ![64, 64]⟩
abbrev S2048x256 : Shape := ⟨2, ![2048, 256]⟩
abbrev S64x2048 : Shape := ⟨2, ![64, 2048]⟩
abbrev S64 : Shape := ⟨1, ![64]⟩
abbrev S4x16384x128 : Shape := ⟨3, ![4, 16384, 128]⟩
abbrev S1x2048x128 : Shape := ⟨3, ![1, 2048, 128]⟩
abbrev S2048x64 : Shape := ⟨2, ![2048, 64]⟩
abbrev S2048 : Shape := ⟨1, ![2048]⟩
abbrev S2048x1 : Shape := ⟨2, ![2048, 1]⟩
abbrev S2048x128 : Shape := ⟨2, ![2048, 128]⟩
abbrev S4x16384x64 : Shape := ⟨3, ![4, 16384, 64]⟩

abbrev nBuf : Space → Nat
  | .hbm => 13
  | .vmem => 30
  | .smem => 0
  | _ => 0

abbrev bufTy : (tb : Table) → Fin (tcTables nBuf tb) → BufTy
  | .hbm, ⟨0, _⟩ => ⟨S4x16384x256, .f32⟩
  | .hbm, ⟨1, _⟩ => ⟨S4x16384x256, .f32⟩
  | .hbm, ⟨2, _⟩ => ⟨S64x256, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S64x256, .f32⟩
  | .hbm, ⟨8, _⟩ => ⟨S4x64x64, .f32⟩
  | .hbm, ⟨9, _⟩ => ⟨S4x64x64, .f32⟩
  | .hbm, ⟨10, _⟩ => ⟨S4x16384x128, .f32⟩
  | .hbm, ⟨11, _⟩ => ⟨S4x16384x64, .f32⟩
  | .hbm, ⟨12, _⟩ => ⟨S4x16384x64, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S1x64x64, .f32⟩
  | .local _ .vmem, ⟨9, _⟩ => ⟨S1x64x64, .f32⟩
  | .local _ .vmem, ⟨10, _⟩ => ⟨S1x64x64, .f32⟩
  | .local _ .vmem, ⟨11, _⟩ => ⟨S1x64x64, .f32⟩
  | .local _ .vmem, ⟨12, _⟩ => ⟨S64x1, .f32⟩
  | .local _ .vmem, ⟨13, _⟩ => ⟨S64x1, .f32⟩
  | .local _ .vmem, ⟨14, _⟩ => ⟨S64x64, .f32⟩
  | .local _ .vmem, ⟨15, _⟩ => ⟨S64x1, .f32⟩
  | .local _ .vmem, ⟨16, _⟩ => ⟨S64x1, .f32⟩
  | .local _ .vmem, ⟨17, _⟩ => ⟨S64x64, .f32⟩
  | .local _ .vmem, ⟨18, _⟩ => ⟨S1x2048x256, .f32⟩
  | .local _ .vmem, ⟨19, _⟩ => ⟨S1x2048x256, .f32⟩
  | .local _ .vmem, ⟨20, _⟩ => ⟨S1x2048x256, .f32⟩
  | .local _ .vmem, ⟨21, _⟩ => ⟨S1x2048x256, .f32⟩
  | .local _ .vmem, ⟨22, _⟩ => ⟨S64x256, .f32⟩
  | .local _ .vmem, ⟨23, _⟩ => ⟨S64x256, .f32⟩
  | .local _ .vmem, ⟨24, _⟩ => ⟨S1x64x64, .f32⟩
  | .local _ .vmem, ⟨25, _⟩ => ⟨S1x64x64, .f32⟩
  | .local _ .vmem, ⟨26, _⟩ => ⟨S1x64x64, .f32⟩
  | .local _ .vmem, ⟨27, _⟩ => ⟨S1x64x64, .f32⟩
  | .local _ .vmem, ⟨28, _⟩ => ⟨S1x2048x128, .f32⟩
  | .local _ .vmem, ⟨29, _⟩ => ⟨S1x2048x128, .f32⟩
  | _, _ => ⟨S4x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v83 : BitVec 1 := Scalar.cmpi .eq arg1 c7_i32
  let v84 : BitVec 32 := Scalar.extui v83
  let c0_i32_51 : BitVec 32 := 0#32
  let v85 : BitVec 1 := Scalar.cmpi .ne v84 c0_i32_51
  v85

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  reduces_S64x2048_S64 : S64x2048.Reduces [1] S64
  shapeCasts_S64_S64x1 : S64.ShapeCasts S64x1
  broadcasts_S64x1_S64x2048 : S64x1.Broadcasts S64x2048
  broadcasts_S64x1_S64x64 : S64x1.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  reduces_S2048x64_S2048 : S2048x64.Reduces [1] S2048
  shapeCasts_S2048_S2048x1 : S2048.ShapeCasts S2048x1
  broadcasts_S2048x1_S2048x64 : S2048x1.Broadcasts S2048x64
  concatenates_S2048x64_S2048x64_S2048x128_d1 : Shape.Concatenates [S2048x64, S2048x64] S2048x128 1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  slices_S4x16384x128_S4x16384x64_0_0_0 : S4x16384x128.Slices ![0, 0, 0] S4x16384x64
  slices_S4x16384x128_S4x16384x64_0_0_64 : S4x16384x128.Slices ![0, 0, 64] S4x16384x64
  dot_S64x256_S2048x256_S64x2048_1_1_0_0_n_n_wf : DotDims.WF S64x256 S2048x256 S64x2048 [1] [1] [0] [0] [] []
  dot_S64x2048_S64x2048_S64x64_1_1_0_0_n_n_wf : DotDims.WF S64x2048 S64x2048 S64x64 [1] [1] [0] [0] [] []
  dot_S2048x256_S64x256_S2048x64_1_1_0_0_n_n_wf : DotDims.WF S2048x256 S64x256 S2048x64 [1] [1] [0] [0] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S4x16384x256.size a
  hwx0_0 : ∀ i : grid0.Coords, EltTy.bits .f32 = 32 ∨ (Rect.block (s := S4x16384x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S4x16384x256.size a
  hwx0_1 : ∀ i : grid0.Coords, EltTy.bits .f32 = 32 ∨ (Rect.block (s := S4x16384x256) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x64.size a ≤ S4x64x64.size a
  hwx0_6 : ∀ i : grid0.Coords, EltTy.bits .f32 = 32 ∨ (Rect.block (s := S4x64x64) S1x64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x64.size a ≤ S4x64x64.size a
  hwx0_7 : ∀ i : grid0.Coords, EltTy.bits .f32 = 32 ∨ (Rect.block (s := S4x64x64) S1x64x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S4x16384x256.size a
  hwx1_0 : ∀ i : grid1.Coords, EltTy.bits .f32 = 32 ∨ (Rect.block (s := S4x16384x256) S1x2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S4x16384x256.size a
  hwx1_1 : ∀ i : grid1.Coords, EltTy.bits .f32 = 32 ∨ (Rect.block (s := S4x16384x256) S1x2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .f32 = 32 ∨ (Rect.block (s := S64x256) S64x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x64.size a ≤ S4x64x64.size a
  hwx1_4 : ∀ i : grid1.Coords, EltTy.bits .f32 = 32 ∨ (Rect.block (s := S4x64x64) S1x64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x64.size a ≤ S4x64x64.size a
  hwx1_5 : ∀ i : grid1.Coords, EltTy.bits .f32 = 32 ∨ (Rect.block (s := S4x64x64) S1x64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2048x128.size a ≤ S4x16384x128.size a
  hwx1_6 : ∀ i : grid1.Coords, EltTy.bits .f32 = 32 ∨ (Rect.block (s := S4x16384x128) S1x2048x128.size (cc1_transform_6 i) (hinb1_6 i)).WholeWords (EltTy.packing .f32)

variable [Facts₀]

def dot_S64x256_S2048x256_S64x2048_1_1_0_0_n_n : DotDims S64x256 S2048x256 S64x2048 where
  lhsContracting := [1]
  rhsContracting := [1]
  lhsNonContracting := [0]
  rhsNonContracting := [0]
  lhsBatch := []
  rhsBatch := []
  wf := dot_S64x256_S2048x256_S64x2048_1_1_0_0_n_n_wf
def dot_S64x2048_S64x2048_S64x64_1_1_0_0_n_n : DotDims S64x2048 S64x2048 S64x64 where
  lhsContracting := [1]
  rhsContracting := [1]
  lhsNonContracting := [0]
  rhsNonContracting := [0]
  lhsBatch := []
  rhsBatch := []
  wf := dot_S64x2048_S64x2048_S64x64_1_1_0_0_n_n_wf
def dot_S2048x256_S64x256_S2048x64_1_1_0_0_n_n : DotDims S2048x256 S64x256 S2048x64 where
  lhsContracting := [1]
  rhsContracting := [1]
  lhsNonContracting := [0]
  rhsNonContracting := [0]
  lhsBatch := []
  rhsBatch := []
  wf := dot_S2048x256_S64x256_S2048x64_1_1_0_0_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x64x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x64x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S1x64x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S1x64x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x2048x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x16384x256 : Shape := ⟨3, ![4, 16384, 256]⟩
abbrev S64x256 : Shape := ⟨2, ![64, 256]⟩
abbrev S4x16384x64 : Shape := ⟨3, ![4, 16384, 64]⟩
abbrev S_ : Shape := ⟨0, ![]⟩
abbrev S4x64 : Shape := ⟨2, ![4, 64]⟩
abbrev S4x1x64 : Shape := ⟨3, ![4, 1, 64]⟩
abbrev S4x16384 : Shape := ⟨2, ![4, 16384]⟩
abbrev S4x16384x1 : Shape := ⟨3, ![4, 16384, 1]⟩
abbrev S4x64x64 : Shape := ⟨3, ![4, 64, 64]⟩

abbrev nBuf : Space → Nat
  | .hbm => 74
  | .vmem => 0
  | .smem => 0
  | _ => 0

abbrev bufTy : (tb : Table) → Fin (tcTables nBuf tb) → BufTy
  | .hbm, ⟨0, _⟩ => ⟨S4x16384x256, .f32⟩
  | .hbm, ⟨1, _⟩ => ⟨S4x16384x256, .f32⟩
  | .hbm, ⟨2, _⟩ => ⟨S64x256, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S64x256, .f32⟩
  | .hbm, ⟨8, _⟩ => ⟨S4x16384x64, .f32⟩
  | .hbm, ⟨9, _⟩ => ⟨S4x16384x64, .f32⟩
  | .hbm, ⟨10, _⟩ => ⟨S4x16384x64, .f32⟩
  | .hbm, ⟨11, _⟩ => ⟨S4x16384x64, .f32⟩
  | .hbm, ⟨12, _⟩ => ⟨S4x16384x64, .f32⟩
  | .hbm, ⟨13, _⟩ => ⟨S4x16384x64, .f32⟩
  | .hbm, ⟨14, _⟩ => ⟨S_, .f32⟩
  | .hbm, ⟨15, _⟩ => ⟨S4x64, .f32⟩
  | .hbm, ⟨16, _⟩ => ⟨S_, .f32⟩
  | .hbm, ⟨17, _⟩ => ⟨S4x64, .f32⟩
  | .hbm, ⟨18, _⟩ => ⟨S4x64, .f32⟩
  | .hbm, ⟨19, _⟩ => ⟨S4x1x64, .f32⟩
  | .hbm, ⟨20, _⟩ => ⟨S4x16384x64, .f32⟩
  | .hbm, ⟨21, _⟩ => ⟨S4x16384x64, .f32⟩
  | .hbm, ⟨22, _⟩ => ⟨S4x16384x64, .f32⟩
  | .hbm, ⟨23, _⟩ => ⟨S_, .f32⟩
  | .hbm, ⟨24, _⟩ => ⟨S4x64, .f32⟩
  | .hbm, ⟨25, _⟩ => ⟨S4x1x64, .f32⟩
  | .hbm, ⟨26, _⟩ => ⟨S4x16384x64, .f32⟩
  | .hbm, ⟨27, _⟩ => ⟨S4x16384x64, .f32⟩
  | .hbm, ⟨28, _⟩ => ⟨S_, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x1x64, .f32⟩
  | .hbm, ⟨34, _⟩ => ⟨S4x16384x64, .f32⟩
  | .hbm, ⟨35, _⟩ => ⟨S4x16384x64, .f32⟩
  | .hbm, ⟨36, _⟩ => ⟨S4x16384x64, .f32⟩
  | .hbm, ⟨37, _⟩ => ⟨S_, .f32⟩
  | .hbm, ⟨38, _⟩ => ⟨S4x64, .f32⟩
  | .hbm, ⟨39, _⟩ => ⟨S4x1x64, .f32⟩
  | .hbm, ⟨40, _⟩ => ⟨S4x16384x64, .f32⟩
  | .hbm, ⟨41, _⟩ => ⟨S4x16384x64, .f32⟩
  | .hbm, ⟨42, _⟩ => ⟨S_, .f32⟩
  | .hbm, ⟨43, _⟩ => ⟨S4x16384, .f32⟩
  | .hbm, ⟨44, _⟩ => ⟨S_, .f32⟩
  | .hbm, ⟨45, _⟩ => ⟨S4x16384, .f32⟩
  | .hbm, ⟨46, _⟩ => ⟨S4x16384, .f32⟩
  | .hbm, ⟨47, _⟩ => ⟨S4x16384x1, .f32⟩
  | .hbm, ⟨48, _⟩ => ⟨S4x16384x64, .f32⟩
  | .hbm, ⟨49, _⟩ => ⟨S4x16384x64, .f32⟩
  | .hbm, ⟨50, _⟩ => ⟨S4x16384x64, .f32⟩
  | .hbm, ⟨51, _⟩ => ⟨S_, .f32⟩
  | .hbm, ⟨52, _⟩ => ⟨S4x16384, .f32⟩
  | .hbm, ⟨53, _⟩ => ⟨S4x16384x1, .f32⟩
  | .hbm, ⟨54, _⟩ => ⟨S4x16384x64, .f32⟩
  | .hbm, ⟨55, _⟩ => ⟨S4x16384x64, .f32⟩
  | .hbm, ⟨56, _⟩ => ⟨S_, .f32⟩
  | .hbm, ⟨57, _⟩ => ⟨S4x16384, .f32⟩
  | .hbm, ⟨58, _⟩ => ⟨S_, .f32⟩
  | .hbm, ⟨59, _⟩ => ⟨S4x16384, .f32⟩
  | .hbm, ⟨60, _⟩ => ⟨S4x16384, .f32⟩
  | .hbm, ⟨61, _⟩ => ⟨S4x16384x1, .f32⟩
  | .hbm, ⟨62, _⟩ => ⟨S4x16384x64, .f32⟩
  | .hbm, ⟨63, _⟩ => ⟨S4x16384x64, .f32⟩
  | .hbm, ⟨64, _⟩ => ⟨S4x16384x64, .f32⟩
  | .hbm, ⟨65, _⟩ => ⟨S_, .f32⟩
  | .hbm, ⟨66, _⟩ => ⟨S4x16384, .f32⟩
  | .hbm, ⟨67, _⟩ => ⟨S4x16384x1, .f32⟩
  | .hbm, ⟨68, _⟩ => ⟨S4x16384x64, .f32⟩
  | .hbm, ⟨69, _⟩ => ⟨S4x16384x64, .f32⟩
  | .hbm, ⟨70, _⟩ => ⟨S4x64x64, .f32⟩
  | .hbm, ⟨71, _⟩ => ⟨S4x64x64, .f32⟩
  | .hbm, ⟨72, _⟩ => ⟨S4x16384x64, .f32⟩
  | .hbm, ⟨73, _⟩ => ⟨S4x16384x64, .f32⟩
  | _, _ => ⟨S4x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  reducesTo_S4x16384x64_S4x64_d1 : S4x16384x64.ReducesTo [1] S4x64
  h_S_ : 0 < S_.numel
  bcast_S_S4x64 : S_.BroadcastsInDim S4x64 (![] : Fin 0 → Fin S4x64.rank)
  bcast_S4x64_S4x1x64_0_2 : S4x64.BroadcastsInDim S4x1x64 (![0, 2] : Fin 2 → Fin S4x1x64.rank)
  bcast_S4x1x64_S4x16384x64_0_1_2 : S4x1x64.BroadcastsInDim S4x16384x64 (![0, 1, 2] : Fin 3 → Fin S4x16384x64.rank)
  reducesTo_S4x16384x64_S4x16384_d2 : S4x16384x64.ReducesTo [2] S4x16384
  bcast_S_S4x16384 : S_.BroadcastsInDim S4x16384 (![] : Fin 0 → Fin S4x16384.rank)
  bcast_S4x16384_S4x16384x1_0_1 : S4x16384.BroadcastsInDim S4x16384x1 (![0, 1] : Fin 2 → Fin S4x16384x1.rank)
  bcast_S4x16384x1_S4x16384x64_0_1_2 : S4x16384x1.BroadcastsInDim S4x16384x64 (![0, 1, 2] : Fin 3 → Fin S4x16384x64.rank)
  dot_S4x16384x256_S64x256_S4x16384x64_2_1_01_0_n_n_wf : DotDims.WF S4x16384x256 S64x256 S4x16384x64 [2] [1] [0, 1] [0] [] []
  dot_S4x16384x64_S4x16384x64_S4x64x64_1_1_2_2_0_0_wf : DotDims.WF S4x16384x64 S4x16384x64 S4x64x64 [1] [1] [2] [2] [0] [0]
  dot_S4x16384x64_S4x64x64_S4x16384x64_2_1_1_2_0_0_wf : DotDims.WF S4x16384x64 S4x64x64 S4x16384x64 [2] [1] [1] [2] [0] [0]

variable [Facts₀]

def dot_S4x16384x256_S64x256_S4x16384x64_2_1_01_0_n_n : DotDims S4x16384x256 S64x256 S4x16384x64 where
  lhsContracting := [2]
  rhsContracting := [1]
  lhsNonContracting := [0, 1]
  rhsNonContracting := [0]
  lhsBatch := []
  rhsBatch := []
  wf := dot_S4x16384x256_S64x256_S4x16384x64_2_1_01_0_n_n_wf
def dot_S4x16384x64_S4x16384x64_S4x64x64_1_1_2_2_0_0 : DotDims S4x16384x64 S4x16384x64 S4x64x64 where
  lhsContracting := [1]
  rhsContracting := [1]
  lhsNonContracting := [2]
  rhsNonContracting := [2]
  lhsBatch := [0]
  rhsBatch := [0]
  wf := dot_S4x16384x64_S4x16384x64_S4x64x64_1_1_2_2_0_0_wf
def dot_S4x16384x64_S4x64x64_S4x16384x64_2_1_1_2_0_0 : DotDims S4x16384x64 S4x64x64 S4x16384x64 where
  lhsContracting := [2]
  rhsContracting := [1]
  lhsNonContracting := [1]
  rhsNonContracting := [2]
  lhsBatch := [0]
  rhsBatch := [0]
  wf := dot_S4x16384x64_S4x64x64_S4x16384x64_2_1_1_2_0_0_wf

class Facts : Prop extends Facts₀ where

variable [Facts]
-- ==== Proof.K.Step.lean ====
/-
  The reduce kernel's carried state and its one-tile update, as pure functions of the blocks the body
  loads, generic in the float instance. Six scratch buffers are carried from grid point to grid point:
  per head (0 and 1) a running column maximum `m` (64×1), a running denominator `l` (64×1) and a running
  numerator `a` (64×64). `reset` is what the first tile of a batch row stores (−∞, 0, 0); `step` is the
  online-softmax update over one tile of 2048 tokens; `fin0` / `fin1` are the quotients numerator /
  denominator the last tile writes to the two output blocks. `apply1` is the second kernel's output block:
  both query softmaxes applied to the other head's context matrix, side by side along the lanes.
-/
import proofs.«177014_j489626271899_1_alg».proof.Proof.Gen.Kernel.Skeleton

noncomputable section

namespace Cert.Kernel.Hand

open Idealize.ShloMosaic Cert.Kernel Cert.Kernel.Gen

variable {F : FTy → Type} [FloatOps F]

/-- The six carried scratch buffers' contents. -/
structure Sc (F : FTy → Type) where
  m0 : Vec F S64x1 .f32
  l0 : Vec F S64x1 .f32
  a0 : Vec F S64x64 .f32
  m1 : Vec F S64x1 .f32
  l1 : Vec F S64x1 .f32
  a1 : Vec F S64x64 .f32

/-- What the first tile of a batch row stores before it updates: maxima −∞, denominators 0, numerators 0. -/
def reset : Sc F := ⟨k0_pay6, k0_pay7, k0_pay8, k0_pay9, k0_pay10, k0_pay11⟩

/-- The score block of head 0, `Wk0 · x0ᵀ` (64×2048), and of head 1. -/
abbrev sco0 (x0 : Vec F S1x2048x256 .f32) (wk0 : Vec F S64x256 .f32) : Vec F S64x2048 .f32 := k0_pay14 x0 wk0
abbrev sco1 (x1 : Vec F S1x2048x256 .f32) (wk1 : Vec F S64x256 .f32) : Vec F S64x2048 .f32 := k0_pay16 x1 wk1

/-- One tile's update of the carried state from the tile's blocks of `x0`, `x1` and the four weight
    matrices: new maximum = max(old, tile maximum); α = exp(old − new); p = exp(score − new);
    denominator ← α·denominator + Σ p; numerator ← α·numerator + p · valueᵀ. -/
def step (x0 x1 : Vec F S1x2048x256 .f32) (wk0 wk1 wv0 wv1 : Vec F S64x256 .f32) (s : Sc F) : Sc F where
  m0 := k0_pay23 (k0_pay18 x0 wk0 s.m0)
  l0 := k0_pay21 (k0_pay19 x0 wk0 s.m0 s.m0) (k0_pay20 x0 wk0 s.m0) s.l0
  a0 := k0_pay22 (k0_pay15 x0 wv0) (k0_pay19 x0 wk0 s.m0 s.m0) (k0_pay20 x0 wk0 s.m0) s.a0
  m1 := k0_pay3 (k0_pay24 (k0_pay16 x1 wk1) s.m1)
  l1 := k0_pay1 (k0_pay27 (k0_pay16 x1 wk1) s.m1 s.m1 s.l1)
  a1 := k0_pay2 (k0_pay17 x1 wv1) (k0_pay25 (k0_pay16 x1 wk1) s.m1 s.m1) (k0_pay26 (k0_pay16 x1 wk1) s.m1) s.a1

/-- The two output blocks the last tile of a batch row stores: numerator / denominator, per head. -/
def fin0 (s : Sc F) : Vec F S1x64x64 .f32 := k0_pay4 s.a0 s.l0
def fin1 (s : Sc F) : Vec F S1x64x64 .f32 := k0_pay5 s.a1 s.l1

/-- The second kernel's output block (2048×128) from its six input blocks: softmax over the head axis of
    `x0 · Wq0ᵀ` times `w1` in lanes 0–63, the same of `x1`, `Wq1` times `w0` in lanes 64–127. -/
def apply1 (x0 x1 : Vec F S1x2048x256 .f32) (wq0 wq1 : Vec F S64x256 .f32) (w0 w1 : Vec F S1x64x64 .f32) :
    Vec F S1x2048x128 .f32 :=
  k1_pay1 (k1_pay2 x0 wq0) (k1_pay3 x1 wq1) (k1_pay4 w0) w1

end Cert.Kernel.Hand

end
-- ==== Proof.K.R0Defs.lean ====
/-
  Region 0 (the reduce kernel over the grid 4 × 8, point t = 8·b + n): the blocks its eight windows read,
  the carried scratch contents after each point as a recursion on the point (the first tile of each batch
  row starts from the reset state), the region invariant that holds the six scratch buffers at those
  contents between points, and the proof data. Everything is stated at a parameter `V`: the TensorCore's
  buffer contents when the region is entered.
-/
import proofs.«177014_j489626271899_1_alg».proof.Proof.K.Step
import proofs.«177014_j489626271899_1_alg».proof.Proof.Gen.Kernel.Launch
import proofs.«177014_j489626271899_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the grid -/

/-- "This is the first tile of its batch row" (`n = 0`): the reset branch's condition. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last tile of its batch row" (`n = 7`): the output branch's condition. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_in : ∀ (w : Fin 8), w.val < 6 → ∀ t : Fin cfg0.N, cfg0.idle w (grid0.coords t) = false := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64x64 .f32 := win0_7.stage (cfg0.slots t 7)
abbrev hs0_7 (t : Fin cfg0.N) : (ms0_7 t).IsWhole := hstage0_7 ((cfg0.slots t 7).cast nbuf0_7)
/-- The six scratch operands: whole scoped buffers of the kernel's own. -/
abbrev scM0_0 : Memref sig .tc .vmem S64x1 .f32 := Memref.whole cc0_scratch0
abbrev scM0_1 : Memref sig .tc .vmem S64x1 .f32 := Memref.whole cc0_scratch1
abbrev scM0_2 : Memref sig .tc .vmem S64x64 .f32 := Memref.whole cc0_scratch2
abbrev scM0_3 : Memref sig .tc .vmem S64x1 .f32 := Memref.whole cc0_scratch3
abbrev scM0_4 : Memref sig .tc .vmem S64x1 .f32 := Memref.whole cc0_scratch4
abbrev scM0_5 : Memref sig .tc .vmem S64x64 .f32 := Memref.whole cc0_scratch5

/-- The six scratch memrefs owned at the state `s`. -/
def scOwned (c : Dev nD) (a10 : Memref sig .tc .vmem S64x1 .f32) (a11 : Memref sig .tc .vmem S64x1 .f32) (a12 : Memref sig .tc .vmem S64x64 .f32)
    (a13 : Memref sig .tc .vmem S64x1 .f32) (a14 : Memref sig .tc .vmem S64x1 .f32) (a15 : Memref sig .tc .vmem S64x64 .f32) (s : Sc F) : sProp 𝕄 :=
  iprop(owns (c : Thread nD τ) a10 fullShare s.m0 ∗ owns (c : Thread nD τ) a11 fullShare s.l0 ∗ owns (c : Thread nD τ) a12 fullShare s.a0
    ∗ owns (c : Thread nD τ) a13 fullShare s.m1 ∗ owns (c : Thread nD τ) a14 fullShare s.l1 ∗ owns (c : Thread nD τ) a15 fullShare s.a1)

/-- The six scratch memrefs owned at anything. -/
def scAny (c : Dev nD) (a10 : Memref sig .tc .vmem S64x1 .f32) (a11 : Memref sig .tc .vmem S64x1 .f32) (a12 : Memref sig .tc .vmem S64x64 .f32)
    (a13 : Memref sig .tc .vmem S64x1 .f32) (a14 : Memref sig .tc .vmem S64x1 .f32) (a15 : Memref sig .tc .vmem S64x64 .f32) : sProp 𝕄 :=
  iprop((∃ d, owns (c : Thread nD τ) a10 fullShare d) ∗ (∃ d, owns (c : Thread nD τ) a11 fullShare d) ∗ (∃ d, owns (c : Thread nD τ) a12 fullShare d)
    ∗ (∃ d, owns (c : Thread nD τ) a13 fullShare d) ∗ (∃ d, owns (c : Thread nD τ) a14 fullShare d) ∗ (∃ d, owns (c : Thread nD τ) a15 fullShare d))

/-- The six input memrefs owned at their blocks. -/
def inOwned (c : Dev nD) (a2 a3 : Memref sig .tc .vmem S1x2048x256 .f32) (a4 a5 a6 a7 : Memref sig .tc .vmem S64x256 .f32)
    (x0 x1 : Vec F S1x2048x256 .f32) (wk0 wk1 wv0 wv1 : Vec F S64x256 .f32) : sProp 𝕄 :=
  iprop(owns (c : Thread nD τ) a2 fullShare x0 ∗ owns (c : Thread nD τ) a3 fullShare x1 ∗ owns (c : Thread nD τ) a4 fullShare wk0
    ∗ owns (c : Thread nD τ) a5 fullShare wk1 ∗ owns (c : Thread nD τ) a6 fullShare wv0 ∗ owns (c : Thread nD τ) a7 fullShare wv1)

/-- The other scoped buffers of the core that are no staging buffer of this call (the second call's staging
    buffers), each at some contents: carried through the region unopened. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant (every scoped buffer that is no staging buffer at anything, the generator register at
    some state) with the six scratch operands as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d) ∗ (∃ d, owns (c : Thread nD τ) scM0_5 fullShare d)
          ∗ others0 c) ∗ (∃ r, prngReg c r)) := by
  unfold Pipeline.ΦA others0; rw [scopedRest0_eq]; simp only [scM0_0, scM0_1, scM0_2, scM0_3, scM0_4, scM0_5, owns_whole]; try rfl

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The carried state, point by point -/

/-- The update at point `t`: `step` on the point's six input blocks. -/
def blkStep (c : Dev nD) (t : Fin cfg0.N) (s : Sc F) : Sc F :=
  step (iblk0 V c 0 t) (iblk0 V c 1 t) (iblk0 V c 2 t) (iblk0 V c 3 t) (iblk0 V c 4 t) (iblk0 V c 5 t) s

/-- What the six scratch buffers hold after the body at position `n`: the point's update of the reset state at
    the first tile of a batch row (`n ≡ 0 mod 8`), of what the point before left otherwise. -/
def scAt (c : Dev nD) : (n : ℕ) → n < cfg0.N → Sc F
  | 0, h => blkStep V c ⟨0, h⟩ reset
  | n + 1, h => blkStep V c ⟨n + 1, h⟩ (if (n + 1) % 8 = 0 then reset else scAt c n (Nat.lt_of_succ_lt h))

theorem scAt_first (c : Dev nD) (t : Fin cfg0.N) (h0 : t.val % 8 = 0) : scAt V c t.val t.isLt = blkStep V c t reset := by
  obtain ⟨n, hn⟩ := t
  cases n with
  | zero => rfl
  | succ n => show blkStep V c _ (if (n + 1) % 8 = 0 then reset else _) = _; rw [if_pos h0]

theorem scAt_next (c : Dev nD) (t : Fin cfg0.N) (h0 : ¬t.val % 8 = 0) :
    scAt V c t.val t.isLt = blkStep V c t (scAt V c (t.val - 1) (Nat.lt_of_le_of_lt (Nat.sub_le _ _) t.isLt)) := by
  obtain ⟨n, hn⟩ := t
  cases n with
  | zero => exact absurd (Nat.zero_mod _) h0
  | succ n => show blkStep V c _ (if (n + 1) % 8 = 0 then reset else _) = _; rw [if_neg h0]; rfl

/-! ## The region invariant -/

/-- Before position `n`: before the first point the class invariant (every scratch at anything); afterwards the six
    scratch buffers at what the point before left, the other scoped buffers at anything, the generator register at some state. -/
def PhiS (c : Dev nD) : (n : ℕ) → n ≤ cfg0.N → sProp 𝕄
  | 0, _ => Pipeline.ΦA spec0 c
  | n + 1, hn => iprop(iprop(scOwned c scM0_0 scM0_1 scM0_2 scM0_3 scM0_4 scM0_5 (scAt V c n hn) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(scOwned c scM0_0 scM0_1 scM0_2 scM0_3 scM0_4 scM0_5 (scAt V c n hn) ∗ others0 c) ∗ (∃ r, prngReg c r)) := rfl

theorem PhiS_pos (c : Dev nD) (n : ℕ) (h : n ≤ cfg0.N) (hz : n ≠ 0) :
    PhiS V c n h = iprop(iprop(scOwned c scM0_0 scM0_1 scM0_2 scM0_3 scM0_4 scM0_5 (scAt V c (n - 1) (by omega)) ∗ others0 c) ∗ (∃ r, prngReg c r)) := by
  cases n with
  | zero => exact absurd rfl hz
  | succ n => rfl

/-! ## The proof data -/

/-- The proof data of pipeline 0 on core `c`: the arrays as the region finds them; after the body each input's buffer at
    its block, the two outputs' (consulted only at a last tile, where they are stored) at the quotients of the carried
    state; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => fin0 (scAt V c t.val t.isLt)
    | ⟨7, _⟩ => fin1 (scAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = fin0 (scAt V c t.val t.isLt) := by dsimp only [dat0]
theorem after0_7 (c : Dev nD) (t : Fin cfg0.N) : (dat0 V c).after 7 t = fin1 (scAt V c t.val t.isLt) := by dsimp only [dat0]

end Region0

end Cert.Kernel.Hand

end
-- ==== Proof.K.R0RunA.lean ====
/-
  The reduce kernel's body at the FIRST tile of a batch row (n = 0): it resets the six scratch buffers, then updates them from the tile; it stores nothing into the two output blocks.
-/
import proofs.«177014_j489626271899_1_alg».proof.Proof.K.R0Defs
import proofs.«177014_j489626271899_1_alg».proof.Proof.Gen.Kernel.Skeleton
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 and of a rank-3 whole-shape rectangle, as constant functions. -/
theorem hz2_A : (![0, 0] : Fin 2 → Nat) = fun _ => 0 := funext fun a => by fin_cases a <;> rfl
theorem hz3_A : (![0, 0, 0] : Fin 3 → Nat) = fun _ => 0 := funext fun a => by fin_cases a <;> rfl

/-- After any stores, a LAST store through the whole-shape rectangle at zero offsets leaves its payload: that one
    piece covers every index, and under the last write the canonical contents are its payload. -/
theorem read_last_A {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.Mem.head _, View.mem_set_unit_zero h inb y⟩)).trans
    (View.canon_cons_unit_zero h inb w L)

set_option maxHeartbeats 1000000 in
/-- On whole memrefs — the six inputs at their blocks, the two outputs at contents `xi6`, `xi7` (handed back untouched), the
    six scratch at anything — the body runs to the continuation holding the inputs and outputs as they were and the scratch
    at the update of the reset state. -/
theorem run0_A (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole)
    (hc0 : cond0_0 i) (hc1 : ¬cond0_1 i) (x0 x1 : Vec F S1x2048x256 .f32) (wk0 wk1 wv0 wv1 : Vec F S64x256 .f32) (xi6 xi7 : Vec F S1x64x64 .f32)
    (E : Set ℕ) (K : PUnit → sProp 𝕄) :
    iprop(inOwned c arg2 arg3 arg4 arg5 arg6 arg7 x0 x1 wk0 wk1 wv0 wv1 ∗ owns (c : Thread nD τ) arg8 fullShare xi6 ∗ owns (c : Thread nD τ) arg9 fullShare xi7
        ∗ scAny c arg10 arg11 arg12 arg13 arg14 arg15
        ∗ (iprop(inOwned c arg2 arg3 arg4 arg5 arg6 arg7 x0 x1 wk0 wk1 wv0 wv1 ∗ owns (c : Thread nD τ) arg8 fullShare xi6 ∗ owns (c : Thread nD τ) arg9 fullShare xi7
            ∗ scOwned c arg10 arg11 arg12 arg13 arg14 arg15 (step x0 x1 wk0 wk1 wv0 wv1 reset)) -∗ K ⟨⟩))
      ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__reduce_kernel_eq_skeleton]; unfold cc0__reduce_kernel_skel
  simp only [k0_part1_eq_skeleton, k0_part2_eq_skeleton]
  unfold k0_part1_skel k0_part2_skel
  unfold inOwned scOwned scAny owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%f9, %hf9, H9⟩, ⟨⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  -- a whole memref's contents are determined by what it reads: the eight named buffers hold the pre-images of their blocks
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  -- the body: the reset branch is taken (n = 0), the output branch is not (n ≠ 7)
  sl_exec (disch := first | exact hc0 | exact hc1)
  sl_step
  iapply Hk
  -- the six inputs were only loaded from: each still reads its block
  isplitl [H2 H3 H4 H5 H6 H7]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  -- the two outputs were not touched: handed back at the contents they came with
  isplitl [H8]
  · iexists _; isplitr; · ipureintro; exact harg8.read_unread _
    iexact H8
  isplitl [H9]
  · iexists _; isplitr; · ipureintro; exact harg9.read_unread _
    iexact H9
  -- each scratch buffer was stored into twice through its whole shape, the reset value then the update: it reads the
  -- update's payload, whose loads of the scratch (made between the two stores) read the reset values back, and whose
  -- loads of the inputs read their blocks; that payload is the matching field of `step … reset`
  isplitl [H10]
  · iexists _; isplitr; swap; · iexact H10
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl
  isplitl [H11]
  · iexists _; isplitr; swap; · iexact H11
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl
  isplitl [H12]
  · iexists _; isplitr; swap; · iexact H12
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl
  isplitl [H13]
  · iexists _; isplitr; swap; · iexact H13
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl
  isplitl [H14]
  · iexists _; isplitr; swap; · iexact H14
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl
  · iexists _; isplitr; swap; · iexact H15
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl

end Cert.Kernel.Hand

end
-- ==== Proof.K.R0RunB.lean ====
/-
  The reduce kernel's body at a MIDDLE tile of a batch row (0 < n < 7): it updates the six scratch buffers from the tile over what the tile before left; it stores nothing into the two output blocks.
-/
import proofs.«177014_j489626271899_1_alg».proof.Proof.K.R0Defs
import proofs.«177014_j489626271899_1_alg».proof.Proof.Gen.Kernel.Skeleton
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 and of a rank-3 buffer, as constant functions. -/
private theorem hz2_B : (![0, 0] : Fin 2 → Nat) = fun _ => 0 := funext fun a => by fin_cases a <;> rfl
private theorem hz3_B : (![0, 0, 0] : Fin 3 → Nat) = fun _ => 0 := funext fun a => by fin_cases a <;> rfl

/-- One store of the whole buffer (the full-size rectangle at zero offsets) leaves its payload, whatever was there. -/
private theorem read_store_B {S : Shape} (M : Memref sig .tc .vmem S .f32) (f : M.view.ty.Contents (Elt F))
    {off : Fin S.rank → Nat} (hoff : off = fun _ => 0) (inb : ∀ a, off a + S.size a ≤ S.size a) (w : S.Idx → Elt F .f32) :
    M.view.read (Elt F) (M.view.writes (Elt F) f [(⟨Rect.unit off S.size inb, w⟩ : View.Piece (Elt F) S .f32)]) = w :=
  (View.read_writes_eq_canon _ _ _ (fun y => ⟨_, List.mem_singleton_self _, View.mem_set_unit_zero hoff inb y⟩)).trans
    (View.canon_unit_zero hoff inb w)

/-- A load of the whole buffer through a whole memref held at the contents that read `X` reads `X`. -/
private theorem ld_whole_B {S : Shape} {M : Memref sig .tc .vmem S .f32} (h : M.IsWhole) (X : S.Idx → Elt F .f32)
    {off : Fin S.rank → Nat} (hoff : off = fun _ => 0) (inb : ∀ a, off a + S.size a ≤ S.size a) :
    View.readAt (Elt F) M.view (Rect.unit off S.size inb).toLoadRect (h.unread X) = X := by
  rw [View.readAt_eq_ld, h.read_unread, View.ld_unit_zero hoff]

set_option maxHeartbeats 1000000 in
/-- On whole memrefs — the six inputs at their blocks, the two outputs at contents `xi6`, `xi7` (handed back untouched), the
    six scratch at the state `s` — the body runs to the continuation holding the inputs and outputs as they were and the
    scratch at the update of `s`. -/
theorem run0_B (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole)
    (hc0 : ¬cond0_0 i) (hc1 : ¬cond0_1 i) (x0 x1 : Vec F S1x2048x256 .f32) (wk0 wk1 wv0 wv1 : Vec F S64x256 .f32) (xi6 xi7 : Vec F S1x64x64 .f32) (s : Sc F)
    (E : Set ℕ) (K : PUnit → sProp 𝕄) :
    iprop(inOwned c arg2 arg3 arg4 arg5 arg6 arg7 x0 x1 wk0 wk1 wv0 wv1 ∗ owns (c : Thread nD τ) arg8 fullShare xi6 ∗ owns (c : Thread nD τ) arg9 fullShare xi7
        ∗ scOwned c arg10 arg11 arg12 arg13 arg14 arg15 s
        ∗ (iprop(inOwned c arg2 arg3 arg4 arg5 arg6 arg7 x0 x1 wk0 wk1 wv0 wv1 ∗ owns (c : Thread nD τ) arg8 fullShare xi6 ∗ owns (c : Thread nD τ) arg9 fullShare xi7
            ∗ scOwned c arg10 arg11 arg12 arg13 arg14 arg15 (step x0 x1 wk0 wk1 wv0 wv1 s)) -∗ K ⟨⟩))
      ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__reduce_kernel_eq_skeleton]; unfold cc0__reduce_kernel_skel
  simp only [k0_part1_eq_skeleton, k0_part2_eq_skeleton]
  unfold k0_part1_skel k0_part2_skel
  unfold inOwned scOwned owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%f9, %hf9, H9⟩, ⟨⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  obtain rfl := harg10.eq_unread hf10; obtain rfl := harg11.eq_unread hf11; obtain rfl := harg12.eq_unread hf12
  obtain rfl := harg13.eq_unread hf13; obtain rfl := harg14.eq_unread hf14; obtain rfl := harg15.eq_unread hf15
  -- neither branch is taken: the body is the six input loads, then per scratch buffer its loads and its one store
  sl_exec (disch := first | exact hc0 | exact hc1)
  sl_step
  iapply Hk
  -- the six inputs and the two outputs were only read or left alone: they are handed back at the contents they came with
  isplitl [H2 H3 H4 H5 H6 H7]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  -- each scratch buffer: its one store covers it, so it reads the store's payload; the payload's loads read the state
  -- handed in (every load of a buffer comes before that buffer's store), which makes it the update's field
  isplitl [H10]
  · iexists _; isplitr; swap; · iexact H10
    ipureintro
    refine (read_store_B _ _ hz2_B _ _).trans ?_
    dsimp only
    simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
    rfl
  isplitl [H11]
  · iexists _; isplitr; swap; · iexact H11
    ipureintro
    refine (read_store_B _ _ hz2_B _ _).trans ?_
    dsimp only
    simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
    rfl
  isplitl [H12]
  · iexists _; isplitr; swap; · iexact H12
    ipureintro
    refine (read_store_B _ _ hz2_B _ _).trans ?_
    dsimp only
    simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
    rfl
  isplitl [H13]
  · iexists _; isplitr; swap; · iexact H13
    ipureintro
    refine (read_store_B _ _ hz2_B _ _).trans ?_
    dsimp only
    simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
    rfl
  isplitl [H14]
  · iexists _; isplitr; swap; · iexact H14
    ipureintro
    refine (read_store_B _ _ hz2_B _ _).trans ?_
    dsimp only
    simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
    rfl
  iexists _; isplitr; swap; · iexact H15
  ipureintro
  refine (read_store_B _ _ hz2_B _ _).trans ?_
  dsimp only
  simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
  rfl

end Cert.Kernel.Hand

end
-- ==== Proof.K.R0RunC.lean ====
/-
  The reduce kernel's body at the LAST tile of a batch row (n = 7): it updates the six scratch buffers from the tile over what the tile before left, then stores numerator / denominator of each head into the two output blocks.
-/
import proofs.«177014_j489626271899_1_alg».proof.Proof.K.R0Defs
import proofs.«177014_j489626271899_1_alg».proof.Proof.Gen.Kernel.Skeleton
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of rank 2 and rank 3, as the constant function. -/
theorem runC_hz2 : (![0, 0] : Fin 2 → Nat) = fun _ => 0 := funext fun a => by fin_cases a <;> rfl
theorem runC_hz3 : (![0, 0, 0] : Fin 3 → Nat) = fun _ => 0 := funext fun a => by fin_cases a <;> rfl

/-- After writes whose LAST is a store of the whole shape at zero offsets, the buffer reads that store's payload,
    whatever it held and whatever the earlier writes were: the last piece covers every index. -/
theorem runC_read_unit {κ : Kind} {sp : Space} {S : Shape} {e : EltTy} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

set_option maxHeartbeats 1000000 in
/-- On whole memrefs — the six inputs at their blocks, the two outputs at anything, the six scratch at the state `s` — the
    body runs to the continuation holding the inputs as they were, the scratch at the update of `s`, and the two outputs at
    the quotients of the updated state. -/
theorem run0_C (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole)
    (hc0 : ¬cond0_0 i) (hc1 : cond0_1 i) (x0 x1 : Vec F S1x2048x256 .f32) (wk0 wk1 wv0 wv1 : Vec F S64x256 .f32) (s : Sc F)
    (E : Set ℕ) (K : PUnit → sProp 𝕄) :
    iprop(inOwned c arg2 arg3 arg4 arg5 arg6 arg7 x0 x1 wk0 wk1 wv0 wv1 ∗ (∃ d, owns (c : Thread nD τ) arg8 fullShare d) ∗ (∃ d, owns (c : Thread nD τ) arg9 fullShare d)
        ∗ scOwned c arg10 arg11 arg12 arg13 arg14 arg15 s
        ∗ (iprop(inOwned c arg2 arg3 arg4 arg5 arg6 arg7 x0 x1 wk0 wk1 wv0 wv1 ∗ owns (c : Thread nD τ) arg8 fullShare (fin0 (step x0 x1 wk0 wk1 wv0 wv1 s)) ∗ owns (c : Thread nD τ) arg9 fullShare (fin1 (step x0 x1 wk0 wk1 wv0 wv1 s))
            ∗ scOwned c arg10 arg11 arg12 arg13 arg14 arg15 (step x0 x1 wk0 wk1 wv0 wv1 s)) -∗ K ⟨⟩))
      ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__reduce_kernel_eq_skeleton]; unfold cc0__reduce_kernel_skel
  simp only [k0_part1_eq_skeleton, k0_part2_eq_skeleton]
  unfold k0_part1_skel k0_part2_skel
  unfold inOwned scOwned owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10; obtain rfl := harg11.eq_unread hf11; obtain rfl := harg12.eq_unread hf12
  obtain rfl := harg13.eq_unread hf13; obtain rfl := harg14.eq_unread hf14; obtain rfl := harg15.eq_unread hf15
  sl_exec (disch := first | exact hc0 | exact hc1)
  sl_step
  iapply Hk
  -- the six inputs were only loaded: each is handed back at the block it held
  isplitl [H2 H3 H4 H5 H6 H7]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  -- output 0 holds numerator / denominator of head 0, both read back from what the update just stored
  isplitl [H8]
  · iexists _; isplitr; swap; · iexact H8
    ipureintro
    sl_unfold_words
    refine (runC_read_unit _ _ runC_hz3 _ _ _).trans ?_
    simp only [View.readCov_unit_zero (S := S64x64) _ runC_hz2, View.readCov_unit_zero (S := S64x1) _ runC_hz2]
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  -- output 1 the same for head 1
  isplitl [H9]
  · iexists _; isplitr; swap; · iexact H9
    ipureintro
    sl_unfold_words
    refine (runC_read_unit _ _ runC_hz3 _ _ _).trans ?_
    simp only [View.readCov_unit_zero (S := S64x64) _ runC_hz2, View.readCov_unit_zero (S := S64x1) _ runC_hz2]
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  -- each scratch buffer was stored whole once, from loads of the state `s` and of the input blocks: it reads the
  -- matching field of the update of `s` (the maximum of each head is stored after its denominator and numerator,
  -- which are therefore computed from the old maximum)
  isplitl [H10]
  · iexists _; isplitr; swap; · iexact H10
    ipureintro
    sl_unfold_words
    refine (runC_read_unit _ _ runC_hz2 _ _ _).trans ?_
    dsimp only
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  isplitl [H11]
  · iexists _; isplitr; swap; · iexact H11
    ipureintro
    sl_unfold_words
    refine (runC_read_unit _ _ runC_hz2 _ _ _).trans ?_
    dsimp only
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  isplitl [H12]
  · iexists _; isplitr; swap; · iexact H12
    ipureintro
    sl_unfold_words
    refine (runC_read_unit _ _ runC_hz2 _ _ _).trans ?_
    dsimp only
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  isplitl [H13]
  · iexists _; isplitr; swap; · iexact H13
    ipureintro
    sl_unfold_words
    refine (runC_read_unit _ _ runC_hz2 _ _ _).trans ?_
    dsimp only
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  isplitl [H14]
  · iexists _; isplitr; swap; · iexact H14
    ipureintro
    sl_unfold_words
    refine (runC_read_unit _ _ runC_hz2 _ _ _).trans ?_
    dsimp only
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  iexists _; isplitr; swap; · iexact H15
  ipureintro
  sl_unfold_words
  refine (runC_read_unit _ _ runC_hz2 _ _ _).trans ?_
  dsimp only
  simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
  rfl

end Cert.Kernel.Hand

end
-- ==== Proof.K.R0Body.lean ====
/-
  Region 0's body obligation: at every grid point the reduce kernel's body, called on the windows' current staging
  buffers and the six scratch buffers, takes the region invariant before the point to the invariant after it. The
  point is the first tile of its batch row (n = 0), a middle tile, or the last (n = 7); each case is one run of the body.
  Each input's staging buffer holds its block at every point, fetched there or not; the two output windows are idle
  (handed back untouched, not written back) except at a last tile.
-/
import proofs.«177014_j489626271899_1_alg».proof.Proof.K.R0RunA
import proofs.«177014_j489626271899_1_alg».proof.Proof.K.R0RunB
import proofs.«177014_j489626271899_1_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What the body finds in the inputs' buffers -/

/-- Each input's current staging buffer holds its block at every point, fetched there or not: an input is never idle,
    its window is uncut, and the body leaves the block in place, so an unfetched buffer still holds the block of the
    point before, whose index is this point's. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-- After the body each input's buffer is owned at its block (an input is live at every point). -/
theorem leaves0_0 (c : Dev nD) (t : Fin cfg0.N) :
    (dat0 V c).leavesExact 0 t = owns (c : Thread nD τ) (ms0_0 t) fullShare (iblk0 V c 0 t) := by
  unfold Dat.leavesExact; rw [liveAt0_in 0 (by decide) t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_in 1 (by decide) t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_in 2 (by decide) t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_in 3 (by decide) t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0_in 4 (by decide) t, after0_4]
theorem leaves0_5 (c : Dev nD) (t : Fin cfg0.N) :
    (dat0 V c).leavesExact 5 t = owns (c : Thread nD τ) (ms0_5 t) fullShare (iblk0 V c 5 t) := by
  unfold Dat.leavesExact; rw [liveAt0_in 5 (by decide) t, after0_5]

/-! ## The body obligation, at a generic point -/

/-- What the body is called with at point `t`: the invariant, nothing owed, the eight windows' current buffers one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- At a last tile the two outputs are live: after the body their buffers are owned at the quotients of the carried state. -/
theorem leaves0_6_live (c : Dev nD) (t : Fin cfg0.N) (hc1 : cond0_1 (grid0.coords t)) :
    (dat0 V c).leavesExact 6 t = owns (c : Thread nD τ) (ms0_6 t) fullShare (fin0 (scAt V c t.val t.isLt)) := by
  unfold Dat.leavesExact; rw [liveAt0_6 t hc1, after0_6]
theorem leaves0_7_live (c : Dev nD) (t : Fin cfg0.N) (hc1 : cond0_1 (grid0.coords t)) :
    (dat0 V c).leavesExact 7 t = owns (c : Thread nD τ) (ms0_7 t) fullShare (fin1 (scAt V c t.val t.isLt)) := by
  unfold Dat.leavesExact; rw [liveAt0_7 t hc1, after0_7]

/-- The body at any point. The inputs' buffers hold their blocks; the point is a first tile, a middle tile or a last
    tile of its batch row, and the run of that case applies: the invariant hands it the six scratch buffers (at anything
    before the very first point, at what the point before left otherwise — which a first tile forgets, since it resets
    them) and takes them back at this point's update; the other scoped buffers and the generator register ride through;
    the two outputs are handed back as found where idle, at the quotients of the updated state at a last tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  have hN : t.val < 32 := lt_of_lt_of_eq t.isLt (show cfg0.N = 32 from N_0)
  by_cases h0 : t.val % 8 = 0
  · by_cases h1 : t.val % 8 = 7
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 6 t (idleAt0_6 t hc1) (noFlush0_6 t hc1),
        Dat.leavesExact_idle (dat0 V c) 7 t (idleAt0_7 t hc1) (noFlush0_7 t hc1)]
      rw [scAt_first V c t h0]; unfold blkStep
      by_cases hz : t.val = 0
      · rw [PhiS_castSucc V c t, PhiS_zero V c _ _ hz, PhiA0_eq]
        iintro ⟨⟨⟨HS0, HS1, HS2, HS3, HS4, HS5, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run0_A c (grid0.coords t) _ _ _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) ((dat0 V c).before 6 t d6) ((dat0 V c).before 7 t d7) Set.univ _)
        unfold inOwned scAny scOwned
        isplitl [H0 H1 H2 H3 H4 H5]
        · isplitl [H0]; · iexact H0
          isplitl [H1]; · iexact H1
          isplitl [H2]; · iexact H2
          isplitl [H3]; · iexact H3
          isplitl [H4]; · iexact H4
          iexact H5
        isplitl [H6]; · iexact H6
        isplitl [H7]; · iexact H7
        isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iintro ⟨⟨H0, H1, H2, H3, H4, H5⟩, H6, H7, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists d6; iexact H6
        iexists d7; iexact H7
      · rw [PhiS_castSucc V c t, PhiS_pos V c _ _ hz]
        unfold scOwned
        iintro ⟨⟨⟨⟨HS0, HS1, HS2, HS3, HS4, HS5⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run0_A c (grid0.coords t) _ _ _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) ((dat0 V c).before 6 t d6) ((dat0 V c).before 7 t d7) Set.univ _)
        unfold inOwned scAny scOwned
        isplitl [H0 H1 H2 H3 H4 H5]
        · isplitl [H0]; · iexact H0
          isplitl [H1]; · iexact H1
          isplitl [H2]; · iexact H2
          isplitl [H3]; · iexact H3
          isplitl [H4]; · iexact H4
          iexact H5
        isplitl [H6]; · iexact H6
        isplitl [H7]; · iexact H7
        isplitl [HS0 HS1 HS2 HS3 HS4 HS5]
        · isplitl [HS0]; · iexists _; iexact HS0
          isplitl [HS1]; · iexists _; iexact HS1
          isplitl [HS2]; · iexists _; iexact HS2
          isplitl [HS3]; · iexists _; iexact HS3
          isplitl [HS4]; · iexists _; iexact HS4
          iexists _; iexact HS5
        iintro ⟨⟨H0, H1, H2, H3, H4, H5⟩, H6, H7, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists d6; iexact H6
        iexists d7; iexact H7
  · have hz : t.val ≠ 0 := fun e => h0 (by rw [e])
    have hc0 : ¬cond0_0 (grid0.coords t) := fun h => h0 ((hcond0_0 t).mp h)
    rw [PhiS_castSucc V c t, PhiS_pos V c _ _ hz]
    by_cases h1 : t.val % 8 = 7
    · have hc1 : cond0_1 (grid0.coords t) := (hcond0_1 t).mpr h1
      rw [leaves0_6_live V c t hc1, leaves0_7_live V c t hc1]
      rw [scAt_next V c t h0]; unfold blkStep
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_C c (grid0.coords t) _ _ _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (scAt V c (t.val - 1) (Nat.lt_of_le_of_lt (Nat.sub_le _ _) t.isLt)) Set.univ _)
      unfold inOwned
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [HS]; · iexact HS
      iintro ⟨⟨H0, H1, H2, H3, H4, H5⟩, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond0_1 (grid0.coords t) := fun h => h1 ((hcond0_1 t).mp h)
      rw [Dat.leavesExact_idle (dat0 V c) 6 t (idleAt0_6 t hc1) (noFlush0_6 t hc1),
        Dat.leavesExact_idle (dat0 V c) 7 t (idleAt0_7 t hc1) (noFlush0_7 t hc1)]
      rw [scAt_next V c t h0]; unfold blkStep
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_B c (grid0.coords t) _ _ _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) ((dat0 V c).before 6 t d6) ((dat0 V c).before 7 t d7) (scAt V c (t.val - 1) (Nat.lt_of_le_of_lt (Nat.sub_le _ _) t.isLt)) Set.univ _)
      unfold inOwned
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [H7]; · iexact H7
      isplitl [HS]; · iexact HS
      iintro ⟨⟨H0, H1, H2, H3, H4, H5⟩, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  unfold scOwned
  iintro ⟨⟨⟨HS0, HS1, HS2, HS3, HS4, HS5⟩, Hoth⟩, Hg⟩
  isplitl [HS0 HS1 HS2 HS3 HS4 HS5 Hoth]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexact Hoth
  iexact Hg

end Region0

end Cert.Kernel.Hand

end
-- ==== Proof.K.R1.lean ====
/-
  Region 1 (the apply kernel over the grid 4 × 8): the blocks its seven windows read, its proof data and its body
  obligation. The body loads its six input blocks whole and stores the output block `apply1` of them whole; it
  keeps nothing between points. Stated at a parameter `V`: the TensorCore's buffer contents when the region is entered.
-/
import proofs.«177014_j489626271899_1_alg».proof.Proof.K.Step
import proofs.«177014_j489626271899_1_alg».proof.Proof.Gen.Kernel.Launch
import proofs.«177014_j489626271899_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The all-zero offsets of a rank-3 and of a rank-2 rectangle, as constant functions. -/
private theorem hz3 : (![0, 0, 0] : Fin 3 → Nat) = fun _ => 0 := by funext a; fin_cases a <;> rfl
private theorem hz2 : (![0, 0] : Fin 2 → Nat) = fun _ => 0 := by funext a; fin_cases a <;> rfl

/-- The kernel body on whole staging memrefs, the six inputs' at read contents and the output's at anything, runs to
    the continuation holding the inputs' as they were and the output's at `apply1` of the six: every load is through
    the whole-shape rectangle at zero offsets and reads the buffer; the one store is through the whole-shape rectangle
    and leaves its payload. -/
theorem sound_kernel1 (c : Dev nD) (E : Set ℕ) (i : grid1.Coords)
    (arg2 : Memref sig .tc .vmem S1x2048x256 .f32) (harg2 : arg2.IsWhole)
    (arg3 : Memref sig .tc .vmem S1x2048x256 .f32) (harg3 : arg3.IsWhole)
    (arg4 : Memref sig .tc .vmem S64x256 .f32) (harg4 : arg4.IsWhole)
    (arg5 : Memref sig .tc .vmem S64x256 .f32) (harg5 : arg5.IsWhole)
    (arg6 : Memref sig .tc .vmem S1x64x64 .f32) (harg6 : arg6.IsWhole)
    (arg7 : Memref sig .tc .vmem S1x64x64 .f32) (harg7 : arg7.IsWhole)
    (arg8 : Memref sig .tc .vmem S1x2048x128 .f32) (harg8 : arg8.IsWhole)
    (x0 x1 : Vec F S1x2048x256 .f32) (wq0 wq1 : Vec F S64x256 .f32) (w0 w1 : Vec F S1x64x64 .f32)
    (K : PUnit → sProp 𝕄) :
    iprop(owns (c : Thread nD τ) arg2 fullShare x0 ∗ owns (c : Thread nD τ) arg3 fullShare x1
        ∗ owns (c : Thread nD τ) arg4 fullShare wq0 ∗ owns (c : Thread nD τ) arg5 fullShare wq1
        ∗ owns (c : Thread nD τ) arg6 fullShare w0 ∗ owns (c : Thread nD τ) arg7 fullShare w1
        ∗ (∃ d, owns (c : Thread nD τ) arg8 fullShare d)
        ∗ (iprop(owns (c : Thread nD τ) arg2 fullShare x0 ∗ owns (c : Thread nD τ) arg3 fullShare x1
            ∗ owns (c : Thread nD τ) arg4 fullShare wq0 ∗ owns (c : Thread nD τ) arg5 fullShare wq1
            ∗ owns (c : Thread nD τ) arg6 fullShare w0 ∗ owns (c : Thread nD τ) arg7 fullShare w1
            ∗ owns (c : Thread nD τ) arg8 fullShare (apply1 x0 x1 wq0 wq1 w0 w1)) -∗ K ⟨⟩))
      ⊢ wp frame (wpE (defs₀ (F := F)) Variants.none c none) E
          (cc1__apply_kernel i arg2 harg2 arg3 harg3 arg4 harg4 arg5 harg5 arg6 harg6 arg7 harg7 arg8 harg8) K := by
  simp only [cc1__apply_kernel_eq_skeleton]; unfold cc1__apply_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf2 hf3 hf4 hf5 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (View.cover_of_tiled _ S1x2048x128.size (by rfl))).trans ?_
  refine (View.canon_unit_zero (S := S1x2048x128) hz3 inb_S1x2048x128_S1x2048x128_0_0_0 _).trans ?_
  have e2 : View.readAt (Elt F) arg2.view (Rect.unit ![0, 0, 0] S1x2048x256.size inb_S1x2048x256_S1x2048x256_0_0_0).toLoadRect f2
      = View.read (Elt F) arg2.view f2 := View.ld_unit_zero (S := S1x2048x256) hz3 inb_S1x2048x256_S1x2048x256_0_0_0 _
  have e3 : View.readAt (Elt F) arg3.view (Rect.unit ![0, 0, 0] S1x2048x256.size inb_S1x2048x256_S1x2048x256_0_0_0).toLoadRect f3
      = View.read (Elt F) arg3.view f3 := View.ld_unit_zero (S := S1x2048x256) hz3 inb_S1x2048x256_S1x2048x256_0_0_0 _
  have e4 : View.readAt (Elt F) arg4.view (Rect.unit ![0, 0] S64x256.size inb_S64x256_S64x256_0_0).toLoadRect f4
      = View.read (Elt F) arg4.view f4 := View.ld_unit_zero (S := S64x256) hz2 inb_S64x256_S64x256_0_0 _
  have e5 : View.readAt (Elt F) arg5.view (Rect.unit ![0, 0] S64x256.size inb_S64x256_S64x256_0_0).toLoadRect f5
      = View.read (Elt F) arg5.view f5 := View.ld_unit_zero (S := S64x256) hz2 inb_S64x256_S64x256_0_0 _
  have e6 : View.readAt (Elt F) arg6.view (Rect.unit ![0, 0, 0] S1x64x64.size inb_S1x64x64_S1x64x64_0_0_0).toLoadRect f6
      = View.read (Elt F) arg6.view f6 := View.ld_unit_zero (S := S1x64x64) hz3 inb_S1x64x64_S1x64x64_0_0_0 _
  have e7 : View.readAt (Elt F) arg7.view (Rect.unit ![0, 0, 0] S1x64x64.size inb_S1x64x64_S1x64x64_0_0_0).toLoadRect f7
      = View.read (Elt F) arg7.view f7 := View.ld_unit_zero (S := S1x64x64) hz3 inb_S1x64x64_S1x64x64_0_0_0 _
  unfold apply1
  dsimp only
  rw [e2, e3, e4, e5, e6]
  exact congrArg _ e7

section Region1

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: the arrays as the region finds them; after the body each input's buffer at
    its block and the output's at `apply1` of the six input blocks; the class invariant (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => apply1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) :
    (dat1 V c).after 6 t = apply1 (iblk1 V c 0 t) (iblk1 V c 1 t) (iblk1 V c 2 t) (iblk1 V c 3 t) (iblk1 V c 4 t) (iblk1 V c 5 t) := by
  dsimp only [dat1]

/-! ## What the body leaves in the inputs' buffers, and what it finds there -/

/-- Each input's buffer is left at its block (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-! Each input's current staging buffer holds its block at every point, fetched there or not: the window is uncut and
    never idle, the body leaves the block in place, and where no fetch happens the block index has not moved. -/

theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := fun t => by
    rw [after1_0]; unfold Dat.blockOf iblk1; rw [A_eq1]; try rfl
  refine ((dat1 V c).before_in_eq_fetched 0 rfl (fun _ => rfl) (fun _ _ _ => rfl) hkeep t d).trans ?_
  unfold Dat.fetched Dat.blockOf iblk1; rw [A_eq1]; try rfl

theorem before1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := fun t => by
    rw [after1_1]; unfold Dat.blockOf iblk1; rw [A_eq1]; try rfl
  refine ((dat1 V c).before_in_eq_fetched 1 rfl (fun _ => rfl) (fun _ _ _ => rfl) hkeep t d).trans ?_
  unfold Dat.fetched Dat.blockOf iblk1; rw [A_eq1]; try rfl

theorem before1_2 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := fun t => by
    rw [after1_2]; unfold Dat.blockOf iblk1; rw [A_eq1]; try rfl
  refine ((dat1 V c).before_in_eq_fetched 2 rfl (fun _ => rfl) (fun _ _ _ => rfl) hkeep t d).trans ?_
  unfold Dat.fetched Dat.blockOf iblk1; rw [A_eq1]; try rfl

theorem before1_3 (c : Dev nD) (t : Fin cfg1.N) (d) : (dat1 V c).before 3 t d = iblk1 V c 3 t := by
  have hkeep : ∀ t, (cfg1.win 3).cut (cfg1.grid.coords t) ((dat1 V c).after 3 t) = (dat1 V c).blockOf 3 t := fun t => by
    rw [after1_3]; unfold Dat.blockOf iblk1; rw [A_eq1]; try rfl
  refine ((dat1 V c).before_in_eq_fetched 3 rfl (fun _ => rfl) (fun _ _ _ => rfl) hkeep t d).trans ?_
  unfold Dat.fetched Dat.blockOf iblk1; rw [A_eq1]; try rfl

theorem before1_4 (c : Dev nD) (t : Fin cfg1.N) (d) : (dat1 V c).before 4 t d = iblk1 V c 4 t := by
  have hkeep : ∀ t, (cfg1.win 4).cut (cfg1.grid.coords t) ((dat1 V c).after 4 t) = (dat1 V c).blockOf 4 t := fun t => by
    rw [after1_4]; unfold Dat.blockOf iblk1; rw [A_eq1]; try rfl
  refine ((dat1 V c).before_in_eq_fetched 4 rfl (fun _ => rfl) (fun _ _ _ => rfl) hkeep t d).trans ?_
  unfold Dat.fetched Dat.blockOf iblk1; rw [A_eq1]; try rfl

theorem before1_5 (c : Dev nD) (t : Fin cfg1.N) (d) : (dat1 V c).before 5 t d = iblk1 V c 5 t := by
  have hkeep : ∀ t, (cfg1.win 5).cut (cfg1.grid.coords t) ((dat1 V c).after 5 t) = (dat1 V c).blockOf 5 t := fun t => by
    rw [after1_5]; unfold Dat.blockOf iblk1; rw [A_eq1]; try rfl
  refine ((dat1 V c).before_in_eq_fetched 5 rfl (fun _ => rfl) (fun _ _ _ => rfl) hkeep t d).trans ?_
  unfold Dat.fetched Dat.blockOf iblk1; rw [A_eq1]; try rfl

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six inputs' memrefs hold their blocks (`before1_w`), so `sound_kernel1` applies at those
    blocks; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The whole program's run: @main is region 0 (the reduce kernel), region 1 (the apply kernel), then two host slices.
  The buffer contents at each boundary are a fold from the launch memory: after region 0 its two result arrays hold
  what its write-backs leave, after region 1 its result array likewise, then the host slices' results. Every weakly
  fair execution terminates with each result buffer at the last boundary's contents and every argument as launched.
-/
import proofs.«177014_j489626271899_1_alg».proof.Proof.K.R0Body
import proofs.«177014_j489626271899_1_alg».proof.Proof.K.R1
import proofs.«177014_j489626271899_1_alg».proof.Proof.Gen.Kernel.Regions
import Idealize.ShloMosaic.Lib.Pipeline.Regions
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => m (c, b)
abbrev V0 : (c : Dev nD) → (b : Ref sig .tc) → Buf (Elt F) ((c : Thread nD τ).loc b) := fun c b => W0 m c b
/-- At region 0's exit: its arrays at what the pipeline leaves, every other buffer as entered (region 1's entry). -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- At region 1's exit: its arrays at what the pipeline leaves, every other buffer as entered. -/
def W2 (c : Dev nD) : Valuation τ sig (Elt F) :=
  Pipeline.withArrays spec1 c (W1 m c) fun w => (dat1 (V1 m) c).arrAt w cfg1.N
abbrev V2 : (c : Dev nD) → (b : Ref sig .tc) → Buf (Elt F) ((c : Thread nD τ).loc b) := fun c b => W2 m c b
/-- After the two host slices. -/
def W3 (c : Dev nD) : Valuation τ sig (Elt F) := StableHlo.after hostOps2 (W2 m c)

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

/-! ## The boundary contents read at a region's arrays and off them -/

/-- At region 0's exit each of its arrays holds what the pipeline leaves, -/
theorem hF0 (c : Dev nD) (w : Fin cfg0.W) : (dat0 (V0 m) c).arrAt w cfg0.N = V1 m c (Pipeline.arrRef spec0 w) :=
  (W1_arr m c w).symm
/-- and every buffer that is no array of region 0 what it held at entry. -/
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- At region 1's exit each of its arrays holds what the pipeline leaves, -/
theorem hF1 (c : Dev nD) (w : Fin cfg1.W) : (dat1 (V1 m) c).arrAt w cfg1.N = V2 m c (Pipeline.arrRef spec1 w) :=
  (W2_arr m c w).symm
/-- and every buffer that is no array of region 1 what it held at entry. -/
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- An input array of region 0 leaves the region as it entered: an input window is never written back. -/
theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w hw _).trans (A_eq0 (V0 m) c w))
/-- An input array of region 1 leaves the region as it entered. -/
theorem W2_in (c : Dev nD) (w : Fin cfg1.W) (hw : (cfg1.win w).isOut = false) :
    W2 m c (Proc.devRef .tc (Pipeline.arrRef spec1 w)) = W1 m c (Proc.devRef .tc (Pipeline.arrRef spec1 w)) :=
  (W2_arr m c w).trans (((dat1 (V1 m) c).arrAt_in w hw _).trans (A_eq1 (V1 m) c w))
/-- The host slices write the two results only. -/
theorem W3_of (c : Dev nD) (r : Ref sig .tc) (h : r ∉ (hostOps2_W : List (Ref sig .tc))) :
    W3 m c (Proc.devRef .tc r) = W2 m c (Proc.devRef .tc r) := by
  unfold W3; exact StableHlo.after_of_writes_sub hostOps2 _ hostOps2_writes h

/-! ### The arguments end as launched: no host slice writes one, and a region reads it through an input window or
    passes it by, so the fold at an argument's buffer walks back to the launch memory -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of m c main_arg0 (by decide)
    _ = W1 m c (Proc.devRef .tc main_arg0) := W2_in m c 0 rfl
    _ = W0 m c (Proc.devRef .tc main_arg0) := W1_in m c 0 rfl
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of m c main_arg1 (by decide)
    _ = W1 m c (Proc.devRef .tc main_arg1) := W2_in m c 1 rfl
    _ = W0 m c (Proc.devRef .tc main_arg1) := W1_in m c 1 rfl
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_in m c 2 rfl
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_in m c 3 rfl
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of m c main_arg4 (by decide)
    _ = W1 m c (Proc.devRef .tc main_arg4) := W2_in m c 2 rfl
    _ = W0 m c (Proc.devRef .tc main_arg4) := W1_of_ne m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of m c main_arg5 (by decide)
    _ = W1 m c (Proc.devRef .tc main_arg5) := W2_in m c 3 rfl
    _ = W0 m c (Proc.devRef .tc main_arg5) := W1_of_ne m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_in m c 4 rfl
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_in m c 5 rfl
    _ = m ((c : Thread nD τ).loc main_arg7) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every segment: the core's generator register at some state (a
    region's invariant takes it in and gives it back) and the core owing nothing. -/
abbrev R (c : Dev nD) : sProp 𝕄 := iprop((∃ r, prngReg c r) ∗ ∃ W, owes (c : Thread nD τ) (0 : CellTallies nD τ sig Unit) W)
/-- The two host slices as a segment over the unscoped buffers from region 1's exit contents. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the two regions' entries and exits share -/

/-- Neither pipeline has a prefetched table, so its tables held at any share are no resource at all. -/
theorem noTables0 (c : Dev nD) :
    (Pipeline.prefHeld (pcfgs (F := F) 0).pre c (fun _ => fullShare) (adm (F := F) 0).1 : sProp 𝕄) = BI.emp := by
  unfold Pipeline.prefHeld; exact BI.bigSep_empty
theorem noTables1 (c : Dev nD) :
    (Pipeline.prefHeld (pcfgs (F := F) 1).pre c (fun _ => fullShare) (adm (F := F) 1).1 : sProp 𝕄) = BI.emp := by
  unfold Pipeline.prefHeld; exact BI.bigSep_empty

section Dues

variable {cfg : Cfg sig Λ₀} {c : Dev nD} (dat : Dat τ (Elt F) Unit ℕ (UR sig nD τ) ℕ cfg c)

/-- A core that owes nothing holds its dues as a pipeline's loop keeps them, at any point where the proof data owe
    nothing and bound the recorded pairs by every pair: the bound then excludes none. -/
theorem dues_in (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  show _ ⊢ iprop(∃ W, ⌜↑W ⊆ dat.bound () t⌝ ∗ owes (c : Thread nD τ) (dat.owed t) W)
  rw [h0]
  iintro ⟨%W, H⟩
  iexists W
  isplitr
  · ipureintro; intro x _; exact Or.inl (hrec ▸ Set.mem_univ x)
  iexact H

/-- Conversely the loop's dues at a point where the proof data owe nothing are the core owing nothing: the bound
    on the recorded pairs is forgotten. -/
theorem dues_out (t : Fin (cfg.N + 1)) (h0 : dat.owed t = 0) :
    dat.owesAt () t ⊢ (iprop(∃ W, owes (c : Thread nD τ) (0 : CellTallies nD τ sig Unit) W) : sProp 𝕄) := by
  show iprop(∃ W, ⌜↑W ⊆ dat.bound () t⌝ ∗ owes (c : Thread nD τ) (dat.owed t) W) ⊢ _
  rw [h0]
  iintro ⟨%W, -, H⟩
  iexists W
  iexact H

end Dues

/-! ## The unscoped buffers as a region's arrays beside the rest -/

set_option backward.isDefEq.respectTransparency.types false in
/-- Entering region 0: the unscoped buffers at the launch contents are its eight arrays at the proof data's entry
    contents beside the five buffers that are no array of it. -/
theorem split0 (c : Dev nD) :
    (StableHlo.held (c : Thread nD τ) (Pipeline.ucRefs τ sig) (W0 m c) : sProp 𝕄)
      ⊢ iprop((pdats m 0 c).arrays ((pdats m 0 c).arrAt · 0)
          ∗ Pipeline.unscopedRest (Ix := Unit) (Name := ℕ) (U := UR sig nD τ) (Lvl := ℕ) spec0 c (V0 m c)) := by
  rw [← Pipeline.unscopedBufs_held]
  exact Pipeline.arrays_of_unscopedBufs (p := 0) (pcfgs (F := F)) adm (pdats m) launch0.win launch0.arr_whole c
    ((pdats m 0 c).share_full fun _ => rfl) (V0 m c) fun _ => rfl

set_option backward.isDefEq.respectTransparency.types false in
/-- Leaving region 0: its arrays after every write-back beside the five other buffers, untouched, are the unscoped
    buffers at the region's exit contents. -/
theorem join0 (c : Dev nD) :
    iprop((pdats m 0 c).arrays ((pdats m 0 c).arrAt · cfg0.N)
        ∗ Pipeline.unscopedRest (Ix := Unit) (Name := ℕ) (U := UR sig nD τ) (Lvl := ℕ) spec0 c (V0 m c))
      ⊢ (StableHlo.held (c : Thread nD τ) (Pipeline.ucRefs τ sig) (W1 m c) : sProp 𝕄) := by
  rw [← Pipeline.unscopedBufs_held]
  exact Pipeline.unscopedBufs_of_arrays (p := 0) (pcfgs (F := F)) adm launch0.win launch0.arr_whole c (pdats m)
    ((pdats m 0 c).share_full fun _ => rfl) (V0 m c) (V1 m c) _ (hF0 m c) (hrest0 m c)

set_option backward.isDefEq.respectTransparency.types false in
/-- Entering region 1: the unscoped buffers at region 0's exit contents are its seven arrays at the proof data's
    entry contents beside the six buffers that are no array of it. -/
theorem split1 (c : Dev nD) :
    (StableHlo.held (c : Thread nD τ) (Pipeline.ucRefs τ sig) (W1 m c) : sProp 𝕄)
      ⊢ iprop((pdats m 1 c).arrays ((pdats m 1 c).arrAt · 0)
          ∗ Pipeline.unscopedRest (Ix := Unit) (Name := ℕ) (U := UR sig nD τ) (Lvl := ℕ) spec1 c (V1 m c)) := by
  rw [← Pipeline.unscopedBufs_held]
  exact Pipeline.arrays_of_unscopedBufs (p := 1) (pcfgs (F := F)) adm (pdats m) launch1.win launch1.arr_whole c
    ((pdats m 1 c).share_full fun _ => rfl) (V1 m c) fun _ => rfl

set_option backward.isDefEq.respectTransparency.types false in
/-- Leaving region 1: its arrays after every write-back beside the six other buffers, untouched, are the unscoped
    buffers at the region's exit contents. -/
theorem join1 (c : Dev nD) :
    iprop((pdats m 1 c).arrays ((pdats m 1 c).arrAt · cfg1.N)
        ∗ Pipeline.unscopedRest (Ix := Unit) (Name := ℕ) (U := UR sig nD τ) (Lvl := ℕ) spec1 c (V1 m c))
      ⊢ (StableHlo.held (c : Thread nD τ) (Pipeline.ucRefs τ sig) (W2 m c) : sProp 𝕄) := by
  rw [← Pipeline.unscopedBufs_held]
  exact Pipeline.unscopedBufs_of_arrays (p := 1) (pcfgs (F := F)) adm launch1.win launch1.arr_whole c (pdats m)
    ((pdats m 1 c).share_full fun _ => rfl) (V1 m c) (V2 m c) _ (hF1 m c) (hrest1 m c)

/-! ## The regions as segments -/

set_option backward.isDefEq.respectTransparency.types false in
/-- Region 0 (the reduce kernel) over the thread state: entered from every unscoped buffer at `W0`, left at `W1`. The
    generator register goes into the region's invariant beside the scoped rest and comes back out of it: the invariant
    tracks the six scratch buffers' contents between its two ends, where it is the class invariant. The five buffers
    that are no array of the region pass it by; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none, noTables0 c]
    iintro ⟨⟨Hbufs, Hreg, Hdue⟩, -, -⟩
    icases (split0 m c) $$ Hbufs with ⟨Harr, Hrest⟩
    ihave Hdue' := (dues_in (pdats m 0 c) 0 rfl rfl) $$ Hdue
    imodintro
    iframe
    iempintro
  hin c := by
    rw [noTables0 c]
    refine BIBase.Entails.trans ?_ (hin0 (V0 m) c)
    unfold Pipeline.ΦA
    iintro ⟨Hreg, -, Hsc⟩
    iframe
  hout c := by
    rw [Pipeline.ownSems0_none]
    refine BIBase.Entails.trans (hout0 (V0 m) c) ?_
    unfold Pipeline.ΦA
    iintro ⟨Hsc, Hreg⟩
    iframe
    iempintro
  hexit c := by
    iintro ⟨Harr, Hdue, Hreg, Hrest⟩
    ihave Hbufs := (join0 m c) $$ [Harr Hrest]
    · iframe
    ihave Hdue' := (dues_out (pdats m 0 c) (Fin.last _) rfl) $$ Hdue
    imodintro
    isplitl [Hbufs]; · iexact Hbufs
    isplitl [Hreg]; · iexact Hreg
    iexact Hdue'

set_option backward.isDefEq.respectTransparency.types false in
/-- Region 1 (the apply kernel) over the thread state: entered from every unscoped buffer at `W1`, left at `W2`. Its
    invariant is the class invariant at every point (the scoped rest and the generator register, untouched). The six
    buffers that are no array of the region pass it by; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none, noTables1 c]
    iintro ⟨⟨Hbufs, Hreg, Hdue⟩, -, -⟩
    icases (split1 m c) $$ Hbufs with ⟨Harr, Hrest⟩
    ihave Hdue' := (dues_in (pdats m 1 c) 0 rfl rfl) $$ Hdue
    imodintro
    iframe
    iempintro
  hin c := by
    rw [noTables1 c]
    show _ ⊢ Pipeline.ΦA spec1 c
    unfold Pipeline.ΦA
    iintro ⟨Hreg, -, Hsc⟩
    iframe
  hout c := by
    rw [Pipeline.ownSems0_none]
    show Pipeline.ΦA spec1 c ⊢ _
    unfold Pipeline.ΦA
    iintro ⟨Hsc, Hreg⟩
    iframe
    iempintro
  hexit c := by
    iintro ⟨Harr, Hdue, Hreg, Hrest⟩
    ihave Hbufs := (join1 m c) $$ [Harr Hrest]
    · iframe
    ihave Hdue' := (dues_out (pdats m 1 c) (Fin.last _) rfl) $$ Hdue
    imodintro
    isplitl [Hbufs]; · iexact Hbufs
    isplitl [Hreg]; · iexact Hreg
    iexact Hdue'

/-! ## @main as segments -/

/-- @main's three segments in order: the two kernel regions, then the host slices. -/
abbrev segs : List (Pipeline.Seg (pcfgs (F := F)) adm (pdats m) () defs₀ 𝒱₀ L lv) :=
  [.region (reg0 m), .region (reg1 m), .host (hseg2 m)]

/-- @main is the run of those segments: both are the chain of the same three fragments. -/
theorem main_run (c : Dev nD) : main (F := F) c = Pipeline.Seg.run (segs m) := by
  rw [main_chain c, Pipeline.Seg.run_eq_chain]; rfl

/-! ## The run -/

/-- No ghost resource on any core is no resource. -/
theorem emp_cores : (BI.emp : sProp 𝕄) ⊢ bigSep Finset.univ (fun _ : Dev nD => (iprop(emp) : sProp 𝕄)) :=
  Entails.of_eq (BI.bigSep_emp_const Finset.univ).symm

set_option backward.isDefEq.respectTransparency.types false in
/-- From any memory with zero counters every weakly fair execution of @main terminates, nothing faulting, with the two
    results at the last boundary's contents and every argument as launched. -/
theorem run_value : θ_run defs (onTc (τ := τ) (main (F := F))) ⟨m, fun _ => 0, ρ⟩ (fun r => ∀ c : Dev nD,
      r.2.mem ((c.tc : Thread nD τ).loc main_v2) = W3 m c (Proc.devRef .tc main_v2)
      ∧ r.2.mem ((c.tc : Thread nD τ).loc main_v3) = W3 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' alone; no ghost resource is dealt to a core
      rw [ownU_emb₁]
      iintro Hu
      imodintro
      isplitl [Hu]; · iexact Hu
      iapply emp_cores
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c => by
      -- after the host slices: the buffers at the last boundary's contents, the register, the core owing nothing
      show iprop(StableHlo.held (c : Thread nD τ) (Pipeline.ucRefs τ sig) (W3 m c) ∗ R c) ⊢ _
      iintro ⟨Hbufs, Hreg, Hdue⟩
      isplitr [Hdue]; · isplitl [Hbufs]; · iexact Hbufs
                        iexact Hreg
      iexact Hdue⟩)
    (hinit := by
      -- each core makes its first thread state alone: its unscoped buffers as launched, its register, owing nothing
      refine Pipeline.initEach L lv fun c => ?_
      rw [show unscopedBufs c (fun b => m ((c : Thread nD τ).loc b))
          = StableHlo.held (c : Thread nD τ) (Pipeline.ucRefs τ sig) (W0 m c) from Pipeline.unscopedBufs_held c (W0 m c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem ((c : Thread nD τ).1, b) = W3 m c b)
    (hfin := fun c s' => by
      -- the buffers held beside the final state's interpretation say what its memory holds
      iintro ⟨⟨Hbufs, -⟩, HSI⟩
      unfold StableHlo.held
      imodintro
      iapply (pointsTo_read_all (Pipeline.ucRefs τ sig) (fun b => ((c : Thread nD τ).1, b)) (W3 m c) s')
      iframe)
    (hQ := fun s h c =>
      ⟨h c _ (mem_uc main_v2 (by decide)), h c _ (mem_uc main_v3 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c),
       (h c _ (mem_uc main_arg6 (by decide))).trans (W3_main_arg6 m c),
       (h c _ (mem_uc main_arg7 (by decide))).trans (W3_main_arg7 m c)⟩)

end Cert.Kernel.Hand

end
-- ==== Proof.KI.Step.lean ====
/-
  The reduce kernel's carried state and its one-tile update, as pure functions of the blocks the body
  loads, generic in the float instance. Six scratch buffers are carried from grid point to grid point:
  per head (0 and 1) a running column maximum `m` (64×1), a running denominator `l` (64×1) and a running
  numerator `a` (64×64). `reset` is what the first tile of a batch row stores (−∞, 0, 0); `step` is the
  online-softmax update over one tile of 2048 tokens; `fin0` / `fin1` are the quotients numerator /
  denominator the last tile writes to the two output blocks. `apply1` is the second kernel's output block:
  both query softmaxes applied to the other head's context matrix, side by side along the lanes.
-/
import proofs.«177014_j489626271899_1_alg».proof.Proof.Gen.KernelIdeal.Skeleton

noncomputable section

namespace Cert.KernelIdeal.Hand

open Idealize.ShloMosaic Cert.KernelIdeal Cert.KernelIdeal.Gen

variable {F : FTy → Type} [FloatOps F]

/-- The six carried scratch buffers' contents. -/
structure Sc (F : FTy → Type) where
  m0 : Vec F S64x1 .f32
  l0 : Vec F S64x1 .f32
  a0 : Vec F S64x64 .f32
  m1 : Vec F S64x1 .f32
  l1 : Vec F S64x1 .f32
  a1 : Vec F S64x64 .f32

/-- What the first tile of a batch row stores before it updates: maxima −∞, denominators 0, numerators 0. -/
def reset : Sc F := ⟨k0_pay6, k0_pay7, k0_pay8, k0_pay9, k0_pay10, k0_pay11⟩

/-- The score block of head 0, `Wk0 · x0ᵀ` (64×2048), and of head 1. -/
abbrev sco0 (x0 : Vec F S1x2048x256 .f32) (wk0 : Vec F S64x256 .f32) : Vec F S64x2048 .f32 := k0_pay14 x0 wk0
abbrev sco1 (x1 : Vec F S1x2048x256 .f32) (wk1 : Vec F S64x256 .f32) : Vec F S64x2048 .f32 := k0_pay16 x1 wk1

/-- One tile's update of the carried state from the tile's blocks of `x0`, `x1` and the four weight
    matrices: new maximum = max(old, tile maximum); α = exp(old − new); p = exp(score − new);
    denominator ← α·denominator + Σ p; numerator ← α·numerator + p · valueᵀ. -/
def step (x0 x1 : Vec F S1x2048x256 .f32) (wk0 wk1 wv0 wv1 : Vec F S64x256 .f32) (s : Sc F) : Sc F where
  m0 := k0_pay23 (k0_pay18 x0 wk0 s.m0)
  l0 := k0_pay21 (k0_pay19 x0 wk0 s.m0 s.m0) (k0_pay20 x0 wk0 s.m0) s.l0
  a0 := k0_pay22 (k0_pay15 x0 wv0) (k0_pay19 x0 wk0 s.m0 s.m0) (k0_pay20 x0 wk0 s.m0) s.a0
  m1 := k0_pay3 (k0_pay24 (k0_pay16 x1 wk1) s.m1)
  l1 := k0_pay1 (k0_pay27 (k0_pay16 x1 wk1) s.m1 s.m1 s.l1)
  a1 := k0_pay2 (k0_pay17 x1 wv1) (k0_pay25 (k0_pay16 x1 wk1) s.m1 s.m1) (k0_pay26 (k0_pay16 x1 wk1) s.m1) s.a1

/-- The two output blocks the last tile of a batch row stores: numerator / denominator, per head. -/
def fin0 (s : Sc F) : Vec F S1x64x64 .f32 := k0_pay4 s.a0 s.l0
def fin1 (s : Sc F) : Vec F S1x64x64 .f32 := k0_pay5 s.a1 s.l1

/-- The second kernel's output block (2048×128) from its six input blocks: softmax over the head axis of
    `x0 · Wq0ᵀ` times `w1` in lanes 0–63, the same of `x1`, `Wq1` times `w0` in lanes 64–127. -/
def apply1 (x0 x1 : Vec F S1x2048x256 .f32) (wq0 wq1 : Vec F S64x256 .f32) (w0 w1 : Vec F S1x64x64 .f32) :
    Vec F S1x2048x128 .f32 :=
  k1_pay1 (k1_pay2 x0 wq0) (k1_pay3 x1 wq1) (k1_pay4 w0) w1

end Cert.KernelIdeal.Hand

end
-- ==== Proof.KI.R0Defs.lean ====
/-
  Region 0 (the reduce kernel over the grid 4 × 8, point t = 8·b + n): the blocks its eight windows read,
  the carried scratch contents after each point as a recursion on the point (the first tile of each batch
  row starts from the reset state), the region invariant that holds the six scratch buffers at those
  contents between points, and the proof data. Everything is stated at a parameter `V`: the TensorCore's
  buffer contents when the region is entered.
-/
import proofs.«177014_j489626271899_1_alg».proof.Proof.KI.Step
import proofs.«177014_j489626271899_1_alg».proof.Proof.Gen.KernelIdeal.Launch
import proofs.«177014_j489626271899_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the grid -/

/-- "This is the first tile of its batch row" (`n = 0`): the reset branch's condition. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last tile of its batch row" (`n = 7`): the output branch's condition. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_in : ∀ (w : Fin 8), w.val < 6 → ∀ t : Fin cfg0.N, cfg0.idle w (grid0.coords t) = false := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64x64 .f32 := win0_7.stage (cfg0.slots t 7)
abbrev hs0_7 (t : Fin cfg0.N) : (ms0_7 t).IsWhole := hstage0_7 ((cfg0.slots t 7).cast nbuf0_7)
/-- The six scratch operands: whole scoped buffers of the kernel's own. -/
abbrev scM0_0 : Memref sig .tc .vmem S64x1 .f32 := Memref.whole cc0_scratch0
abbrev scM0_1 : Memref sig .tc .vmem S64x1 .f32 := Memref.whole cc0_scratch1
abbrev scM0_2 : Memref sig .tc .vmem S64x64 .f32 := Memref.whole cc0_scratch2
abbrev scM0_3 : Memref sig .tc .vmem S64x1 .f32 := Memref.whole cc0_scratch3
abbrev scM0_4 : Memref sig .tc .vmem S64x1 .f32 := Memref.whole cc0_scratch4
abbrev scM0_5 : Memref sig .tc .vmem S64x64 .f32 := Memref.whole cc0_scratch5

/-- The six scratch memrefs owned at the state `s`. -/
def scOwned (c : Dev nD) (a10 : Memref sig .tc .vmem S64x1 .f32) (a11 : Memref sig .tc .vmem S64x1 .f32) (a12 : Memref sig .tc .vmem S64x64 .f32)
    (a13 : Memref sig .tc .vmem S64x1 .f32) (a14 : Memref sig .tc .vmem S64x1 .f32) (a15 : Memref sig .tc .vmem S64x64 .f32) (s : Sc F) : sProp 𝕄 :=
  iprop(owns (c : Thread nD τ) a10 fullShare s.m0 ∗ owns (c : Thread nD τ) a11 fullShare s.l0 ∗ owns (c : Thread nD τ) a12 fullShare s.a0
    ∗ owns (c : Thread nD τ) a13 fullShare s.m1 ∗ owns (c : Thread nD τ) a14 fullShare s.l1 ∗ owns (c : Thread nD τ) a15 fullShare s.a1)

/-- The six scratch memrefs owned at anything. -/
def scAny (c : Dev nD) (a10 : Memref sig .tc .vmem S64x1 .f32) (a11 : Memref sig .tc .vmem S64x1 .f32) (a12 : Memref sig .tc .vmem S64x64 .f32)
    (a13 : Memref sig .tc .vmem S64x1 .f32) (a14 : Memref sig .tc .vmem S64x1 .f32) (a15 : Memref sig .tc .vmem S64x64 .f32) : sProp 𝕄 :=
  iprop((∃ d, owns (c : Thread nD τ) a10 fullShare d) ∗ (∃ d, owns (c : Thread nD τ) a11 fullShare d) ∗ (∃ d, owns (c : Thread nD τ) a12 fullShare d)
    ∗ (∃ d, owns (c : Thread nD τ) a13 fullShare d) ∗ (∃ d, owns (c : Thread nD τ) a14 fullShare d) ∗ (∃ d, owns (c : Thread nD τ) a15 fullShare d))

/-- The six input memrefs owned at their blocks. -/
def inOwned (c : Dev nD) (a2 a3 : Memref sig .tc .vmem S1x2048x256 .f32) (a4 a5 a6 a7 : Memref sig .tc .vmem S64x256 .f32)
    (x0 x1 : Vec F S1x2048x256 .f32) (wk0 wk1 wv0 wv1 : Vec F S64x256 .f32) : sProp 𝕄 :=
  iprop(owns (c : Thread nD τ) a2 fullShare x0 ∗ owns (c : Thread nD τ) a3 fullShare x1 ∗ owns (c : Thread nD τ) a4 fullShare wk0
    ∗ owns (c : Thread nD τ) a5 fullShare wk1 ∗ owns (c : Thread nD τ) a6 fullShare wv0 ∗ owns (c : Thread nD τ) a7 fullShare wv1)

/-- The other scoped buffers of the core that are no staging buffer of this call (the second call's staging
    buffers), each at some contents: carried through the region unopened. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant (every scoped buffer that is no staging buffer at anything, the generator register at
    some state) with the six scratch operands as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d) ∗ (∃ d, owns (c : Thread nD τ) scM0_5 fullShare d)
          ∗ others0 c) ∗ (∃ r, prngReg c r)) := by
  unfold Pipeline.ΦA others0; rw [scopedRest0_eq]; simp only [scM0_0, scM0_1, scM0_2, scM0_3, scM0_4, scM0_5, owns_whole]; try rfl

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The carried state, point by point -/

/-- The update at point `t`: `step` on the point's six input blocks. -/
def blkStep (c : Dev nD) (t : Fin cfg0.N) (s : Sc F) : Sc F :=
  step (iblk0 V c 0 t) (iblk0 V c 1 t) (iblk0 V c 2 t) (iblk0 V c 3 t) (iblk0 V c 4 t) (iblk0 V c 5 t) s

/-- What the six scratch buffers hold after the body at position `n`: the point's update of the reset state at
    the first tile of a batch row (`n ≡ 0 mod 8`), of what the point before left otherwise. -/
def scAt (c : Dev nD) : (n : ℕ) → n < cfg0.N → Sc F
  | 0, h => blkStep V c ⟨0, h⟩ reset
  | n + 1, h => blkStep V c ⟨n + 1, h⟩ (if (n + 1) % 8 = 0 then reset else scAt c n (Nat.lt_of_succ_lt h))

theorem scAt_first (c : Dev nD) (t : Fin cfg0.N) (h0 : t.val % 8 = 0) : scAt V c t.val t.isLt = blkStep V c t reset := by
  obtain ⟨n, hn⟩ := t
  cases n with
  | zero => rfl
  | succ n => show blkStep V c _ (if (n + 1) % 8 = 0 then reset else _) = _; rw [if_pos h0]

theorem scAt_next (c : Dev nD) (t : Fin cfg0.N) (h0 : ¬t.val % 8 = 0) :
    scAt V c t.val t.isLt = blkStep V c t (scAt V c (t.val - 1) (Nat.lt_of_le_of_lt (Nat.sub_le _ _) t.isLt)) := by
  obtain ⟨n, hn⟩ := t
  cases n with
  | zero => exact absurd (Nat.zero_mod _) h0
  | succ n => show blkStep V c _ (if (n + 1) % 8 = 0 then reset else _) = _; rw [if_neg h0]; rfl

/-! ## The region invariant -/

/-- Before position `n`: before the first point the class invariant (every scratch at anything); afterwards the six
    scratch buffers at what the point before left, the other scoped buffers at anything, the generator register at some state. -/
def PhiS (c : Dev nD) : (n : ℕ) → n ≤ cfg0.N → sProp 𝕄
  | 0, _ => Pipeline.ΦA spec0 c
  | n + 1, hn => iprop(iprop(scOwned c scM0_0 scM0_1 scM0_2 scM0_3 scM0_4 scM0_5 (scAt V c n hn) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(scOwned c scM0_0 scM0_1 scM0_2 scM0_3 scM0_4 scM0_5 (scAt V c n hn) ∗ others0 c) ∗ (∃ r, prngReg c r)) := rfl

theorem PhiS_pos (c : Dev nD) (n : ℕ) (h : n ≤ cfg0.N) (hz : n ≠ 0) :
    PhiS V c n h = iprop(iprop(scOwned c scM0_0 scM0_1 scM0_2 scM0_3 scM0_4 scM0_5 (scAt V c (n - 1) (by omega)) ∗ others0 c) ∗ (∃ r, prngReg c r)) := by
  cases n with
  | zero => exact absurd rfl hz
  | succ n => rfl

/-! ## The proof data -/

/-- The proof data of pipeline 0 on core `c`: the arrays as the region finds them; after the body each input's buffer at
    its block, the two outputs' (consulted only at a last tile, where they are stored) at the quotients of the carried
    state; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => fin0 (scAt V c t.val t.isLt)
    | ⟨7, _⟩ => fin1 (scAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = fin0 (scAt V c t.val t.isLt) := by dsimp only [dat0]
theorem after0_7 (c : Dev nD) (t : Fin cfg0.N) : (dat0 V c).after 7 t = fin1 (scAt V c t.val t.isLt) := by dsimp only [dat0]

end Region0

end Cert.KernelIdeal.Hand

end
-- ==== Proof.KI.R0RunA.lean ====
/-
  The reduce kernel's body at the FIRST tile of a batch row (n = 0): it resets the six scratch buffers, then updates them from the tile; it stores nothing into the two output blocks.
-/
import proofs.«177014_j489626271899_1_alg».proof.Proof.KI.R0Defs
import proofs.«177014_j489626271899_1_alg».proof.Proof.Gen.KernelIdeal.Skeleton
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 and of a rank-3 whole-shape rectangle, as constant functions. -/
theorem hz2_A : (![0, 0] : Fin 2 → Nat) = fun _ => 0 := funext fun a => by fin_cases a <;> rfl
theorem hz3_A : (![0, 0, 0] : Fin 3 → Nat) = fun _ => 0 := funext fun a => by fin_cases a <;> rfl

/-- After any stores, a LAST store through the whole-shape rectangle at zero offsets leaves its payload: that one
    piece covers every index, and under the last write the canonical contents are its payload. -/
theorem read_last_A {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.Mem.head _, View.mem_set_unit_zero h inb y⟩)).trans
    (View.canon_cons_unit_zero h inb w L)

set_option maxHeartbeats 1000000 in
/-- On whole memrefs — the six inputs at their blocks, the two outputs at contents `xi6`, `xi7` (handed back untouched), the
    six scratch at anything — the body runs to the continuation holding the inputs and outputs as they were and the scratch
    at the update of the reset state. -/
theorem run0_A (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole)
    (hc0 : cond0_0 i) (hc1 : ¬cond0_1 i) (x0 x1 : Vec F S1x2048x256 .f32) (wk0 wk1 wv0 wv1 : Vec F S64x256 .f32) (xi6 xi7 : Vec F S1x64x64 .f32)
    (E : Set ℕ) (K : PUnit → sProp 𝕄) :
    iprop(inOwned c arg2 arg3 arg4 arg5 arg6 arg7 x0 x1 wk0 wk1 wv0 wv1 ∗ owns (c : Thread nD τ) arg8 fullShare xi6 ∗ owns (c : Thread nD τ) arg9 fullShare xi7
        ∗ scAny c arg10 arg11 arg12 arg13 arg14 arg15
        ∗ (iprop(inOwned c arg2 arg3 arg4 arg5 arg6 arg7 x0 x1 wk0 wk1 wv0 wv1 ∗ owns (c : Thread nD τ) arg8 fullShare xi6 ∗ owns (c : Thread nD τ) arg9 fullShare xi7
            ∗ scOwned c arg10 arg11 arg12 arg13 arg14 arg15 (step x0 x1 wk0 wk1 wv0 wv1 reset)) -∗ K ⟨⟩))
      ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__reduce_kernel_eq_skeleton]; unfold cc0__reduce_kernel_skel
  simp only [k0_part1_eq_skeleton, k0_part2_eq_skeleton]
  unfold k0_part1_skel k0_part2_skel
  unfold inOwned scOwned scAny owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%f9, %hf9, H9⟩, ⟨⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  -- a whole memref's contents are determined by what it reads: the eight named buffers hold the pre-images of their blocks
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  -- the body: the reset branch is taken (n = 0), the output branch is not (n ≠ 7)
  sl_exec (disch := first | exact hc0 | exact hc1)
  sl_step
  iapply Hk
  -- the six inputs were only loaded from: each still reads its block
  isplitl [H2 H3 H4 H5 H6 H7]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  -- the two outputs were not touched: handed back at the contents they came with
  isplitl [H8]
  · iexists _; isplitr; · ipureintro; exact harg8.read_unread _
    iexact H8
  isplitl [H9]
  · iexists _; isplitr; · ipureintro; exact harg9.read_unread _
    iexact H9
  -- each scratch buffer was stored into twice through its whole shape, the reset value then the update: it reads the
  -- update's payload, whose loads of the scratch (made between the two stores) read the reset values back, and whose
  -- loads of the inputs read their blocks; that payload is the matching field of `step … reset`
  isplitl [H10]
  · iexists _; isplitr; swap; · iexact H10
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl
  isplitl [H11]
  · iexists _; isplitr; swap; · iexact H11
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl
  isplitl [H12]
  · iexists _; isplitr; swap; · iexact H12
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl
  isplitl [H13]
  · iexists _; isplitr; swap; · iexact H13
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl
  isplitl [H14]
  · iexists _; isplitr; swap; · iexact H14
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl
  · iexists _; isplitr; swap; · iexact H15
    ipureintro
    refine (read_last_A _ _ hz2_A _ _ _).trans ?_
    dsimp only
    sl_unfold_words
    simp only [View.readCov_unit_zero (S := S64x1) _ hz2_A, View.readCov_unit_zero (S := S64x64) _ hz2_A, View.readAt_eq_ld,
      harg2.read_unread, harg3.read_unread, harg4.read_unread, harg5.read_unread, harg6.read_unread, harg7.read_unread,
      View.ld_unit_zero (S := S1x2048x256) hz3_A, View.ld_unit_zero (S := S64x256) hz2_A]
    rfl

end Cert.KernelIdeal.Hand

end
-- ==== Proof.KI.R0RunB.lean ====
/-
  The reduce kernel's body at a MIDDLE tile of a batch row (0 < n < 7): it updates the six scratch buffers from the tile over what the tile before left; it stores nothing into the two output blocks.
-/
import proofs.«177014_j489626271899_1_alg».proof.Proof.KI.R0Defs
import proofs.«177014_j489626271899_1_alg».proof.Proof.Gen.KernelIdeal.Skeleton
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 and of a rank-3 buffer, as constant functions. -/
private theorem hz2_B : (![0, 0] : Fin 2 → Nat) = fun _ => 0 := funext fun a => by fin_cases a <;> rfl
private theorem hz3_B : (![0, 0, 0] : Fin 3 → Nat) = fun _ => 0 := funext fun a => by fin_cases a <;> rfl

/-- One store of the whole buffer (the full-size rectangle at zero offsets) leaves its payload, whatever was there. -/
private theorem read_store_B {S : Shape} (M : Memref sig .tc .vmem S .f32) (f : M.view.ty.Contents (Elt F))
    {off : Fin S.rank → Nat} (hoff : off = fun _ => 0) (inb : ∀ a, off a + S.size a ≤ S.size a) (w : S.Idx → Elt F .f32) :
    M.view.read (Elt F) (M.view.writes (Elt F) f [(⟨Rect.unit off S.size inb, w⟩ : View.Piece (Elt F) S .f32)]) = w :=
  (View.read_writes_eq_canon _ _ _ (fun y => ⟨_, List.mem_singleton_self _, View.mem_set_unit_zero hoff inb y⟩)).trans
    (View.canon_unit_zero hoff inb w)

/-- A load of the whole buffer through a whole memref held at the contents that read `X` reads `X`. -/
private theorem ld_whole_B {S : Shape} {M : Memref sig .tc .vmem S .f32} (h : M.IsWhole) (X : S.Idx → Elt F .f32)
    {off : Fin S.rank → Nat} (hoff : off = fun _ => 0) (inb : ∀ a, off a + S.size a ≤ S.size a) :
    View.readAt (Elt F) M.view (Rect.unit off S.size inb).toLoadRect (h.unread X) = X := by
  rw [View.readAt_eq_ld, h.read_unread, View.ld_unit_zero hoff]

set_option maxHeartbeats 1000000 in
/-- On whole memrefs — the six inputs at their blocks, the two outputs at contents `xi6`, `xi7` (handed back untouched), the
    six scratch at the state `s` — the body runs to the continuation holding the inputs and outputs as they were and the
    scratch at the update of `s`. -/
theorem run0_B (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole)
    (hc0 : ¬cond0_0 i) (hc1 : ¬cond0_1 i) (x0 x1 : Vec F S1x2048x256 .f32) (wk0 wk1 wv0 wv1 : Vec F S64x256 .f32) (xi6 xi7 : Vec F S1x64x64 .f32) (s : Sc F)
    (E : Set ℕ) (K : PUnit → sProp 𝕄) :
    iprop(inOwned c arg2 arg3 arg4 arg5 arg6 arg7 x0 x1 wk0 wk1 wv0 wv1 ∗ owns (c : Thread nD τ) arg8 fullShare xi6 ∗ owns (c : Thread nD τ) arg9 fullShare xi7
        ∗ scOwned c arg10 arg11 arg12 arg13 arg14 arg15 s
        ∗ (iprop(inOwned c arg2 arg3 arg4 arg5 arg6 arg7 x0 x1 wk0 wk1 wv0 wv1 ∗ owns (c : Thread nD τ) arg8 fullShare xi6 ∗ owns (c : Thread nD τ) arg9 fullShare xi7
            ∗ scOwned c arg10 arg11 arg12 arg13 arg14 arg15 (step x0 x1 wk0 wk1 wv0 wv1 s)) -∗ K ⟨⟩))
      ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__reduce_kernel_eq_skeleton]; unfold cc0__reduce_kernel_skel
  simp only [k0_part1_eq_skeleton, k0_part2_eq_skeleton]
  unfold k0_part1_skel k0_part2_skel
  unfold inOwned scOwned owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%f9, %hf9, H9⟩, ⟨⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  obtain rfl := harg10.eq_unread hf10; obtain rfl := harg11.eq_unread hf11; obtain rfl := harg12.eq_unread hf12
  obtain rfl := harg13.eq_unread hf13; obtain rfl := harg14.eq_unread hf14; obtain rfl := harg15.eq_unread hf15
  -- neither branch is taken: the body is the six input loads, then per scratch buffer its loads and its one store
  sl_exec (disch := first | exact hc0 | exact hc1)
  sl_step
  iapply Hk
  -- the six inputs and the two outputs were only read or left alone: they are handed back at the contents they came with
  isplitl [H2 H3 H4 H5 H6 H7]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  -- each scratch buffer: its one store covers it, so it reads the store's payload; the payload's loads read the state
  -- handed in (every load of a buffer comes before that buffer's store), which makes it the update's field
  isplitl [H10]
  · iexists _; isplitr; swap; · iexact H10
    ipureintro
    refine (read_store_B _ _ hz2_B _ _).trans ?_
    dsimp only
    simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
    rfl
  isplitl [H11]
  · iexists _; isplitr; swap; · iexact H11
    ipureintro
    refine (read_store_B _ _ hz2_B _ _).trans ?_
    dsimp only
    simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
    rfl
  isplitl [H12]
  · iexists _; isplitr; swap; · iexact H12
    ipureintro
    refine (read_store_B _ _ hz2_B _ _).trans ?_
    dsimp only
    simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
    rfl
  isplitl [H13]
  · iexists _; isplitr; swap; · iexact H13
    ipureintro
    refine (read_store_B _ _ hz2_B _ _).trans ?_
    dsimp only
    simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
    rfl
  isplitl [H14]
  · iexists _; isplitr; swap; · iexact H14
    ipureintro
    refine (read_store_B _ _ hz2_B _ _).trans ?_
    dsimp only
    simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
    rfl
  iexists _; isplitr; swap; · iexact H15
  ipureintro
  refine (read_store_B _ _ hz2_B _ _).trans ?_
  dsimp only
  simp only [ld_whole_B harg2 x0 hz3_B, ld_whole_B harg3 x1 hz3_B, ld_whole_B harg4 wk0 hz2_B, ld_whole_B harg5 wk1 hz2_B, ld_whole_B harg6 wv0 hz2_B, ld_whole_B harg7 wv1 hz2_B, ld_whole_B harg10 s.m0 hz2_B, ld_whole_B harg11 s.l0 hz2_B, ld_whole_B harg12 s.a0 hz2_B, ld_whole_B harg13 s.m1 hz2_B, ld_whole_B harg14 s.l1 hz2_B, ld_whole_B harg15 s.a1 hz2_B]
  rfl

end Cert.KernelIdeal.Hand

end
-- ==== Proof.KI.R0RunC.lean ====
/-
  The reduce kernel's body at the LAST tile of a batch row (n = 7): it updates the six scratch buffers from the tile over what the tile before left, then stores numerator / denominator of each head into the two output blocks.
-/
import proofs.«177014_j489626271899_1_alg».proof.Proof.KI.R0Defs
import proofs.«177014_j489626271899_1_alg».proof.Proof.Gen.KernelIdeal.Skeleton
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of rank 2 and rank 3, as the constant function. -/
theorem runC_hz2 : (![0, 0] : Fin 2 → Nat) = fun _ => 0 := funext fun a => by fin_cases a <;> rfl
theorem runC_hz3 : (![0, 0, 0] : Fin 3 → Nat) = fun _ => 0 := funext fun a => by fin_cases a <;> rfl

/-- After writes whose LAST is a store of the whole shape at zero offsets, the buffer reads that store's payload,
    whatever it held and whatever the earlier writes were: the last piece covers every index. -/
theorem runC_read_unit {κ : Kind} {sp : Space} {S : Shape} {e : EltTy} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

set_option maxHeartbeats 1000000 in
/-- On whole memrefs — the six inputs at their blocks, the two outputs at anything, the six scratch at the state `s` — the
    body runs to the continuation holding the inputs as they were, the scratch at the update of `s`, and the two outputs at
    the quotients of the updated state. -/
theorem run0_C (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole)
    (hc0 : ¬cond0_0 i) (hc1 : cond0_1 i) (x0 x1 : Vec F S1x2048x256 .f32) (wk0 wk1 wv0 wv1 : Vec F S64x256 .f32) (s : Sc F)
    (E : Set ℕ) (K : PUnit → sProp 𝕄) :
    iprop(inOwned c arg2 arg3 arg4 arg5 arg6 arg7 x0 x1 wk0 wk1 wv0 wv1 ∗ (∃ d, owns (c : Thread nD τ) arg8 fullShare d) ∗ (∃ d, owns (c : Thread nD τ) arg9 fullShare d)
        ∗ scOwned c arg10 arg11 arg12 arg13 arg14 arg15 s
        ∗ (iprop(inOwned c arg2 arg3 arg4 arg5 arg6 arg7 x0 x1 wk0 wk1 wv0 wv1 ∗ owns (c : Thread nD τ) arg8 fullShare (fin0 (step x0 x1 wk0 wk1 wv0 wv1 s)) ∗ owns (c : Thread nD τ) arg9 fullShare (fin1 (step x0 x1 wk0 wk1 wv0 wv1 s))
            ∗ scOwned c arg10 arg11 arg12 arg13 arg14 arg15 (step x0 x1 wk0 wk1 wv0 wv1 s)) -∗ K ⟨⟩))
      ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__reduce_kernel_eq_skeleton]; unfold cc0__reduce_kernel_skel
  simp only [k0_part1_eq_skeleton, k0_part2_eq_skeleton]
  unfold k0_part1_skel k0_part2_skel
  unfold inOwned scOwned owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10; obtain rfl := harg11.eq_unread hf11; obtain rfl := harg12.eq_unread hf12
  obtain rfl := harg13.eq_unread hf13; obtain rfl := harg14.eq_unread hf14; obtain rfl := harg15.eq_unread hf15
  sl_exec (disch := first | exact hc0 | exact hc1)
  sl_step
  iapply Hk
  -- the six inputs were only loaded: each is handed back at the block it held
  isplitl [H2 H3 H4 H5 H6 H7]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  -- output 0 holds numerator / denominator of head 0, both read back from what the update just stored
  isplitl [H8]
  · iexists _; isplitr; swap; · iexact H8
    ipureintro
    sl_unfold_words
    refine (runC_read_unit _ _ runC_hz3 _ _ _).trans ?_
    simp only [View.readCov_unit_zero (S := S64x64) _ runC_hz2, View.readCov_unit_zero (S := S64x1) _ runC_hz2]
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  -- output 1 the same for head 1
  isplitl [H9]
  · iexists _; isplitr; swap; · iexact H9
    ipureintro
    sl_unfold_words
    refine (runC_read_unit _ _ runC_hz3 _ _ _).trans ?_
    simp only [View.readCov_unit_zero (S := S64x64) _ runC_hz2, View.readCov_unit_zero (S := S64x1) _ runC_hz2]
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  -- each scratch buffer was stored whole once, from loads of the state `s` and of the input blocks: it reads the
  -- matching field of the update of `s` (the maximum of each head is stored after its denominator and numerator,
  -- which are therefore computed from the old maximum)
  isplitl [H10]
  · iexists _; isplitr; swap; · iexact H10
    ipureintro
    sl_unfold_words
    refine (runC_read_unit _ _ runC_hz2 _ _ _).trans ?_
    dsimp only
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  isplitl [H11]
  · iexists _; isplitr; swap; · iexact H11
    ipureintro
    sl_unfold_words
    refine (runC_read_unit _ _ runC_hz2 _ _ _).trans ?_
    dsimp only
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  isplitl [H12]
  · iexists _; isplitr; swap; · iexact H12
    ipureintro
    sl_unfold_words
    refine (runC_read_unit _ _ runC_hz2 _ _ _).trans ?_
    dsimp only
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  isplitl [H13]
  · iexists _; isplitr; swap; · iexact H13
    ipureintro
    sl_unfold_words
    refine (runC_read_unit _ _ runC_hz2 _ _ _).trans ?_
    dsimp only
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  isplitl [H14]
  · iexists _; isplitr; swap; · iexact H14
    ipureintro
    sl_unfold_words
    refine (runC_read_unit _ _ runC_hz2 _ _ _).trans ?_
    dsimp only
    simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
    rfl
  iexists _; isplitr; swap; · iexact H15
  ipureintro
  sl_unfold_words
  refine (runC_read_unit _ _ runC_hz2 _ _ _).trans ?_
  dsimp only
  simp only [View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1x2048x256) runC_hz3, View.ld_unit_zero (S := S64x256) runC_hz2, View.ld_unit_zero (S := S64x1) runC_hz2, View.ld_unit_zero (S := S64x64) runC_hz2]
  rfl

end Cert.KernelIdeal.Hand

end
-- ==== Proof.KI.R0Body.lean ====
/-
  Region 0's body obligation: at every grid point the reduce kernel's body, called on the windows' current staging
  buffers and the six scratch buffers, takes the region invariant before the point to the invariant after it. The
  point is the first tile of its batch row (n = 0), a middle tile, or the last (n = 7); each case is one run of the body.
  Each input's staging buffer holds its block at every point, fetched there or not; the two output windows are idle
  (handed back untouched, not written back) except at a last tile.
-/
import proofs.«177014_j489626271899_1_alg».proof.Proof.KI.R0RunA
import proofs.«177014_j489626271899_1_alg».proof.Proof.KI.R0RunB
import proofs.«177014_j489626271899_1_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What the body finds in the inputs' buffers -/

/-- Each input's current staging buffer holds its block at every point, fetched there or not: an input is never idle,
    its window is uncut, and the body leaves the block in place, so an unfetched buffer still holds the block of the
    point before, whose index is this point's. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-- After the body each input's buffer is owned at its block (an input is live at every point). -/
theorem leaves0_0 (c : Dev nD) (t : Fin cfg0.N) :
    (dat0 V c).leavesExact 0 t = owns (c : Thread nD τ) (ms0_0 t) fullShare (iblk0 V c 0 t) := by
  unfold Dat.leavesExact; rw [liveAt0_in 0 (by decide) t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_in 1 (by decide) t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_in 2 (by decide) t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_in 3 (by decide) t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0_in 4 (by decide) t, after0_4]
theorem leaves0_5 (c : Dev nD) (t : Fin cfg0.N) :
    (dat0 V c).leavesExact 5 t = owns (c : Thread nD τ) (ms0_5 t) fullShare (iblk0 V c 5 t) := by
  unfold Dat.leavesExact; rw [liveAt0_in 5 (by decide) t, after0_5]

/-! ## The body obligation, at a generic point -/

/-- What the body is called with at point `t`: the invariant, nothing owed, the eight windows' current buffers one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- At a last tile the two outputs are live: after the body their buffers are owned at the quotients of the carried state. -/
theorem leaves0_6_live (c : Dev nD) (t : Fin cfg0.N) (hc1 : cond0_1 (grid0.coords t)) :
    (dat0 V c).leavesExact 6 t = owns (c : Thread nD τ) (ms0_6 t) fullShare (fin0 (scAt V c t.val t.isLt)) := by
  unfold Dat.leavesExact; rw [liveAt0_6 t hc1, after0_6]
theorem leaves0_7_live (c : Dev nD) (t : Fin cfg0.N) (hc1 : cond0_1 (grid0.coords t)) :
    (dat0 V c).leavesExact 7 t = owns (c : Thread nD τ) (ms0_7 t) fullShare (fin1 (scAt V c t.val t.isLt)) := by
  unfold Dat.leavesExact; rw [liveAt0_7 t hc1, after0_7]

/-- The body at any point. The inputs' buffers hold their blocks; the point is a first tile, a middle tile or a last
    tile of its batch row, and the run of that case applies: the invariant hands it the six scratch buffers (at anything
    before the very first point, at what the point before left otherwise — which a first tile forgets, since it resets
    them) and takes them back at this point's update; the other scoped buffers and the generator register ride through;
    the two outputs are handed back as found where idle, at the quotients of the updated state at a last tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  have hN : t.val < 32 := lt_of_lt_of_eq t.isLt (show cfg0.N = 32 from N_0)
  by_cases h0 : t.val % 8 = 0
  · by_cases h1 : t.val % 8 = 7
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 6 t (idleAt0_6 t hc1) (noFlush0_6 t hc1),
        Dat.leavesExact_idle (dat0 V c) 7 t (idleAt0_7 t hc1) (noFlush0_7 t hc1)]
      rw [scAt_first V c t h0]; unfold blkStep
      by_cases hz : t.val = 0
      · rw [PhiS_castSucc V c t, PhiS_zero V c _ _ hz, PhiA0_eq]
        iintro ⟨⟨⟨HS0, HS1, HS2, HS3, HS4, HS5, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run0_A c (grid0.coords t) _ _ _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) ((dat0 V c).before 6 t d6) ((dat0 V c).before 7 t d7) Set.univ _)
        unfold inOwned scAny scOwned
        isplitl [H0 H1 H2 H3 H4 H5]
        · isplitl [H0]; · iexact H0
          isplitl [H1]; · iexact H1
          isplitl [H2]; · iexact H2
          isplitl [H3]; · iexact H3
          isplitl [H4]; · iexact H4
          iexact H5
        isplitl [H6]; · iexact H6
        isplitl [H7]; · iexact H7
        isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iintro ⟨⟨H0, H1, H2, H3, H4, H5⟩, H6, H7, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists d6; iexact H6
        iexists d7; iexact H7
      · rw [PhiS_castSucc V c t, PhiS_pos V c _ _ hz]
        unfold scOwned
        iintro ⟨⟨⟨⟨HS0, HS1, HS2, HS3, HS4, HS5⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run0_A c (grid0.coords t) _ _ _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) ((dat0 V c).before 6 t d6) ((dat0 V c).before 7 t d7) Set.univ _)
        unfold inOwned scAny scOwned
        isplitl [H0 H1 H2 H3 H4 H5]
        · isplitl [H0]; · iexact H0
          isplitl [H1]; · iexact H1
          isplitl [H2]; · iexact H2
          isplitl [H3]; · iexact H3
          isplitl [H4]; · iexact H4
          iexact H5
        isplitl [H6]; · iexact H6
        isplitl [H7]; · iexact H7
        isplitl [HS0 HS1 HS2 HS3 HS4 HS5]
        · isplitl [HS0]; · iexists _; iexact HS0
          isplitl [HS1]; · iexists _; iexact HS1
          isplitl [HS2]; · iexists _; iexact HS2
          isplitl [HS3]; · iexists _; iexact HS3
          isplitl [HS4]; · iexists _; iexact HS4
          iexists _; iexact HS5
        iintro ⟨⟨H0, H1, H2, H3, H4, H5⟩, H6, H7, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists d6; iexact H6
        iexists d7; iexact H7
  · have hz : t.val ≠ 0 := fun e => h0 (by rw [e])
    have hc0 : ¬cond0_0 (grid0.coords t) := fun h => h0 ((hcond0_0 t).mp h)
    rw [PhiS_castSucc V c t, PhiS_pos V c _ _ hz]
    by_cases h1 : t.val % 8 = 7
    · have hc1 : cond0_1 (grid0.coords t) := (hcond0_1 t).mpr h1
      rw [leaves0_6_live V c t hc1, leaves0_7_live V c t hc1]
      rw [scAt_next V c t h0]; unfold blkStep
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_C c (grid0.coords t) _ _ _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (scAt V c (t.val - 1) (Nat.lt_of_le_of_lt (Nat.sub_le _ _) t.isLt)) Set.univ _)
      unfold inOwned
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [HS]; · iexact HS
      iintro ⟨⟨H0, H1, H2, H3, H4, H5⟩, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond0_1 (grid0.coords t) := fun h => h1 ((hcond0_1 t).mp h)
      rw [Dat.leavesExact_idle (dat0 V c) 6 t (idleAt0_6 t hc1) (noFlush0_6 t hc1),
        Dat.leavesExact_idle (dat0 V c) 7 t (idleAt0_7 t hc1) (noFlush0_7 t hc1)]
      rw [scAt_next V c t h0]; unfold blkStep
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_B c (grid0.coords t) _ _ _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) ((dat0 V c).before 6 t d6) ((dat0 V c).before 7 t d7) (scAt V c (t.val - 1) (Nat.lt_of_le_of_lt (Nat.sub_le _ _) t.isLt)) Set.univ _)
      unfold inOwned
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [H7]; · iexact H7
      isplitl [HS]; · iexact HS
      iintro ⟨⟨H0, H1, H2, H3, H4, H5⟩, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  unfold scOwned
  iintro ⟨⟨⟨HS0, HS1, HS2, HS3, HS4, HS5⟩, Hoth⟩, Hg⟩
  isplitl [HS0 HS1 HS2 HS3 HS4 HS5 Hoth]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexact Hoth
  iexact Hg

end Region0

end Cert.KernelIdeal.Hand

end
-- ==== Proof.KI.R1.lean ====
/-
  Region 1 (the apply kernel over the grid 4 × 8): the blocks its seven windows read, its proof data and its body
  obligation. The body loads its six input blocks whole and stores the output block `apply1` of them whole; it
  keeps nothing between points. Stated at a parameter `V`: the TensorCore's buffer contents when the region is entered.
-/
import proofs.«177014_j489626271899_1_alg».proof.Proof.KI.Step
import proofs.«177014_j489626271899_1_alg».proof.Proof.Gen.KernelIdeal.Launch
import proofs.«177014_j489626271899_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The all-zero offsets of a rank-3 and of a rank-2 rectangle, as constant functions. -/
private theorem hz3 : (![0, 0, 0] : Fin 3 → Nat) = fun _ => 0 := by funext a; fin_cases a <;> rfl
private theorem hz2 : (![0, 0] : Fin 2 → Nat) = fun _ => 0 := by funext a; fin_cases a <;> rfl

/-- The kernel body on whole staging memrefs, the six inputs' at read contents and the output's at anything, runs to
    the continuation holding the inputs' as they were and the output's at `apply1` of the six: every load is through
    the whole-shape rectangle at zero offsets and reads the buffer; the one store is through the whole-shape rectangle
    and leaves its payload. -/
theorem sound_kernel1 (c : Dev nD) (E : Set ℕ) (i : grid1.Coords)
    (arg2 : Memref sig .tc .vmem S1x2048x256 .f32) (harg2 : arg2.IsWhole)
    (arg3 : Memref sig .tc .vmem S1x2048x256 .f32) (harg3 : arg3.IsWhole)
    (arg4 : Memref sig .tc .vmem S64x256 .f32) (harg4 : arg4.IsWhole)
    (arg5 : Memref sig .tc .vmem S64x256 .f32) (harg5 : arg5.IsWhole)
    (arg6 : Memref sig .tc .vmem S1x64x64 .f32) (harg6 : arg6.IsWhole)
    (arg7 : Memref sig .tc .vmem S1x64x64 .f32) (harg7 : arg7.IsWhole)
    (arg8 : Memref sig .tc .vmem S1x2048x128 .f32) (harg8 : arg8.IsWhole)
    (x0 x1 : Vec F S1x2048x256 .f32) (wq0 wq1 : Vec F S64x256 .f32) (w0 w1 : Vec F S1x64x64 .f32)
    (K : PUnit → sProp 𝕄) :
    iprop(owns (c : Thread nD τ) arg2 fullShare x0 ∗ owns (c : Thread nD τ) arg3 fullShare x1
        ∗ owns (c : Thread nD τ) arg4 fullShare wq0 ∗ owns (c : Thread nD τ) arg5 fullShare wq1
        ∗ owns (c : Thread nD τ) arg6 fullShare w0 ∗ owns (c : Thread nD τ) arg7 fullShare w1
        ∗ (∃ d, owns (c : Thread nD τ) arg8 fullShare d)
        ∗ (iprop(owns (c : Thread nD τ) arg2 fullShare x0 ∗ owns (c : Thread nD τ) arg3 fullShare x1
            ∗ owns (c : Thread nD τ) arg4 fullShare wq0 ∗ owns (c : Thread nD τ) arg5 fullShare wq1
            ∗ owns (c : Thread nD τ) arg6 fullShare w0 ∗ owns (c : Thread nD τ) arg7 fullShare w1
            ∗ owns (c : Thread nD τ) arg8 fullShare (apply1 x0 x1 wq0 wq1 w0 w1)) -∗ K ⟨⟩))
      ⊢ wp frame (wpE (defs₀ (F := F)) Variants.none c none) E
          (cc1__apply_kernel i arg2 harg2 arg3 harg3 arg4 harg4 arg5 harg5 arg6 harg6 arg7 harg7 arg8 harg8) K := by
  simp only [cc1__apply_kernel_eq_skeleton]; unfold cc1__apply_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf2 hf3 hf4 hf5 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (View.cover_of_tiled _ S1x2048x128.size (by rfl))).trans ?_
  refine (View.canon_unit_zero (S := S1x2048x128) hz3 inb_S1x2048x128_S1x2048x128_0_0_0 _).trans ?_
  have e2 : View.readAt (Elt F) arg2.view (Rect.unit ![0, 0, 0] S1x2048x256.size inb_S1x2048x256_S1x2048x256_0_0_0).toLoadRect f2
      = View.read (Elt F) arg2.view f2 := View.ld_unit_zero (S := S1x2048x256) hz3 inb_S1x2048x256_S1x2048x256_0_0_0 _
  have e3 : View.readAt (Elt F) arg3.view (Rect.unit ![0, 0, 0] S1x2048x256.size inb_S1x2048x256_S1x2048x256_0_0_0).toLoadRect f3
      = View.read (Elt F) arg3.view f3 := View.ld_unit_zero (S := S1x2048x256) hz3 inb_S1x2048x256_S1x2048x256_0_0_0 _
  have e4 : View.readAt (Elt F) arg4.view (Rect.unit ![0, 0] S64x256.size inb_S64x256_S64x256_0_0).toLoadRect f4
      = View.read (Elt F) arg4.view f4 := View.ld_unit_zero (S := S64x256) hz2 inb_S64x256_S64x256_0_0 _
  have e5 : View.readAt (Elt F) arg5.view (Rect.unit ![0, 0] S64x256.size inb_S64x256_S64x256_0_0).toLoadRect f5
      = View.read (Elt F) arg5.view f5 := View.ld_unit_zero (S := S64x256) hz2 inb_S64x256_S64x256_0_0 _
  have e6 : View.readAt (Elt F) arg6.view (Rect.unit ![0, 0, 0] S1x64x64.size inb_S1x64x64_S1x64x64_0_0_0).toLoadRect f6
      = View.read (Elt F) arg6.view f6 := View.ld_unit_zero (S := S1x64x64) hz3 inb_S1x64x64_S1x64x64_0_0_0 _
  have e7 : View.readAt (Elt F) arg7.view (Rect.unit ![0, 0, 0] S1x64x64.size inb_S1x64x64_S1x64x64_0_0_0).toLoadRect f7
      = View.read (Elt F) arg7.view f7 := View.ld_unit_zero (S := S1x64x64) hz3 inb_S1x64x64_S1x64x64_0_0_0 _
  unfold apply1
  dsimp only
  rw [e2, e3, e4, e5, e6]
  exact congrArg _ e7

section Region1

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: the arrays as the region finds them; after the body each input's buffer at
    its block and the output's at `apply1` of the six input blocks; the class invariant (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => apply1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) :
    (dat1 V c).after 6 t = apply1 (iblk1 V c 0 t) (iblk1 V c 1 t) (iblk1 V c 2 t) (iblk1 V c 3 t) (iblk1 V c 4 t) (iblk1 V c 5 t) := by
  dsimp only [dat1]

/-! ## What the body leaves in the inputs' buffers, and what it finds there -/

/-- Each input's buffer is left at its block (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-! Each input's current staging buffer holds its block at every point, fetched there or not: the window is uncut and
    never idle, the body leaves the block in place, and where no fetch happens the block index has not moved. -/

theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := fun t => by
    rw [after1_0]; unfold Dat.blockOf iblk1; rw [A_eq1]; try rfl
  refine ((dat1 V c).before_in_eq_fetched 0 rfl (fun _ => rfl) (fun _ _ _ => rfl) hkeep t d).trans ?_
  unfold Dat.fetched Dat.blockOf iblk1; rw [A_eq1]; try rfl

theorem before1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := fun t => by
    rw [after1_1]; unfold Dat.blockOf iblk1; rw [A_eq1]; try rfl
  refine ((dat1 V c).before_in_eq_fetched 1 rfl (fun _ => rfl) (fun _ _ _ => rfl) hkeep t d).trans ?_
  unfold Dat.fetched Dat.blockOf iblk1; rw [A_eq1]; try rfl

theorem before1_2 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := fun t => by
    rw [after1_2]; unfold Dat.blockOf iblk1; rw [A_eq1]; try rfl
  refine ((dat1 V c).before_in_eq_fetched 2 rfl (fun _ => rfl) (fun _ _ _ => rfl) hkeep t d).trans ?_
  unfold Dat.fetched Dat.blockOf iblk1; rw [A_eq1]; try rfl

theorem before1_3 (c : Dev nD) (t : Fin cfg1.N) (d) : (dat1 V c).before 3 t d = iblk1 V c 3 t := by
  have hkeep : ∀ t, (cfg1.win 3).cut (cfg1.grid.coords t) ((dat1 V c).after 3 t) = (dat1 V c).blockOf 3 t := fun t => by
    rw [after1_3]; unfold Dat.blockOf iblk1; rw [A_eq1]; try rfl
  refine ((dat1 V c).before_in_eq_fetched 3 rfl (fun _ => rfl) (fun _ _ _ => rfl) hkeep t d).trans ?_
  unfold Dat.fetched Dat.blockOf iblk1; rw [A_eq1]; try rfl

theorem before1_4 (c : Dev nD) (t : Fin cfg1.N) (d) : (dat1 V c).before 4 t d = iblk1 V c 4 t := by
  have hkeep : ∀ t, (cfg1.win 4).cut (cfg1.grid.coords t) ((dat1 V c).after 4 t) = (dat1 V c).blockOf 4 t := fun t => by
    rw [after1_4]; unfold Dat.blockOf iblk1; rw [A_eq1]; try rfl
  refine ((dat1 V c).before_in_eq_fetched 4 rfl (fun _ => rfl) (fun _ _ _ => rfl) hkeep t d).trans ?_
  unfold Dat.fetched Dat.blockOf iblk1; rw [A_eq1]; try rfl

theorem before1_5 (c : Dev nD) (t : Fin cfg1.N) (d) : (dat1 V c).before 5 t d = iblk1 V c 5 t := by
  have hkeep : ∀ t, (cfg1.win 5).cut (cfg1.grid.coords t) ((dat1 V c).after 5 t) = (dat1 V c).blockOf 5 t := fun t => by
    rw [after1_5]; unfold Dat.blockOf iblk1; rw [A_eq1]; try rfl
  refine ((dat1 V c).before_in_eq_fetched 5 rfl (fun _ => rfl) (fun _ _ _ => rfl) hkeep t d).trans ?_
  unfold Dat.fetched Dat.blockOf iblk1; rw [A_eq1]; try rfl

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six inputs' memrefs hold their blocks (`before1_w`), so `sound_kernel1` applies at those
    blocks; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole program's run: @main is region 0 (the reduce kernel), region 1 (the apply kernel), then two host slices.
  The buffer contents at each boundary are a fold from the launch memory: after region 0 its two result arrays hold
  what its write-backs leave, after region 1 its result array likewise, then the host slices' results. Every weakly
  fair execution terminates with each result buffer at the last boundary's contents and every argument as launched.
-/
import proofs.«177014_j489626271899_1_alg».proof.Proof.KI.R0Body
import proofs.«177014_j489626271899_1_alg».proof.Proof.KI.R1
import proofs.«177014_j489626271899_1_alg».proof.Proof.Gen.KernelIdeal.Regions
import Idealize.ShloMosaic.Lib.Pipeline.Regions
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => m (c, b)
abbrev V0 : (c : Dev nD) → (b : Ref sig .tc) → Buf (Elt F) ((c : Thread nD τ).loc b) := fun c b => W0 m c b
/-- At region 0's exit: its arrays at what the pipeline leaves, every other buffer as entered (region 1's entry). -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- At region 1's exit: its arrays at what the pipeline leaves, every other buffer as entered. -/
def W2 (c : Dev nD) : Valuation τ sig (Elt F) :=
  Pipeline.withArrays spec1 c (W1 m c) fun w => (dat1 (V1 m) c).arrAt w cfg1.N
abbrev V2 : (c : Dev nD) → (b : Ref sig .tc) → Buf (Elt F) ((c : Thread nD τ).loc b) := fun c b => W2 m c b
/-- After the two host slices. -/
def W3 (c : Dev nD) : Valuation τ sig (Elt F) := StableHlo.after hostOps2 (W2 m c)

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

/-! ## The boundary contents read at a region's arrays and off them -/

/-- At region 0's exit each of its arrays holds what the pipeline leaves, -/
theorem hF0 (c : Dev nD) (w : Fin cfg0.W) : (dat0 (V0 m) c).arrAt w cfg0.N = V1 m c (Pipeline.arrRef spec0 w) :=
  (W1_arr m c w).symm
/-- and every buffer that is no array of region 0 what it held at entry. -/
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- At region 1's exit each of its arrays holds what the pipeline leaves, -/
theorem hF1 (c : Dev nD) (w : Fin cfg1.W) : (dat1 (V1 m) c).arrAt w cfg1.N = V2 m c (Pipeline.arrRef spec1 w) :=
  (W2_arr m c w).symm
/-- and every buffer that is no array of region 1 what it held at entry. -/
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- An input array of region 0 leaves the region as it entered: an input window is never written back. -/
theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w hw _).trans (A_eq0 (V0 m) c w))
/-- An input array of region 1 leaves the region as it entered. -/
theorem W2_in (c : Dev nD) (w : Fin cfg1.W) (hw : (cfg1.win w).isOut = false) :
    W2 m c (Proc.devRef .tc (Pipeline.arrRef spec1 w)) = W1 m c (Proc.devRef .tc (Pipeline.arrRef spec1 w)) :=
  (W2_arr m c w).trans (((dat1 (V1 m) c).arrAt_in w hw _).trans (A_eq1 (V1 m) c w))
/-- The host slices write the two results only. -/
theorem W3_of (c : Dev nD) (r : Ref sig .tc) (h : r ∉ (hostOps2_W : List (Ref sig .tc))) :
    W3 m c (Proc.devRef .tc r) = W2 m c (Proc.devRef .tc r) := by
  unfold W3; exact StableHlo.after_of_writes_sub hostOps2 _ hostOps2_writes h

/-! ### The arguments end as launched: no host slice writes one, and a region reads it through an input window or
    passes it by, so the fold at an argument's buffer walks back to the launch memory -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of m c main_arg0 (by decide)
    _ = W1 m c (Proc.devRef .tc main_arg0) := W2_in m c 0 rfl
    _ = W0 m c (Proc.devRef .tc main_arg0) := W1_in m c 0 rfl
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of m c main_arg1 (by decide)
    _ = W1 m c (Proc.devRef .tc main_arg1) := W2_in m c 1 rfl
    _ = W0 m c (Proc.devRef .tc main_arg1) := W1_in m c 1 rfl
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_in m c 2 rfl
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_in m c 3 rfl
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of m c main_arg4 (by decide)
    _ = W1 m c (Proc.devRef .tc main_arg4) := W2_in m c 2 rfl
    _ = W0 m c (Proc.devRef .tc main_arg4) := W1_of_ne m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of m c main_arg5 (by decide)
    _ = W1 m c (Proc.devRef .tc main_arg5) := W2_in m c 3 rfl
    _ = W0 m c (Proc.devRef .tc main_arg5) := W1_of_ne m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_in m c 4 rfl
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_in m c 5 rfl
    _ = m ((c : Thread nD τ).loc main_arg7) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every segment: the core's generator register at some state (a
    region's invariant takes it in and gives it back) and the core owing nothing. -/
abbrev R (c : Dev nD) : sProp 𝕄 := iprop((∃ r, prngReg c r) ∗ ∃ W, owes (c : Thread nD τ) (0 : CellTallies nD τ sig Unit) W)
/-- The two host slices as a segment over the unscoped buffers from region 1's exit contents. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the two regions' entries and exits share -/

/-- Neither pipeline has a prefetched table, so its tables held at any share are no resource at all. -/
theorem noTables0 (c : Dev nD) :
    (Pipeline.prefHeld (pcfgs (F := F) 0).pre c (fun _ => fullShare) (adm (F := F) 0).1 : sProp 𝕄) = BI.emp := by
  unfold Pipeline.prefHeld; exact BI.bigSep_empty
theorem noTables1 (c : Dev nD) :
    (Pipeline.prefHeld (pcfgs (F := F) 1).pre c (fun _ => fullShare) (adm (F := F) 1).1 : sProp 𝕄) = BI.emp := by
  unfold Pipeline.prefHeld; exact BI.bigSep_empty

section Dues

variable {cfg : Cfg sig Λ₀} {c : Dev nD} (dat : Dat τ (Elt F) Unit ℕ (UR sig nD τ) ℕ cfg c)

/-- A core that owes nothing holds its dues as a pipeline's loop keeps them, at any point where the proof data owe
    nothing and bound the recorded pairs by every pair: the bound then excludes none. -/
theorem dues_in (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  show _ ⊢ iprop(∃ W, ⌜↑W ⊆ dat.bound () t⌝ ∗ owes (c : Thread nD τ) (dat.owed t) W)
  rw [h0]
  iintro ⟨%W, H⟩
  iexists W
  isplitr
  · ipureintro; intro x _; exact Or.inl (hrec ▸ Set.mem_univ x)
  iexact H

/-- Conversely the loop's dues at a point where the proof data owe nothing are the core owing nothing: the bound
    on the recorded pairs is forgotten. -/
theorem dues_out (t : Fin (cfg.N + 1)) (h0 : dat.owed t = 0) :
    dat.owesAt () t ⊢ (iprop(∃ W, owes (c : Thread nD τ) (0 : CellTallies nD τ sig Unit) W) : sProp 𝕄) := by
  show iprop(∃ W, ⌜↑W ⊆ dat.bound () t⌝ ∗ owes (c : Thread nD τ) (dat.owed t) W) ⊢ _
  rw [h0]
  iintro ⟨%W, -, H⟩
  iexists W
  iexact H

end Dues

/-! ## The unscoped buffers as a region's arrays beside the rest -/

set_option backward.isDefEq.respectTransparency.types false in
/-- Entering region 0: the unscoped buffers at the launch contents are its eight arrays at the proof data's entry
    contents beside the five buffers that are no array of it. -/
theorem split0 (c : Dev nD) :
    (StableHlo.held (c : Thread nD τ) (Pipeline.ucRefs τ sig) (W0 m c) : sProp 𝕄)
      ⊢ iprop((pdats m 0 c).arrays ((pdats m 0 c).arrAt · 0)
          ∗ Pipeline.unscopedRest (Ix := Unit) (Name := ℕ) (U := UR sig nD τ) (Lvl := ℕ) spec0 c (V0 m c)) := by
  rw [← Pipeline.unscopedBufs_held]
  exact Pipeline.arrays_of_unscopedBufs (p := 0) (pcfgs (F := F)) adm (pdats m) launch0.win launch0.arr_whole c
    ((pdats m 0 c).share_full fun _ => rfl) (V0 m c) fun _ => rfl

set_option backward.isDefEq.respectTransparency.types false in
/-- Leaving region 0: its arrays after every write-back beside the five other buffers, untouched, are the unscoped
    buffers at the region's exit contents. -/
theorem join0 (c : Dev nD) :
    iprop((pdats m 0 c).arrays ((pdats m 0 c).arrAt · cfg0.N)
        ∗ Pipeline.unscopedRest (Ix := Unit) (Name := ℕ) (U := UR sig nD τ) (Lvl := ℕ) spec0 c (V0 m c))
      ⊢ (StableHlo.held (c : Thread nD τ) (Pipeline.ucRefs τ sig) (W1 m c) : sProp 𝕄) := by
  rw [← Pipeline.unscopedBufs_held]
  exact Pipeline.unscopedBufs_of_arrays (p := 0) (pcfgs (F := F)) adm launch0.win launch0.arr_whole c (pdats m)
    ((pdats m 0 c).share_full fun _ => rfl) (V0 m c) (V1 m c) _ (hF0 m c) (hrest0 m c)

set_option backward.isDefEq.respectTransparency.types false in
/-- Entering region 1: the unscoped buffers at region 0's exit contents are its seven arrays at the proof data's
    entry contents beside the six buffers that are no array of it. -/
theorem split1 (c : Dev nD) :
    (StableHlo.held (c : Thread nD τ) (Pipeline.ucRefs τ sig) (W1 m c) : sProp 𝕄)
      ⊢ iprop((pdats m 1 c).arrays ((pdats m 1 c).arrAt · 0)
          ∗ Pipeline.unscopedRest (Ix := Unit) (Name := ℕ) (U := UR sig nD τ) (Lvl := ℕ) spec1 c (V1 m c)) := by
  rw [← Pipeline.unscopedBufs_held]
  exact Pipeline.arrays_of_unscopedBufs (p := 1) (pcfgs (F := F)) adm (pdats m) launch1.win launch1.arr_whole c
    ((pdats m 1 c).share_full fun _ => rfl) (V1 m c) fun _ => rfl

set_option backward.isDefEq.respectTransparency.types false in
/-- Leaving region 1: its arrays after every write-back beside the six other buffers, untouched, are the unscoped
    buffers at the region's exit contents. -/
theorem join1 (c : Dev nD) :
    iprop((pdats m 1 c).arrays ((pdats m 1 c).arrAt · cfg1.N)
        ∗ Pipeline.unscopedRest (Ix := Unit) (Name := ℕ) (U := UR sig nD τ) (Lvl := ℕ) spec1 c (V1 m c))
      ⊢ (StableHlo.held (c : Thread nD τ) (Pipeline.ucRefs τ sig) (W2 m c) : sProp 𝕄) := by
  rw [← Pipeline.unscopedBufs_held]
  exact Pipeline.unscopedBufs_of_arrays (p := 1) (pcfgs (F := F)) adm launch1.win launch1.arr_whole c (pdats m)
    ((pdats m 1 c).share_full fun _ => rfl) (V1 m c) (V2 m c) _ (hF1 m c) (hrest1 m c)

/-! ## The regions as segments -/

set_option backward.isDefEq.respectTransparency.types false in
/-- Region 0 (the reduce kernel) over the thread state: entered from every unscoped buffer at `W0`, left at `W1`. The
    generator register goes into the region's invariant beside the scoped rest and comes back out of it: the invariant
    tracks the six scratch buffers' contents between its two ends, where it is the class invariant. The five buffers
    that are no array of the region pass it by; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none, noTables0 c]
    iintro ⟨⟨Hbufs, Hreg, Hdue⟩, -, -⟩
    icases (split0 m c) $$ Hbufs with ⟨Harr, Hrest⟩
    ihave Hdue' := (dues_in (pdats m 0 c) 0 rfl rfl) $$ Hdue
    imodintro
    iframe
    iempintro
  hin c := by
    rw [noTables0 c]
    refine BIBase.Entails.trans ?_ (hin0 (V0 m) c)
    unfold Pipeline.ΦA
    iintro ⟨Hreg, -, Hsc⟩
    iframe
  hout c := by
    rw [Pipeline.ownSems0_none]
    refine BIBase.Entails.trans (hout0 (V0 m) c) ?_
    unfold Pipeline.ΦA
    iintro ⟨Hsc, Hreg⟩
    iframe
    iempintro
  hexit c := by
    iintro ⟨Harr, Hdue, Hreg, Hrest⟩
    ihave Hbufs := (join0 m c) $$ [Harr Hrest]
    · iframe
    ihave Hdue' := (dues_out (pdats m 0 c) (Fin.last _) rfl) $$ Hdue
    imodintro
    isplitl [Hbufs]; · iexact Hbufs
    isplitl [Hreg]; · iexact Hreg
    iexact Hdue'

set_option backward.isDefEq.respectTransparency.types false in
/-- Region 1 (the apply kernel) over the thread state: entered from every unscoped buffer at `W1`, left at `W2`. Its
    invariant is the class invariant at every point (the scoped rest and the generator register, untouched). The six
    buffers that are no array of the region pass it by; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none, noTables1 c]
    iintro ⟨⟨Hbufs, Hreg, Hdue⟩, -, -⟩
    icases (split1 m c) $$ Hbufs with ⟨Harr, Hrest⟩
    ihave Hdue' := (dues_in (pdats m 1 c) 0 rfl rfl) $$ Hdue
    imodintro
    iframe
    iempintro
  hin c := by
    rw [noTables1 c]
    show _ ⊢ Pipeline.ΦA spec1 c
    unfold Pipeline.ΦA
    iintro ⟨Hreg, -, Hsc⟩
    iframe
  hout c := by
    rw [Pipeline.ownSems0_none]
    show Pipeline.ΦA spec1 c ⊢ _
    unfold Pipeline.ΦA
    iintro ⟨Hsc, Hreg⟩
    iframe
    iempintro
  hexit c := by
    iintro ⟨Harr, Hdue, Hreg, Hrest⟩
    ihave Hbufs := (join1 m c) $$ [Harr Hrest]
    · iframe
    ihave Hdue' := (dues_out (pdats m 1 c) (Fin.last _) rfl) $$ Hdue
    imodintro
    isplitl [Hbufs]; · iexact Hbufs
    isplitl [Hreg]; · iexact Hreg
    iexact Hdue'

/-! ## @main as segments -/

/-- @main's three segments in order: the two kernel regions, then the host slices. -/
abbrev segs : List (Pipeline.Seg (pcfgs (F := F)) adm (pdats m) () defs₀ 𝒱₀ L lv) :=
  [.region (reg0 m), .region (reg1 m), .host (hseg2 m)]

/-- @main is the run of those segments: both are the chain of the same three fragments. -/
theorem main_run (c : Dev nD) : main (F := F) c = Pipeline.Seg.run (segs m) := by
  rw [main_chain c, Pipeline.Seg.run_eq_chain]; rfl

/-! ## The run -/

/-- No ghost resource on any core is no resource. -/
theorem emp_cores : (BI.emp : sProp 𝕄) ⊢ bigSep Finset.univ (fun _ : Dev nD => (iprop(emp) : sProp 𝕄)) :=
  Entails.of_eq (BI.bigSep_emp_const Finset.univ).symm

set_option backward.isDefEq.respectTransparency.types false in
/-- From any memory with zero counters every weakly fair execution of @main terminates, nothing faulting, with the two
    results at the last boundary's contents and every argument as launched. -/
theorem run_value : θ_run defs (onTc (τ := τ) (main (F := F))) ⟨m, fun _ => 0, ρ⟩ (fun r => ∀ c : Dev nD,
      r.2.mem ((c.tc : Thread nD τ).loc main_v2) = W3 m c (Proc.devRef .tc main_v2)
      ∧ r.2.mem ((c.tc : Thread nD τ).loc main_v3) = W3 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' alone; no ghost resource is dealt to a core
      rw [ownU_emb₁]
      iintro Hu
      imodintro
      isplitl [Hu]; · iexact Hu
      iapply emp_cores
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c => by
      -- after the host slices: the buffers at the last boundary's contents, the register, the core owing nothing
      show iprop(StableHlo.held (c : Thread nD τ) (Pipeline.ucRefs τ sig) (W3 m c) ∗ R c) ⊢ _
      iintro ⟨Hbufs, Hreg, Hdue⟩
      isplitr [Hdue]; · isplitl [Hbufs]; · iexact Hbufs
                        iexact Hreg
      iexact Hdue⟩)
    (hinit := by
      -- each core makes its first thread state alone: its unscoped buffers as launched, its register, owing nothing
      refine Pipeline.initEach L lv fun c => ?_
      rw [show unscopedBufs c (fun b => m ((c : Thread nD τ).loc b))
          = StableHlo.held (c : Thread nD τ) (Pipeline.ucRefs τ sig) (W0 m c) from Pipeline.unscopedBufs_held c (W0 m c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem ((c : Thread nD τ).1, b) = W3 m c b)
    (hfin := fun c s' => by
      -- the buffers held beside the final state's interpretation say what its memory holds
      iintro ⟨⟨Hbufs, -⟩, HSI⟩
      unfold StableHlo.held
      imodintro
      iapply (pointsTo_read_all (Pipeline.ucRefs τ sig) (fun b => ((c : Thread nD τ).1, b)) (W3 m c) s')
      iframe)
    (hQ := fun s h c =>
      ⟨h c _ (mem_uc main_v2 (by decide)), h c _ (mem_uc main_v3 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c),
       (h c _ (mem_uc main_arg6 (by decide))).trans (W3_main_arg6 m c),
       (h c _ (mem_uc main_arg7 (by decide))).trans (W3_main_arg7 m c)⟩)

end Cert.KernelIdeal.Hand

end
-- ==== Proof.KI.StepValue.lean ====
/-
  One tile's update read at an index, at the ideal instance. With `tsc x w h j = Σ_c x[0,j,c] · w[h,c]` the tile's
  projection (scores with the key weights, values with the value weights), head 0's update of the carried state is
    new maximum      M      = max (old maximum) (max over the tile's 2048 tokens of the score),
    new denominator  l'[h]  = exp (old maximum − M) · l[h] + Σ_j exp (score_j − M),
    new numerator    a'[h,d] = exp (old maximum − M) · a[h,d] + Σ_j exp (score_j − M) · value_j[d],
  and head 1's the same over the other stream; the reset state is −∞, 0, 0; the output block is numerator / denominator.
  (Changes of float format are the identity here, a matrix product into a zero accumulator is the plain contraction.)
-/
import proofs.«177014_j489626271899_1_alg».proof.Proof.KI.Step
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-- A tile's projection: token `j` of the tile against row `h` of the weight. -/
def tsc (x : Vec Ideal S1x2048x256 .f32) (w : Vec Ideal S64x256 .f32) (h : Fin 64) (j : Fin 2048) : EReal :=
  ∑ cc : Fin 256, x (ix3 0 j cc) * w (ix2 h cc)

/-- The maximum a tile's update moves to: the old one against the tile's scores. -/
def tmax (x : Vec Ideal S1x2048x256 .f32) (wk : Vec Ideal S64x256 .f32) (mOld : Vec Ideal S64x1 .f32) (h : Fin 64) : EReal :=
  max (mOld (ix2 h 0)) ((Finset.univ : Finset (Fin 2048)).fold max ⊥ fun j => tsc x wk h j)

/-! ## Constants and layout changes read at an index -/

/-- The f32 pattern of −∞ is the bottom of the extended reals. -/
theorem ofBits_neg_inf_f32_SV : Ideal.ofBits .f32 0xFF800000#32 = ⊥ := by simp [Ideal.ofBits, Ideal.ieee]

/-- A length-`a` vector cast to a column `[a, 1]` reads, at `(i, u)`, the operand at `i`. -/
theorem shapeCast_a_a1_apply_SV {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply_SV {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over `(h)` with coordinate `j` put back on the reduced second axis is `(h, j)`. -/
theorem lift_ix1_SV (hr : S64x2048.Reduces [1] S64) (h : Fin 64) (j : Fin 2048) :
    hr.lift (ix1 h) j = ix2 h j :=
  funext fun a => Fin.ext (by match a with | ⟨0, _⟩ => rfl | ⟨1, _⟩ => rfl)

/-- The row maximum of a 64×2048 block, as a column, read at row `h`: the fold of `max` from −∞ over the row. -/
theorem rowMax_apply_SV (src : FVec Ideal S64x2048 .f32) (hr : S64x2048.Reduces [1] S64) (hc : S64.ShapeCasts S64x1)
    (hφ : FKind.Formats .f32) (hacc : (0xFF800000#32 : BitVec 32) = FKind.maximumf.neutral .f32 hφ) (h : Fin 64) :
    shapeCast S64x1 (multiReduction .maximumf [1] S64 src 0xFF800000#32 hr hφ hacc) hc (ix2 h 0)
      = (Finset.univ : Finset (Fin 2048)).fold max ⊥ fun j => src (ix2 h j) := by
  refine (shapeCast_a_a1_apply_SV _ hc h 0).trans ?_
  refine (Ideal.multiReduction_maximumf_single src _ hr hφ hacc (ix1 h)).trans ?_
  have e : (src ∘ hr.lift (ix1 h)) = fun j : Fin 2048 => src (ix2 h j) := funext fun j => congrArg src (lift_ix1_SV hr h j)
  rw [e]
  exact congrArg (fun b => (Finset.univ : Finset (Fin 2048)).fold max b fun j => src (ix2 h j)) ofBits_neg_inf_f32_SV

/-- The row sum of a 64×2048 block, as a column, read at row `h`. -/
theorem rowSum_apply_SV (src : FVec Ideal S64x2048 .f32) (hr : S64x2048.Reduces [1] S64) (hc : S64.ShapeCasts S64x1)
    (hφ : FKind.Formats .f32) (hacc : (0x00000000#32 : BitVec 32) = FKind.add.neutral .f32 hφ) (h : Fin 64) :
    shapeCast S64x1 (multiReduction .add [1] S64 src 0x00000000#32 hr hφ hacc) hc (ix2 h 0)
      = ∑ j : Fin 2048, src (ix2 h j) := by
  refine (shapeCast_a_a1_apply_SV _ hc h 0).trans ?_
  refine (Ideal.multiReduction_add_single src _ hr hφ hacc (ix1 h)).trans ?_
  exact Finset.sum_congr rfl fun j _ => congrArg src (lift_ix1_SV hr h j)

/-! ## The two matrix products read at an index -/

/-- Operand indices of the score product (64×256 against 2048×256, contracting the 256 features). -/
theorem lhsA_0_SV (i : S64x2048.Idx) (q : dot_S64x256_S2048x256_S64x2048_1_1_0_0_n_n.contr.Idx) :
    (dot_S64x256_S2048x256_S64x2048_1_1_0_0_n_n.lhsIdx i q 0).val = (i 0).val := by
  unfold DotDims.lhsIdx
  rw [dif_neg (show ¬(0 : Fin S64x256.rank) ∈ dot_S64x256_S2048x256_S64x2048_1_1_0_0_n_n.lhsBatch by decide), dif_pos (show (0 : Fin S64x256.rank) ∈ dot_S64x256_S2048x256_S64x2048_1_1_0_0_n_n.lhsNonContracting by decide)]
  rfl
theorem lhsA_1_SV (i : S64x2048.Idx) (q : dot_S64x256_S2048x256_S64x2048_1_1_0_0_n_n.contr.Idx) :
    (dot_S64x256_S2048x256_S64x2048_1_1_0_0_n_n.lhsIdx i q 1).val = (q ⟨0, by decide⟩).val :=
  dot_S64x256_S2048x256_S64x2048_1_1_0_0_n_n.lhsIdx_val_of_single rfl i q
theorem rhsA_0_SV (i : S64x2048.Idx) (q : dot_S64x256_S2048x256_S64x2048_1_1_0_0_n_n.contr.Idx) :
    (dot_S64x256_S2048x256_S64x2048_1_1_0_0_n_n.rhsIdx i q 0).val = (i 1).val := by
  unfold DotDims.rhsIdx
  rw [dif_neg (show ¬(0 : Fin S2048x256.rank) ∈ dot_S64x256_S2048x256_S64x2048_1_1_0_0_n_n.rhsBatch by decide), dif_pos (show (0 : Fin S2048x256.rank) ∈ dot_S64x256_S2048x256_S64x2048_1_1_0_0_n_n.rhsNonContracting by decide)]
  rfl
theorem rhsA_1_SV (i : S64x2048.Idx) (q : dot_S64x256_S2048x256_S64x2048_1_1_0_0_n_n.contr.Idx) :
    (dot_S64x256_S2048x256_S64x2048_1_1_0_0_n_n.rhsIdx i q 1).val = (q ⟨0, by decide⟩).val :=
  dot_S64x256_S2048x256_S64x2048_1_1_0_0_n_n.rhsIdx_val_of_single rfl i q

/-- The projection product into a zero accumulator, read at `(h, j)`: weight row `h` against token `j` of the tile. -/
theorem projMul_apply_SV (x : Vec Ideal S1x2048x256 .f32) (w : Vec Ideal S64x256 .f32)
    (hb : FTy.bits .bf16 < FTy.bits .f32) (hc : S1x2048x256.ShapeCasts S2048x256) (h : Fin 64) (j : Fin 2048) :
    matmul (F := Ideal) dot_S64x256_S2048x256_S64x2048_1_1_0_0_n_n none (truncf .bf16 w hb)
        (truncf .bf16 (shapeCast S2048x256 x hc) hb) (constant S64x2048 .f32 0x00000000#32) (ix2 h j)
      = tsc x w h j := by
  unfold tsc
  refine (Ideal.matmul_constant_zero_apply _ none _ _ _).trans ?_
  rw [← Equiv.sum_comp (contrEquiv1 dot_S64x256_S2048x256_S64x2048_1_1_0_0_n_n 256 rfl rfl).symm]
  refine Finset.sum_congr rfl fun k _ => ?_
  have hk := contrEquiv1_symm_val dot_S64x256_S2048x256_S64x2048_1_1_0_0_n_n 256 rfl rfl k
  have el : dot_S64x256_S2048x256_S64x2048_1_1_0_0_n_n.lhsIdx (ix2 h j) ((contrEquiv1 dot_S64x256_S2048x256_S64x2048_1_1_0_0_n_n 256 rfl rfl).symm k) = ix2 h k := funext fun a => Fin.ext (by
    match a with
    | ⟨0, _⟩ => exact lhsA_0_SV _ _
    | ⟨1, _⟩ => exact (lhsA_1_SV _ _).trans hk)
  have er : dot_S64x256_S2048x256_S64x2048_1_1_0_0_n_n.rhsIdx (ix2 h j) ((contrEquiv1 dot_S64x256_S2048x256_S64x2048_1_1_0_0_n_n 256 rfl rfl).symm k) = ix2 j k := funext fun a => Fin.ext (by
    match a with
    | ⟨0, _⟩ => exact rhsA_0_SV _ _
    | ⟨1, _⟩ => exact (rhsA_1_SV _ _).trans hk)
  rw [el, er, truncf_apply, truncf_apply, shapeCast_1ab_ab_apply]
  exact mul_comm _ _

/-- Operand indices of the weighting product (64×2048 against 64×2048, contracting the 2048 tokens). -/
theorem lhsB_0_SV (i : S64x64.Idx) (q : dot_S64x2048_S64x2048_S64x64_1_1_0_0_n_n.contr.Idx) :
    (dot_S64x2048_S64x2048_S64x64_1_1_0_0_n_n.lhsIdx i q 0).val = (i 0).val := by
  unfold DotDims.lhsIdx
  rw [dif_neg (show ¬(0 : Fin S64x2048.rank) ∈ dot_S64x2048_S64x2048_S64x64_1_1_0_0_n_n.lhsBatch by decide), dif_pos (show (0 : Fin S64x2048.rank) ∈ dot_S64x2048_S64x2048_S64x64_1_1_0_0_n_n.lhsNonContracting by decide)]
  rfl
theorem lhsB_1_SV (i : S64x64.Idx) (q : dot_S64x2048_S64x2048_S64x64_1_1_0_0_n_n.contr.Idx) :
    (dot_S64x2048_S64x2048_S64x64_1_1_0_0_n_n.lhsIdx i q 1).val = (q ⟨0, by decide⟩).val :=
  dot_S64x2048_S64x2048_S64x64_1_1_0_0_n_n.lhsIdx_val_of_single rfl i q
theorem rhsB_0_SV (i : S64x64.Idx) (q : dot_S64x2048_S64x2048_S64x64_1_1_0_0_n_n.contr.Idx) :
    (dot_S64x2048_S64x2048_S64x64_1_1_0_0_n_n.rhsIdx i q 0).val = (i 1).val := by
  unfold DotDims.rhsIdx
  rw [dif_neg (show ¬(0 : Fin S64x2048.rank) ∈ dot_S64x2048_S64x2048_S64x64_1_1_0_0_n_n.rhsBatch by decide), dif_pos (show (0 : Fin S64x2048.rank) ∈ dot_S64x2048_S64x2048_S64x64_1_1_0_0_n_n.rhsNonContracting by decide)]
  rfl
theorem rhsB_1_SV (i : S64x64.Idx) (q : dot_S64x2048_S64x2048_S64x64_1_1_0_0_n_n.contr.Idx) :
    (dot_S64x2048_S64x2048_S64x64_1_1_0_0_n_n.rhsIdx i q 1).val = (q ⟨0, by decide⟩).val :=
  dot_S64x2048_S64x2048_S64x64_1_1_0_0_n_n.rhsIdx_val_of_single rfl i q

/-- The weighting product into a zero accumulator, read at `(h, d)`: row `h` of the weights against row `d` of the values. -/
theorem wgtMul_apply_SV (p v : FVec Ideal S64x2048 .f32) (hb : FTy.bits .bf16 < FTy.bits .f32) (h d : Fin 64) :
    matmul (F := Ideal) dot_S64x2048_S64x2048_S64x64_1_1_0_0_n_n none (truncf .bf16 p hb) (truncf .bf16 v hb)
        (constant S64x64 .f32 0x00000000#32) (ix2 h d)
      = ∑ j : Fin 2048, p (ix2 h j) * v (ix2 d j) := by
  refine (Ideal.matmul_constant_zero_apply _ none _ _ _).trans ?_
  rw [← Equiv.sum_comp (contrEquiv1 dot_S64x2048_S64x2048_S64x64_1_1_0_0_n_n 2048 rfl rfl).symm]
  refine Finset.sum_congr rfl fun k _ => ?_
  have hk := contrEquiv1_symm_val dot_S64x2048_S64x2048_S64x64_1_1_0_0_n_n 2048 rfl rfl k
  have el : dot_S64x2048_S64x2048_S64x64_1_1_0_0_n_n.lhsIdx (ix2 h d) ((contrEquiv1 dot_S64x2048_S64x2048_S64x64_1_1_0_0_n_n 2048 rfl rfl).symm k) = ix2 h k := funext fun a => Fin.ext (by
    match a with
    | ⟨0, _⟩ => exact lhsB_0_SV _ _
    | ⟨1, _⟩ => exact (lhsB_1_SV _ _).trans hk)
  have er : dot_S64x2048_S64x2048_S64x64_1_1_0_0_n_n.rhsIdx (ix2 h d) ((contrEquiv1 dot_S64x2048_S64x2048_S64x64_1_1_0_0_n_n 2048 rfl rfl).symm k) = ix2 d k := funext fun a => Fin.ext (by
    match a with
    | ⟨0, _⟩ => exact rhsB_0_SV _ _
    | ⟨1, _⟩ => exact (rhsB_1_SV _ _).trans hk)
  rw [el, er, truncf_apply, truncf_apply]

/-! ## The payloads read at an index -/

theorem pay14_apply_SV (x : Vec Ideal S1x2048x256 .f32) (w : Vec Ideal S64x256 .f32) (h : Fin 64) (j : Fin 2048) :
    k0_pay14 (F := Ideal) x w (ix2 h j) = tsc x w h j := by
  unfold k0_pay14 k0_pay12
  exact projMul_apply_SV x w _ _ h j
theorem pay15_apply_SV (x : Vec Ideal S1x2048x256 .f32) (w : Vec Ideal S64x256 .f32) (h : Fin 64) (j : Fin 2048) :
    k0_pay15 (F := Ideal) x w (ix2 h j) = tsc x w h j := by
  unfold k0_pay15 k0_pay12
  exact projMul_apply_SV x w _ _ h j
theorem pay16_apply_SV (x : Vec Ideal S1x2048x256 .f32) (w : Vec Ideal S64x256 .f32) (h : Fin 64) (j : Fin 2048) :
    k0_pay16 (F := Ideal) x w (ix2 h j) = tsc x w h j := by
  unfold k0_pay16 k0_pay13
  exact projMul_apply_SV x w _ _ h j
theorem pay17_apply_SV (x : Vec Ideal S1x2048x256 .f32) (w : Vec Ideal S64x256 .f32) (h : Fin 64) (j : Fin 2048) :
    k0_pay17 (F := Ideal) x w (ix2 h j) = tsc x w h j := by
  unfold k0_pay17 k0_pay13
  exact projMul_apply_SV x w _ _ h j

/-- Head 0's new maximum. -/
theorem pay18_apply_SV (x : Vec Ideal S1x2048x256 .f32) (w : Vec Ideal S64x256 .f32) (m : Vec Ideal S64x1 .f32) (h : Fin 64) :
    k0_pay18 (F := Ideal) x w m (ix2 h 0) = tmax x w m h := by
  unfold k0_pay18 tmax
  refine congrArg (max (m (ix2 h 0))) ?_
  refine (rowMax_apply_SV _ _ _ _ _ h).trans ?_
  exact congrArg (fun f => (Finset.univ : Finset (Fin 2048)).fold max ⊥ f) (funext fun j => pay14_apply_SV x w h j)

/-- Head 0's rescaling factor exp (old − new maximum). -/
theorem pay19_apply_SV (x : Vec Ideal S1x2048x256 .f32) (w : Vec Ideal S64x256 .f32) (m m' : Vec Ideal S64x1 .f32) (h : Fin 64) :
    k0_pay19 (F := Ideal) x w m m' (ix2 h 0) = Ideal.exp (m' (ix2 h 0) - tmax x w m h) := by
  unfold k0_pay19
  exact congrArg (fun t => Ideal.exp (m' (ix2 h 0) - t)) (pay18_apply_SV x w m h)

/-- Head 0's weights exp (score − new maximum). -/
theorem pay20_apply_SV (x : Vec Ideal S1x2048x256 .f32) (w : Vec Ideal S64x256 .f32) (m : Vec Ideal S64x1 .f32) (h : Fin 64) (j : Fin 2048) :
    k0_pay20 (F := Ideal) x w m (ix2 h j) = Ideal.exp (tsc x w h j - tmax x w m h) := by
  unfold k0_pay20
  exact congrArg₂ (fun a b => Ideal.exp (a - b)) (pay14_apply_SV x w h j)
    ((broadcastTo_a1_ab_apply_SV _ _ h j).trans (pay18_apply_SV x w m h))

/-- The denominator's update: factor · old + row sum of the weights. -/
theorem pay21_apply_SV (α : FVec Ideal S64x1 .f32) (p : FVec Ideal S64x2048 .f32) (l : Vec Ideal S64x1 .f32) (h : Fin 64) :
    k0_pay21 α p l (ix2 h 0) = α (ix2 h 0) * l (ix2 h 0) + ∑ j : Fin 2048, p (ix2 h j) := by
  unfold k0_pay21
  refine (congrFun (shapeCast_self _ _) _).trans ?_
  exact congrArg (fun t => α (ix2 h 0) * l (ix2 h 0) + t) (rowSum_apply_SV p _ _ _ _ h)

/-- The numerator's update: factor · old + weights against the values. -/
theorem pay22_apply_SV (v : FVec Ideal S64x2048 .f32) (α : FVec Ideal S64x1 .f32) (p : FVec Ideal S64x2048 .f32)
    (a : Vec Ideal S64x64 .f32) (h d : Fin 64) :
    k0_pay22 v α p a (ix2 h d) = α (ix2 h 0) * a (ix2 h d) + ∑ j : Fin 2048, p (ix2 h j) * v (ix2 d j) := by
  unfold k0_pay22
  refine (congrFun (shapeCast_self _ _) _).trans ?_
  exact congrArg₂ (fun s t => s * a (ix2 h d) + t) (broadcastTo_a1_ab_apply_SV α _ h d) (wgtMul_apply_SV p v _ h d)

theorem pay23_eq_SV (v : FVec Ideal S64x1 .f32) : k0_pay23 v = v := by
  unfold k0_pay23; exact shapeCast_self _ _
theorem pay1_eq_SV (v : FVec Ideal S64x1 .f32) : k0_pay1 v = v := by
  unfold k0_pay1; exact shapeCast_self _ _
theorem pay3_eq_SV (v : FVec Ideal S64x1 .f32) : k0_pay3 v = v := by
  unfold k0_pay3; exact shapeCast_self _ _

/-- Head 1's new maximum, over its score block. -/
theorem pay24_apply_SV (x : Vec Ideal S1x2048x256 .f32) (w : Vec Ideal S64x256 .f32) (m : Vec Ideal S64x1 .f32) (h : Fin 64) :
    k0_pay24 (k0_pay16 (F := Ideal) x w) m (ix2 h 0) = tmax x w m h := by
  unfold k0_pay24 tmax
  refine congrArg (max (m (ix2 h 0))) ?_
  refine (rowMax_apply_SV _ _ _ _ _ h).trans ?_
  exact congrArg (fun f => (Finset.univ : Finset (Fin 2048)).fold max ⊥ f) (funext fun j => pay16_apply_SV x w h j)

theorem pay25_apply_SV (x : Vec Ideal S1x2048x256 .f32) (w : Vec Ideal S64x256 .f32) (m m' : Vec Ideal S64x1 .f32) (h : Fin 64) :
    k0_pay25 (k0_pay16 (F := Ideal) x w) m m' (ix2 h 0) = Ideal.exp (m' (ix2 h 0) - tmax x w m h) := by
  unfold k0_pay25
  exact congrArg (fun t => Ideal.exp (m' (ix2 h 0) - t)) (pay24_apply_SV x w m h)

theorem pay26_apply_SV (x : Vec Ideal S1x2048x256 .f32) (w : Vec Ideal S64x256 .f32) (m : Vec Ideal S64x1 .f32) (h : Fin 64) (j : Fin 2048) :
    k0_pay26 (k0_pay16 (F := Ideal) x w) m (ix2 h j) = Ideal.exp (tsc x w h j - tmax x w m h) := by
  unfold k0_pay26
  exact congrArg₂ (fun a b => Ideal.exp (a - b)) (pay16_apply_SV x w h j)
    ((broadcastTo_a1_ab_apply_SV _ _ h j).trans (pay24_apply_SV x w m h))

theorem pay27_apply_SV (x : Vec Ideal S1x2048x256 .f32) (w : Vec Ideal S64x256 .f32) (m m' l : Vec Ideal S64x1 .f32) (h : Fin 64) :
    k0_pay27 (k0_pay16 (F := Ideal) x w) m m' l (ix2 h 0)
      = Ideal.exp (m' (ix2 h 0) - tmax x w m h) * l (ix2 h 0) + ∑ j : Fin 2048, Ideal.exp (tsc x w h j - tmax x w m h) := by
  unfold k0_pay27
  refine congrArg₂ (fun s t => s * l (ix2 h 0) + t) (pay25_apply_SV x w m m' h) ?_
  refine (rowSum_apply_SV _ _ _ _ _ h).trans ?_
  exact Finset.sum_congr rfl fun j _ => pay26_apply_SV x w m h j

theorem pay2_apply_SV (v : FVec Ideal S64x2048 .f32) (α : FVec Ideal S64x1 .f32) (p : FVec Ideal S64x2048 .f32)
    (a : Vec Ideal S64x64 .f32) (h d : Fin 64) :
    k0_pay2 v α p a (ix2 h d) = α (ix2 h 0) * a (ix2 h d) + ∑ j : Fin 2048, p (ix2 h j) * v (ix2 d j) := by
  unfold k0_pay2
  refine (congrFun (shapeCast_self _ _) _).trans ?_
  exact congrArg₂ (fun s t => s * a (ix2 h d) + t) (broadcastTo_a1_ab_apply_SV α _ h d) (wgtMul_apply_SV p v _ h d)

/-- An output block: numerator / denominator, the denominator's column spread over the row. -/
theorem pay4_apply_SV (a : Vec Ideal S64x64 .f32) (l : Vec Ideal S64x1 .f32) (h d : Fin 64) :
    k0_pay4 a l (ix3 0 h d) = Ideal.div (a (ix2 h d)) (l (ix2 h 0)) := by
  unfold k0_pay4
  refine (shapeCast_ab_1ab_apply _ _ 0 h d).trans ?_
  exact congrArg (Ideal.div (a (ix2 h d))) (broadcastTo_a1_ab_apply_SV l _ h d)
theorem pay5_apply_SV (a : Vec Ideal S64x64 .f32) (l : Vec Ideal S64x1 .f32) (h d : Fin 64) :
    k0_pay5 a l (ix3 0 h d) = Ideal.div (a (ix2 h d)) (l (ix2 h 0)) := by
  unfold k0_pay5
  refine (shapeCast_ab_1ab_apply _ _ 0 h d).trans ?_
  exact congrArg (Ideal.div (a (ix2 h d))) (broadcastTo_a1_ab_apply_SV l _ h d)

/-! ## The reset state, the update and the output blocks -/

variable (x0 x1 : Vec Ideal S1x2048x256 .f32) (wk0 wk1 wv0 wv1 : Vec Ideal S64x256 .f32) (s : Sc Ideal)

theorem reset_m0 (h : Fin 64) : (reset : Sc Ideal).m0 (ix2 h 0) = ⊥ := by
  show k0_pay6 (F := Ideal) (ix2 h 0) = ⊥
  unfold k0_pay6
  exact (congrFun (shapeCast_self _ _) _).trans ofBits_neg_inf_f32_SV
theorem reset_l0 (h : Fin 64) : (reset : Sc Ideal).l0 (ix2 h 0) = 0 := by
  show k0_pay7 (F := Ideal) (ix2 h 0) = 0
  unfold k0_pay7
  exact (congrFun (shapeCast_self _ _) _).trans Ideal.ofBits_zero_f32
theorem reset_a0 (h d : Fin 64) : (reset : Sc Ideal).a0 (ix2 h d) = 0 := by
  show k0_pay8 (F := Ideal) (ix2 h d) = 0
  unfold k0_pay8
  exact (congrFun (shapeCast_self _ _) _).trans Ideal.ofBits_zero_f32
theorem reset_m1 (h : Fin 64) : (reset : Sc Ideal).m1 (ix2 h 0) = ⊥ := by
  show k0_pay9 (F := Ideal) (ix2 h 0) = ⊥
  unfold k0_pay9
  exact (congrFun (shapeCast_self _ _) _).trans ofBits_neg_inf_f32_SV
theorem reset_l1 (h : Fin 64) : (reset : Sc Ideal).l1 (ix2 h 0) = 0 := by
  show k0_pay10 (F := Ideal) (ix2 h 0) = 0
  unfold k0_pay10
  exact (congrFun (shapeCast_self _ _) _).trans Ideal.ofBits_zero_f32
theorem reset_a1 (h d : Fin 64) : (reset : Sc Ideal).a1 (ix2 h d) = 0 := by
  show k0_pay11 (F := Ideal) (ix2 h d) = 0
  unfold k0_pay11
  exact (congrFun (shapeCast_self _ _) _).trans Ideal.ofBits_zero_f32

theorem step_m0 (h : Fin 64) : (step x0 x1 wk0 wk1 wv0 wv1 s).m0 (ix2 h 0) = tmax x0 wk0 s.m0 h := by
  show k0_pay23 (k0_pay18 x0 wk0 s.m0) (ix2 h 0) = _
  exact (congrFun (pay23_eq_SV _) _).trans (pay18_apply_SV x0 wk0 s.m0 h)
theorem step_l0 (h : Fin 64) : (step x0 x1 wk0 wk1 wv0 wv1 s).l0 (ix2 h 0)
    = Ideal.exp (s.m0 (ix2 h 0) - tmax x0 wk0 s.m0 h) * s.l0 (ix2 h 0) + ∑ j : Fin 2048, Ideal.exp (tsc x0 wk0 h j - tmax x0 wk0 s.m0 h) := by
  show k0_pay21 (k0_pay19 x0 wk0 s.m0 s.m0) (k0_pay20 x0 wk0 s.m0) s.l0 (ix2 h 0) = _
  refine (pay21_apply_SV _ _ _ h).trans ?_
  exact congrArg₂ (fun a b => a * s.l0 (ix2 h 0) + b) (pay19_apply_SV x0 wk0 s.m0 s.m0 h)
    (Finset.sum_congr rfl fun j _ => pay20_apply_SV x0 wk0 s.m0 h j)
theorem step_a0 (h d : Fin 64) : (step x0 x1 wk0 wk1 wv0 wv1 s).a0 (ix2 h d)
    = Ideal.exp (s.m0 (ix2 h 0) - tmax x0 wk0 s.m0 h) * s.a0 (ix2 h d)
      + ∑ j : Fin 2048, Ideal.exp (tsc x0 wk0 h j - tmax x0 wk0 s.m0 h) * tsc x0 wv0 d j := by
  show k0_pay22 (k0_pay15 x0 wv0) (k0_pay19 x0 wk0 s.m0 s.m0) (k0_pay20 x0 wk0 s.m0) s.a0 (ix2 h d) = _
  refine (pay22_apply_SV _ _ _ _ h d).trans ?_
  exact congrArg₂ (fun a b => a * s.a0 (ix2 h d) + b) (pay19_apply_SV x0 wk0 s.m0 s.m0 h)
    (Finset.sum_congr rfl fun j _ => congrArg₂ (fun a b => a * b) (pay20_apply_SV x0 wk0 s.m0 h j) (pay15_apply_SV x0 wv0 d j))
theorem step_m1 (h : Fin 64) : (step x0 x1 wk0 wk1 wv0 wv1 s).m1 (ix2 h 0) = tmax x1 wk1 s.m1 h := by
  show k0_pay3 (k0_pay24 (k0_pay16 x1 wk1) s.m1) (ix2 h 0) = _
  exact (congrFun (pay3_eq_SV _) _).trans (pay24_apply_SV x1 wk1 s.m1 h)
theorem step_l1 (h : Fin 64) : (step x0 x1 wk0 wk1 wv0 wv1 s).l1 (ix2 h 0)
    = Ideal.exp (s.m1 (ix2 h 0) - tmax x1 wk1 s.m1 h) * s.l1 (ix2 h 0) + ∑ j : Fin 2048, Ideal.exp (tsc x1 wk1 h j - tmax x1 wk1 s.m1 h) := by
  show k0_pay1 (k0_pay27 (k0_pay16 x1 wk1) s.m1 s.m1 s.l1) (ix2 h 0) = _
  exact (congrFun (pay1_eq_SV _) _).trans (pay27_apply_SV x1 wk1 s.m1 s.m1 s.l1 h)
theorem step_a1 (h d : Fin 64) : (step x0 x1 wk0 wk1 wv0 wv1 s).a1 (ix2 h d)
    = Ideal.exp (s.m1 (ix2 h 0) - tmax x1 wk1 s.m1 h) * s.a1 (ix2 h d)
      + ∑ j : Fin 2048, Ideal.exp (tsc x1 wk1 h j - tmax x1 wk1 s.m1 h) * tsc x1 wv1 d j := by
  show k0_pay2 (k0_pay17 x1 wv1) (k0_pay25 (k0_pay16 x1 wk1) s.m1 s.m1) (k0_pay26 (k0_pay16 x1 wk1) s.m1) s.a1 (ix2 h d) = _
  refine (pay2_apply_SV _ _ _ _ h d).trans ?_
  exact congrArg₂ (fun a b => a * s.a1 (ix2 h d) + b) (pay25_apply_SV x1 wk1 s.m1 s.m1 h)
    (Finset.sum_congr rfl fun j _ => congrArg₂ (fun a b => a * b) (pay26_apply_SV x1 wk1 s.m1 h j) (pay17_apply_SV x1 wv1 d j))

theorem fin0_apply (h d : Fin 64) : fin0 s (ix3 0 h d) = Ideal.div (s.a0 (ix2 h d)) (s.l0 (ix2 h 0)) :=
  pay4_apply_SV s.a0 s.l0 h d
theorem fin1_apply (h d : Fin 64) : fin1 s (ix3 0 h d) = Ideal.div (s.a1 (ix2 h d)) (s.l1 (ix2 h 0)) :=
  pay5_apply_SV s.a1 s.l1 h d

end Cert.KernelIdeal.Hand

end
-- ==== Proof.Spec.lean ====
/-
  The common specification: efficient cross attention over two token streams, as plain functions on the
  extended reals. For a stream `x` (4 × 16384 × 256) and a weight `w` (64 × 256) the projection is
  `proj x w b r h = Σ_c x[b,r,c] · w[h,c]`. Keys are soft-maxed over the TOKEN axis (per batch row and head),
  queries over the HEAD axis (per token); the context matrix of a stream is `ctx b h d = Σ_r ksoft b r h · v b r d`;
  each output is the other stream's context applied to this stream's soft-maxed queries.

  Two spellings of the context matrix meet here: the reference divides each exponential by the column sum before
  the contraction (`ctx`), the kernel contracts first and divides once (`ctxK`); they agree when scores and values
  are real numbers (`ctxK_eq_ctx`). The kernel moreover reaches `ctxK`'s numerator and denominator by a running
  update over tiles of tokens, rescaling by `exp (old max − new max)` (`online_step`).
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 16384, 256]⟩
abbrev SW : Shape := ⟨2, ![64, 256]⟩
abbrev SO : Shape := ⟨3, ![4, 16384, 64]⟩

/-- A projection: `Σ_c x[b,r,c] · w[h,c]`. -/
def proj (x : SX.Idx → EReal) (w : SW.Idx → EReal) (b : Fin 4) (r : Fin 16384) (h : Fin 64) : EReal :=
  ∑ c : Fin 256, x (ix3 b r c) * w (ix2 h c)

/-- The maximum of a family over a finite index type, from −∞. -/
def fmax {ι : Type} [Fintype ι] (f : ι → EReal) : EReal := (Finset.univ : Finset ι).fold max ⊥ f

/-- Keys' exponentials, shifted by the column maximum over all tokens. -/
def kexp (k : Fin 4 → Fin 16384 → Fin 64 → EReal) (b : Fin 4) (r : Fin 16384) (h : Fin 64) : EReal :=
  Ideal.exp (k b r h - fmax fun r' => k b r' h)

/-- Softmax over the token axis. -/
def ksoft (k : Fin 4 → Fin 16384 → Fin 64 → EReal) (b : Fin 4) (r : Fin 16384) (h : Fin 64) : EReal :=
  Ideal.div (kexp k b r h) (∑ r' : Fin 16384, kexp k b r' h)

/-- The context matrix as the reference spells it: the soft-maxed keys contracted with the values over tokens. -/
def ctx (k v : Fin 4 → Fin 16384 → Fin 64 → EReal) (b : Fin 4) (h d : Fin 64) : EReal :=
  ∑ r : Fin 16384, ksoft k b r h * v b r d

/-- The context matrix as the kernel spells it: contract the exponentials with the values, divide by their sum once. -/
def ctxK (k v : Fin 4 → Fin 16384 → Fin 64 → EReal) (b : Fin 4) (h d : Fin 64) : EReal :=
  Ideal.div (∑ r : Fin 16384, kexp k b r h * v b r d) (∑ r : Fin 16384, kexp k b r h)

/-- Softmax over the head axis. -/
def qsoft (q : Fin 4 → Fin 16384 → Fin 64 → EReal) (b : Fin 4) (r : Fin 16384) (h : Fin 64) : EReal :=
  Ideal.div (Ideal.exp (q b r h - fmax fun h' => q b r h')) (∑ h' : Fin 64, Ideal.exp (q b r h' - fmax fun h'' => q b r h''))

/-- An output: soft-maxed queries applied to a context matrix. -/
def attn (q : Fin 4 → Fin 16384 → Fin 64 → EReal) (w : Fin 4 → Fin 64 → Fin 64 → EReal) (b : Fin 4) (r : Fin 16384) (d : Fin 64) : EReal :=
  ∑ h : Fin 64, qsoft q b r h * w b h d

/-- The first result: stream 0's queries against stream 1's context. -/
def G0 (x0 x1 : SX.Idx → EReal) (wk1 wq0 wv1 : SW.Idx → EReal) : SO.Idx → EReal :=
  fun i => attn (proj x0 wq0) (ctx (proj x1 wk1) (proj x1 wv1)) (i 0) (i 1) (i 2)

/-- The second result: stream 1's queries against stream 0's context. -/
def G1 (x0 x1 : SX.Idx → EReal) (wk0 wq1 wv0 : SW.Idx → EReal) : SO.Idx → EReal :=
  fun i => attn (proj x1 wq1) (ctx (proj x0 wk0) (proj x0 wv0)) (i 0) (i 1) (i 2)

/-! ## Real sums, maxima and exponentials inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum from −∞ of finitely many reals, over a nonempty set, is a real. -/
theorem fold_max_coe {ι : Type} (k : ι → ℝ) (S : Finset ι) (hS : S.Nonempty) :
    ∃ M : ℝ, (S.fold max ⊥ fun r => (k r : EReal)) = (M : EReal) := by
  refine ⟨S.sup' hS k, le_antisymm ?_ ?_⟩
  · rw [Finset.fold_max_le]
    exact ⟨bot_le, fun x hx => EReal.coe_le_coe_iff.mpr (Finset.le_sup' k hx)⟩
  · rw [Finset.le_fold_max]
    obtain ⟨x, hx, hxe⟩ := Finset.exists_mem_eq_sup' hS k
    exact Or.inr ⟨x, hx, by rw [hxe]⟩

/-- The maximum from −∞ over a union is the larger of the two maxima. -/
theorem fold_max_union {ι : Type} [DecidableEq ι] (f : ι → EReal) (S T : Finset ι) :
    (S ∪ T).fold max ⊥ f = max (S.fold max ⊥ f) (T.fold max ⊥ f) := by
  refine le_antisymm ?_ ?_
  · rw [Finset.fold_max_le]
    refine ⟨bot_le, fun x hx => ?_⟩
    rcases Finset.mem_union.mp hx with hx | hx
    · exact le_max_of_le_left ((Finset.le_fold_max _).mpr (Or.inr ⟨x, hx, le_rfl⟩))
    · exact le_max_of_le_right ((Finset.le_fold_max _).mpr (Or.inr ⟨x, hx, le_rfl⟩))
  · refine max_le ?_ ?_
    · rw [Finset.fold_max_le]
      exact ⟨bot_le, fun x hx => (Finset.le_fold_max _).mpr (Or.inr ⟨x, Finset.mem_union_left T hx, le_rfl⟩)⟩
    · rw [Finset.fold_max_le]
      exact ⟨bot_le, fun x hx => (Finset.le_fold_max _).mpr (Or.inr ⟨x, Finset.mem_union_right S hx, le_rfl⟩)⟩

/-- The exponential of a difference of two reals is the real exponential of the difference. -/
theorem exp_coe_sub (x y : ℝ) : Ideal.exp ((x : EReal) - (y : EReal)) = ((Real.exp (x - y) : ℝ) : EReal) := by
  rw [← EReal.coe_sub]; rfl

/-- A real factor distributes over a sum of reals, inside the extended reals. -/
theorem coe_mul_sum {ι : Type} (s : Finset ι) (c : ℝ) (f : ι → ℝ) :
    (c : EReal) * ∑ i ∈ s, (f i : EReal) = ∑ i ∈ s, ((c * f i : ℝ) : EReal) := by
  rw [← coe_sum, ← EReal.coe_mul, Finset.mul_sum, coe_sum]

/-- Dividing a weighted sum of reals by a positive real total once, or dividing every weight first,
    gives the same extended real: both are the coercion of `(Σ e·v) / L = Σ (e / L)·v`. -/
theorem div_sum_eq {ι : Type} (s : Finset ι) (e v : ι → ℝ) (hpos : 0 < ∑ r ∈ s, e r) :
    Ideal.div (∑ r ∈ s, (e r : EReal) * (v r : EReal)) (∑ r ∈ s, (e r : EReal))
      = ∑ r ∈ s, Ideal.div (e r : EReal) (∑ r' ∈ s, (e r' : EReal)) * (v r : EReal) := by
  have hne : (∑ r ∈ s, e r) ≠ 0 := ne_of_gt hpos
  rw [← coe_sum s e]
  simp only [Ideal.div_coe hne, ← EReal.coe_mul, ← coe_sum]
  congr 1
  rw [Finset.sum_mul]
  exact Finset.sum_congr rfl fun r _ => mul_right_comm _ _ _

/-- The coercion of the larger of two reals is the larger of the coercions. -/
theorem coe_max (x y : ℝ) : ((max x y : ℝ) : EReal) = max (x : EReal) (y : EReal) :=
  EReal.coe_strictMono.monotone.map_max

/-! ## The two spellings of the context matrix agree on real scores and values -/

theorem ctxK_eq_ctx (k v : Fin 4 → Fin 16384 → Fin 64 → EReal)
    (hk : ∀ b r h, ∃ y : ℝ, k b r h = (y : EReal)) (hv : ∀ b r d, ∃ y : ℝ, v b r d = (y : EReal)) :
    ctxK k v = ctx k v := by
  choose kr hkr using hk
  choose vr hvr using hv
  obtain rfl : k = fun b r h => (kr b r h : EReal) := by funext b r h; exact hkr b r h
  obtain rfl : v = fun b r d => (vr b r d : EReal) := by funext b r d; exact hvr b r d
  funext b h d
  have hne : (Finset.univ : Finset (Fin 16384)).Nonempty := Finset.univ_nonempty_iff.mpr ⟨⟨0, by omega⟩⟩
  obtain ⟨M, hM⟩ := fold_max_coe (fun r => kr b r h) Finset.univ hne
  have hke : ∀ r, kexp (fun b r h => (kr b r h : EReal)) b r h = ((Real.exp (kr b r h - M) : ℝ) : EReal) := by
    intro r
    have hf : (fmax fun r' => (kr b r' h : EReal)) = (M : EReal) := hM
    unfold kexp
    rw [hf]
    exact exp_coe_sub _ _
  have hpos : 0 < ∑ r : Fin 16384, Real.exp (kr b r h - M) :=
    Finset.sum_pos (fun r _ => Real.exp_pos _) hne
  simp only [ctxK, ctx, ksoft, hke]
  exact div_sum_eq Finset.univ (fun r => Real.exp (kr b r h - M)) (fun r => vr b r d) hpos

/-! ## The running update over tiles

`S` is the set of tokens already folded in, `T` the next tile. The carried triple is the maximum of the scores over
`S` (−∞ for none), the sum over `S` of `exp (score − maximum)`, and for each value column that sum weighted by the
values. One update with the tile `T` carries the triple for `S` to the triple for `S ∪ T`. -/

/-- The carried triple over the token set `S`. -/
structure Carried {ι δ : Type} (k : ι → ℝ) (v : ι → δ → ℝ) (S : Finset ι) (m l : EReal) (a : δ → EReal) : Prop where
  hm : m = S.fold max ⊥ fun r => (k r : EReal)
  hl : l = ∑ r ∈ S, Ideal.exp ((k r : EReal) - m)
  ha : ∀ d, a d = ∑ r ∈ S, Ideal.exp ((k r : EReal) - m) * (v r d : EReal)

theorem carried_empty {ι δ : Type} (k : ι → ℝ) (v : ι → δ → ℝ) : Carried k v ∅ ⊥ 0 (fun _ => 0) := by
  refine ⟨?_, ?_, fun d => ?_⟩
  · rw [Finset.fold_empty]
  · rw [Finset.sum_empty]
  · rw [Finset.sum_empty]

/-- One tile's update. With `m' = max m (max over T)`, `α = exp (m − m')`, `p r = exp (k r − m')`:
    `l' = α·l + Σ_T p`, `a' d = α·a d + Σ_T p r · v r d`. -/
theorem online_step {ι δ : Type} [DecidableEq ι] (k : ι → ℝ) (v : ι → δ → ℝ) (S T : Finset ι) (hST : Disjoint S T) (hT : T.Nonempty)
    (m l : EReal) (a : δ → EReal) (h : Carried k v S m l a) :
    Carried k v (S ∪ T) (max m (T.fold max ⊥ fun r => (k r : EReal)))
      (Ideal.exp (m - max m (T.fold max ⊥ fun r => (k r : EReal))) * l
        + ∑ r ∈ T, Ideal.exp ((k r : EReal) - max m (T.fold max ⊥ fun r => (k r : EReal))))
      (fun d => Ideal.exp (m - max m (T.fold max ⊥ fun r => (k r : EReal))) * a d
        + ∑ r ∈ T, Ideal.exp ((k r : EReal) - max m (T.fold max ⊥ fun r => (k r : EReal))) * (v r d : EReal)) := by
  obtain ⟨hm, hl, ha⟩ := h
  obtain ⟨MT, hMT⟩ := fold_max_coe k T hT
  rw [hMT]
  rcases S.eq_empty_or_nonempty with rfl | hS
  · -- nothing folded in yet: the old maximum is −∞, its rescaling factor is 0, the old sums are empty
    rw [Finset.fold_empty] at hm
    rw [Finset.sum_empty] at hl
    have ha' : ∀ d, a d = 0 := fun d => by rw [ha d, Finset.sum_empty]
    subst hm hl
    refine ⟨?_, ?_, fun d => ?_⟩
    · rw [Finset.empty_union, hMT, max_eq_right bot_le]
    · rw [Finset.empty_union, mul_zero, zero_add]
    · rw [Finset.empty_union, ha' d, mul_zero, zero_add]
  · -- the old maximum is a real `MS`, the new one the real `max MS MT`
    obtain ⟨MS, hMS⟩ := fold_max_coe k S hS
    rw [hMS] at hm
    subst hm
    rw [← coe_max]
    -- `exp (MS − M') · exp (k r − MS) = exp (k r − M')`
    have key : ∀ r, Real.exp (MS - max MS MT) * Real.exp (k r - MS) = Real.exp (k r - max MS MT) := fun r => by
      rw [← Real.exp_add]; congr 1; ring
    refine ⟨?_, ?_, fun d => ?_⟩
    · rw [fold_max_union, hMS, hMT, coe_max]
    · rw [Finset.sum_union hST, hl]
      congr 1
      simp only [exp_coe_sub]
      rw [coe_mul_sum]
      exact Finset.sum_congr rfl fun r _ => by rw [key]
    · rw [Finset.sum_union hST, ha d]
      congr 1
      simp only [exp_coe_sub, ← EReal.coe_mul]
      rw [coe_mul_sum]
      exact Finset.sum_congr rfl fun r _ => by rw [← mul_assoc, key]

end Cert.Spec

end
-- ==== Proof.SpecReal.lean ====
/-
  Real-valuedness, and the specification's array forms.

  A family of extended reals is real-valued when every entry is (the coercion of) a real number; projections of
  real-valued streams by real-valued weights are real-valued (a finite sum of products of reals).

  The kernel's intermediate arrays as functions of the arguments: the context array (4 × 64 × 64) in the kernel's
  spelling, and the second kernel's packed result (4 × 16384 × 128): lanes 0–63 hold stream 0's queries against
  context array `w1`, lanes 64–127 stream 1's queries against `w0`. `lo` / `hi` are the two host slices of it.
-/
import proofs.«177014_j489626271899_1_alg».proof.Proof.Spec

noncomputable section

namespace Cert.Spec

open Idealize.ShloMosaic Idealize.ShloMosaic.ValueIdx

/-- Every entry is a real number. -/
def IsReal {ι : Type} (f : ι → EReal) : Prop := ∀ i, ∃ y : ℝ, f i = (y : EReal)

theorem proj_real (x : SX.Idx → EReal) (w : SW.Idx → EReal) (hx : IsReal x) (hw : IsReal w) :
    ∀ b r h, ∃ y : ℝ, proj x w b r h = (y : EReal) := by
  intro b r h
  choose xr hxr using (show ∀ i, ∃ y : ℝ, x i = (y : EReal) from hx)
  choose wr hwr using (show ∀ i, ∃ y : ℝ, w i = (y : EReal) from hw)
  refine ⟨∑ c : Fin 256, xr (ix3 b r c) * wr (ix2 h c), ?_⟩
  unfold proj
  rw [coe_sum]
  exact Finset.sum_congr rfl fun c _ => by rw [hxr, hwr, EReal.coe_mul]

abbrev SC : Shape := ⟨3, ![4, 64, 64]⟩
abbrev SP : Shape := ⟨3, ![4, 16384, 128]⟩

/-- A context array read as a function of batch row, head, value column. -/
abbrev asCtx (w : SC.Idx → EReal) : Fin 4 → Fin 64 → Fin 64 → EReal := fun b h d => w (ix3 b h d)

/-- The context array in the kernel's spelling. -/
def ctxArrK (x : SX.Idx → EReal) (wk wv : SW.Idx → EReal) : SC.Idx → EReal :=
  fun i => ctxK (proj x wk) (proj x wv) (i 0) (i 1) (i 2)

/-- The second kernel's packed result from the two streams, the two query weights and the two context arrays. -/
def packed (x0 x1 : SX.Idx → EReal) (wq0 wq1 : SW.Idx → EReal) (w0 w1 : SC.Idx → EReal) : SP.Idx → EReal :=
  fun i => if h : (i 2).val < 64 then attn (proj x0 wq0) (asCtx w1) (i 0) (i 1) ⟨(i 2).val, h⟩
    else attn (proj x1 wq1) (asCtx w0) (i 0) (i 1) ⟨((i 2).val - 64) % 64, Nat.mod_lt _ (by decide)⟩

/-- Lanes 0–63 of a packed array. -/
def lo (p : SP.Idx → EReal) : SO.Idx → EReal :=
  fun i => p (ix3 (i 0) (i 1) ⟨(i 2).val, lt_of_lt_of_le (i 2).isLt (by decide)⟩)

/-- Lanes 64–127 of a packed array. -/
def hi (p : SP.Idx → EReal) : SO.Idx → EReal :=
  fun i => p (ix3 (i 0) (i 1) ⟨(i 2).val + 64, by have h : (i 2).val < 64 := (i 2).isLt; omega⟩)

theorem lo_packed (x0 x1 : SX.Idx → EReal) (wq0 wq1 : SW.Idx → EReal) (w0 w1 : SC.Idx → EReal) :
    lo (packed x0 x1 wq0 wq1 w0 w1) = fun i => attn (proj x0 wq0) (asCtx w1) (i 0) (i 1) (i 2) := by
  funext i
  have h : (i 2).val < 64 := (i 2).isLt
  unfold lo packed
  -- the lane read is `i 2` itself, below 64: the first branch
  exact dif_pos h

theorem hi_packed (x0 x1 : SX.Idx → EReal) (wq0 wq1 : SW.Idx → EReal) (w0 w1 : SC.Idx → EReal) :
    hi (packed x0 x1 wq0 wq1 w0 w1) = fun i => attn (proj x1 wq1) (asCtx w0) (i 0) (i 1) (i 2) := by
  funext i
  have h : (i 2).val < 64 := (i 2).isLt
  have hn : ¬ ((i 2).val + 64 < 64) := by omega
  unfold hi packed
  -- the lane read is `i 2 + 64`, not below 64: the second branch, whose lane `(i 2 + 64 − 64) mod 64` is `i 2`
  refine (dif_neg hn).trans ?_
  have e : (⟨((i 2).val + 64 - 64) % 64, Nat.mod_lt _ (by decide)⟩ : Fin 64) = i 2 :=
    Fin.ext (by simp only [Nat.add_sub_cancel]; exact Nat.mod_eq_of_lt h)
  exact congrArg (attn (proj x1 wq1) (asCtx w0) (i 0) (i 1)) e

/-- With real-valued arguments the kernel's context array read back is the reference's context matrix. -/
theorem asCtx_ctxArrK (x : SX.Idx → EReal) (wk wv : SW.Idx → EReal) (hx : IsReal x) (hk : IsReal wk) (hv : IsReal wv) :
    asCtx (ctxArrK x wk wv) = ctx (proj x wk) (proj x wv) := by
  funext b h d
  show ctxK (proj x wk) (proj x wv) b h d = ctx (proj x wk) (proj x wv) b h d
  rw [ctxK_eq_ctx _ _ (proj_real x wk hx hk) (proj_real x wv hx hv)]

end Cert.Spec

end
-- ==== Proof.KI.R0Value.lean ====
/-
  Region 0's two result arrays at the ideal instance. After point t = 8·b + n the six scratch buffers hold, per head,
  the running maximum of the scores of batch row b over the tokens of tiles 0..n, the sum over those tokens of
  exp(score − maximum), and that sum weighted by the values (the online-softmax recurrence, `Cert.Spec.online_step`,
  by induction on the point; the first tile of a row starts from −∞, 0, 0). At n = 7 the tokens are all 16384 of the
  row, and the block the point writes back is numerator / denominator: the context matrix in the kernel's spelling.
  The four write-backs (one per batch row) cover the array.
-/
import proofs.«177014_j489626271899_1_alg».proof.Proof.KI.R0Defs
import proofs.«177014_j489626271899_1_alg».proof.Proof.KI.StepValue
import proofs.«177014_j489626271899_1_alg».proof.Proof.SpecReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec Idealize.ShloMosaic.ValueIdx

section

variable (V : (c : Dev nD) → (b : Ref sig .tc) → Buf (Elt Ideal) ((c : Thread nD τ).loc b))

/-! ## Tokens: a point's tile, the tokens below a tile, the tokens of a tile -/

/-- The tile of a point: `n = t mod 8`. -/
def tn_R0V (t : Fin cfg0.N) : Fin 8 := ⟨t.val % 8, Nat.mod_lt _ (by decide)⟩

/-- Position `j` of tile `n` is token `2048·n + j` of the row. -/
def tileEmb_R0V (n : Fin 8) : Fin 2048 ↪ Fin 16384 :=
  ⟨fun j => ⟨2048 * n.val + j.val, by have := j.isLt; have := n.isLt; omega⟩,
   fun j j' e => Fin.ext (by have := congrArg Fin.val e; simp only at this; omega)⟩

/-- The tokens of tiles `0 … n−1`. -/
def pre_R0V (n : ℕ) : Finset (Fin 16384) := Finset.univ.filter fun r => r.val < 2048 * n
/-- The tokens of tile `n`. -/
def tile_R0V (n : Fin 8) : Finset (Fin 16384) := Finset.univ.map (tileEmb_R0V n)

theorem pre_zero_R0V : pre_R0V 0 = ∅ := by
  unfold pre_R0V
  exact Finset.filter_false_of_mem fun r _ => by omega

theorem pre_eight_R0V : pre_R0V 8 = Finset.univ := by
  unfold pre_R0V
  exact Finset.filter_true_of_mem fun r _ => by have := r.isLt; omega

theorem mem_tile_R0V (n : Fin 8) (r : Fin 16384) : r ∈ tile_R0V n ↔ 2048 * n.val ≤ r.val ∧ r.val < 2048 * n.val + 2048 := by
  unfold tile_R0V
  rw [Finset.mem_map]
  constructor
  · rintro ⟨j, -, rfl⟩
    have := j.isLt
    show 2048 * n.val ≤ 2048 * n.val + j.val ∧ 2048 * n.val + j.val < 2048 * n.val + 2048
    omega
  · rintro ⟨h1, h2⟩
    exact ⟨⟨r.val - 2048 * n.val, by omega⟩, Finset.mem_univ _, Fin.ext (by show 2048 * n.val + (r.val - 2048 * n.val) = r.val; omega)⟩

theorem pre_union_tile_R0V (n : Fin 8) : pre_R0V n.val ∪ tile_R0V n = pre_R0V (n.val + 1) := by
  ext r
  rw [Finset.mem_union, mem_tile_R0V]
  unfold pre_R0V
  simp only [Finset.mem_filter, Finset.mem_univ, true_and]
  omega

theorem pre_disj_tile_R0V (n : Fin 8) : Disjoint (pre_R0V n.val) (tile_R0V n) := by
  rw [Finset.disjoint_left]
  intro r hr
  rw [mem_tile_R0V]
  unfold pre_R0V at hr
  simp only [Finset.mem_filter, Finset.mem_univ, true_and] at hr
  omega

theorem tile_nonempty_R0V (n : Fin 8) : (tile_R0V n).Nonempty :=
  ⟨tileEmb_R0V n 0, Finset.mem_map.mpr ⟨0, Finset.mem_univ _, rfl⟩⟩

/-! ## Head 0: the blocks its windows read -/

theorem idx0_0_R0V : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem idx0_2_R0V : ∀ t : Fin cfg0.N, win0_2.index t 0 = 0 ∧ win0_2.index t 1 = 0 :=
  (by decide +kernel : ∀ t : Fin grid0.N, win0_2.index t 0 = 0 ∧ win0_2.index t 1 = 0)
theorem idx0_4_R0V : ∀ t : Fin cfg0.N, win0_4.index t 0 = 0 ∧ win0_4.index t 1 = 0 :=
  (by decide +kernel : ∀ t : Fin grid0.N, win0_4.index t 0 = 0 ∧ win0_4.index t 1 = 0)
theorem idx0_6_R0V : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

/-- The stream block at point `t = 8·b + n` is rows `2048·n …` of batch row `b`. -/
theorem xblk0_apply_R0V (c : Dev nD) (t : Fin cfg0.N) (b : Fin 4) (hb : b.val = t.val / 8) (j : Fin 2048) (cc : Fin 256) :
    (iblk0 V c 0 t : Vec Ideal S1x2048x256 .f32) (ix3 0 j cc) = V c main_arg0 (ix3 b (tileEmb_R0V (tn_R0V t) j) cc) := by
  obtain ⟨e0, e1, e2⟩ := idx0_0_R0V t
  unfold iblk0
  rw [View.read_apply]
  show V c main_arg0 _ = V c main_arg0 _
  congr 1
  funext a
  apply Fin.ext
  match a with
  | ⟨0, _⟩ => show win0_0.index t 0 * 1 + 1 * 0 = b.val; rw [e0, hb]; omega
  | ⟨1, _⟩ => show win0_0.index t 1 * 2048 + 1 * j.val = 2048 * (t.val % 8) + j.val; rw [e1]; omega
  | ⟨2, _⟩ => show win0_0.index t 2 * 256 + 1 * cc.val = cc.val; rw [e2]; omega

/-- The key weight's window reads the whole weight at every point. -/
theorem wblk2_apply_R0V (c : Dev nD) (t : Fin cfg0.N) (h : Fin 64) (cc : Fin 256) :
    (iblk0 V c 2 t : Vec Ideal S64x256 .f32) (ix2 h cc) = V c main_arg2 (ix2 h cc) := by
  obtain ⟨e0, e1⟩ := idx0_2_R0V t
  unfold iblk0
  rw [View.read_apply]
  show V c main_arg2 _ = V c main_arg2 _
  congr 1
  funext a
  apply Fin.ext
  match a with
  | ⟨0, _⟩ => show win0_2.index t 0 * 64 + 1 * h.val = h.val; rw [e0]; omega
  | ⟨1, _⟩ => show win0_2.index t 1 * 256 + 1 * cc.val = cc.val; rw [e1]; omega

/-- The value weight's window reads the whole weight at every point. -/
theorem wblk4_apply_R0V (c : Dev nD) (t : Fin cfg0.N) (h : Fin 64) (cc : Fin 256) :
    (iblk0 V c 4 t : Vec Ideal S64x256 .f32) (ix2 h cc) = V c main_arg6 (ix2 h cc) := by
  obtain ⟨e0, e1⟩ := idx0_4_R0V t
  unfold iblk0
  rw [View.read_apply]
  show V c main_arg6 _ = V c main_arg6 _
  congr 1
  funext a
  apply Fin.ext
  match a with
  | ⟨0, _⟩ => show win0_4.index t 0 * 64 + 1 * h.val = h.val; rw [e0]; omega
  | ⟨1, _⟩ => show win0_4.index t 1 * 256 + 1 * cc.val = cc.val; rw [e1]; omega

/-- A tile's scores are the row's key projections at the tile's tokens. -/
theorem tsc0k_R0V (c : Dev nD) (t : Fin cfg0.N) (b : Fin 4) (hb : b.val = t.val / 8) (h : Fin 64) (j : Fin 2048) :
    tsc (iblk0 V c 0 t) (iblk0 V c 2 t) h j = proj (V c main_arg0) (V c main_arg2) b (tileEmb_R0V (tn_R0V t) j) h := by
  unfold tsc proj
  exact Finset.sum_congr rfl fun cc _ => by rw [xblk0_apply_R0V V c t b hb, wblk2_apply_R0V]

/-- A tile's values are the row's value projections at the tile's tokens. -/
theorem tsc0v_R0V (c : Dev nD) (t : Fin cfg0.N) (b : Fin 4) (hb : b.val = t.val / 8) (d : Fin 64) (j : Fin 2048) :
    tsc (iblk0 V c 0 t) (iblk0 V c 4 t) d j = proj (V c main_arg0) (V c main_arg6) b (tileEmb_R0V (tn_R0V t) j) d := by
  unfold tsc proj
  exact Finset.sum_congr rfl fun cc _ => by rw [xblk0_apply_R0V V c t b hb, wblk4_apply_R0V]

/-! ## Head 0: one tile's update carries the triple; the invariant; the last tile's quotient -/

section Head0

variable (c : Dev nD) (kR vR : Fin 4 → Fin 16384 → Fin 64 → ℝ)
  (hk : ∀ b r h, proj (V c main_arg0) (V c main_arg2) b r h = ((kR b r h : ℝ) : EReal))
  (hv : ∀ b r d, proj (V c main_arg0) (V c main_arg6) b r d = ((vR b r d : ℝ) : EReal))

include hk hv in
/-- The update at point `t` is the online-softmax step with the tile's tokens: a triple carried over a token set
    disjoint from the tile becomes the triple over the union. -/
theorem step0_carried_R0V (t : Fin cfg0.N) (b : Fin 4) (hb : b.val = t.val / 8) (h : Fin 64) (s : Sc Ideal) (S : Finset (Fin 16384))
    (hS : Carried (fun r => kR b r h) (fun r d => vR b r d) S (s.m0 (ix2 h 0)) (s.l0 (ix2 h 0)) (fun d => s.a0 (ix2 h d)))
    (hd : Disjoint S (tile_R0V (tn_R0V t))) :
    Carried (fun r => kR b r h) (fun r d => vR b r d) (S ∪ tile_R0V (tn_R0V t))
      ((blkStep V c t s).m0 (ix2 h 0)) ((blkStep V c t s).l0 (ix2 h 0)) (fun d => (blkStep V c t s).a0 (ix2 h d)) := by
  have key := online_step (fun r => kR b r h) (fun r d => vR b r d) S (tile_R0V (tn_R0V t)) hd (tile_nonempty_R0V _) _ _ _ hS
  -- the tile's scores and values are the row's at the tile's tokens
  have ek : ∀ j, tsc (iblk0 V c 0 t) (iblk0 V c 2 t) h j = ((kR b (tileEmb_R0V (tn_R0V t) j) h : ℝ) : EReal) :=
    fun j => (tsc0k_R0V V c t b hb h j).trans (hk _ _ _)
  have ev : ∀ d j, tsc (iblk0 V c 0 t) (iblk0 V c 4 t) d j = ((vR b (tileEmb_R0V (tn_R0V t) j) d : ℝ) : EReal) :=
    fun d j => (tsc0v_R0V V c t b hb d j).trans (hv _ _ _)
  -- the new maximum: the old one against the maximum over the tile's tokens
  have eM : tmax (iblk0 V c 0 t) (iblk0 V c 2 t) s.m0 h
      = max (s.m0 (ix2 h 0)) ((tile_R0V (tn_R0V t)).fold max ⊥ fun r => ((kR b r h : ℝ) : EReal)) := by
    unfold tmax tile_R0V
    rw [Finset.fold_map]
    exact congrArg _ (Finset.fold_congr fun j _ => ek j)
  have em : (blkStep V c t s).m0 (ix2 h 0)
      = max (s.m0 (ix2 h 0)) ((tile_R0V (tn_R0V t)).fold max ⊥ fun r => ((kR b r h : ℝ) : EReal)) :=
    (step_m0 _ _ _ _ _ _ s h).trans eM
  -- the new denominator: sums over the tile's positions are sums over its tokens
  have el : (blkStep V c t s).l0 (ix2 h 0)
      = Ideal.exp (s.m0 (ix2 h 0) - max (s.m0 (ix2 h 0)) ((tile_R0V (tn_R0V t)).fold max ⊥ fun r => ((kR b r h : ℝ) : EReal))) * s.l0 (ix2 h 0)
        + ∑ r ∈ tile_R0V (tn_R0V t), Ideal.exp (((kR b r h : ℝ) : EReal) - max (s.m0 (ix2 h 0)) ((tile_R0V (tn_R0V t)).fold max ⊥ fun r => ((kR b r h : ℝ) : EReal))) := by
    refine (step_l0 _ _ _ _ _ _ s h).trans ?_
    rw [eM]
    congr 1
    unfold tile_R0V
    rw [Finset.sum_map]
    exact Finset.sum_congr rfl fun j _ => by rw [ek j]
  -- the new numerator, likewise
  have ea : (fun d => (blkStep V c t s).a0 (ix2 h d))
      = fun d => Ideal.exp (s.m0 (ix2 h 0) - max (s.m0 (ix2 h 0)) ((tile_R0V (tn_R0V t)).fold max ⊥ fun r => ((kR b r h : ℝ) : EReal))) * s.a0 (ix2 h d)
        + ∑ r ∈ tile_R0V (tn_R0V t), Ideal.exp (((kR b r h : ℝ) : EReal) - max (s.m0 (ix2 h 0)) ((tile_R0V (tn_R0V t)).fold max ⊥ fun r => ((kR b r h : ℝ) : EReal))) * ((vR b r d : ℝ) : EReal) := by
    funext d
    refine (step_a0 _ _ _ _ _ _ s h d).trans ?_
    rw [eM]
    congr 1
    unfold tile_R0V
    rw [Finset.sum_map]
    exact Finset.sum_congr rfl fun j _ => by rw [ek j, ev d j]
  rw [em, el, ea]
  exact key

include hk hv in
/-- From the tokens below the point's tile to the tokens through it. -/
theorem inv0_step_R0V (t : Fin cfg0.N) (b : Fin 4) (hb : b.val = t.val / 8) (h : Fin 64) (s : Sc Ideal)
    (hS : Carried (fun r => kR b r h) (fun r d => vR b r d) (pre_R0V (t.val % 8)) (s.m0 (ix2 h 0)) (s.l0 (ix2 h 0)) (fun d => s.a0 (ix2 h d))) :
    Carried (fun r => kR b r h) (fun r d => vR b r d) (pre_R0V (t.val % 8 + 1))
      ((blkStep V c t s).m0 (ix2 h 0)) ((blkStep V c t s).l0 (ix2 h 0)) (fun d => (blkStep V c t s).a0 (ix2 h d)) := by
  have key := step0_carried_R0V V c kR vR hk hv t b hb h s (pre_R0V (tn_R0V t).val) hS (pre_disj_tile_R0V _)
  rw [pre_union_tile_R0V] at key
  exact key

include hk hv in
/-- After point `n'` (batch row `b = n' / 8`, tile `n' mod 8`) the scratch buffers carry the triple over the tokens of
    tiles `0 … n' mod 8` of row `b`: by induction on the point; a row's first tile starts from −∞, 0, 0. -/
theorem inv0_R0V (n' : ℕ) : ∀ (hn' : n' < cfg0.N) (b : Fin 4) (hb : b.val = n' / 8) (h : Fin 64),
    Carried (fun r => kR b r h) (fun r d => vR b r d) (pre_R0V (n' % 8 + 1))
      ((scAt V c n' hn').m0 (ix2 h 0)) ((scAt V c n' hn').l0 (ix2 h 0)) (fun d => (scAt V c n' hn').a0 (ix2 h d)) := by
  induction n' using Nat.strong_induction_on with
  | _ n' ih =>
    intro hn' b hb h
    by_cases h0 : n' % 8 = 0
    · rw [show scAt V c n' hn' = blkStep V c ⟨n', hn'⟩ reset from scAt_first V c ⟨n', hn'⟩ h0]
      refine inv0_step_R0V V c kR vR hk hv ⟨n', hn'⟩ b hb h reset ?_
      show Carried _ _ (pre_R0V (n' % 8)) _ _ _
      rw [h0, pre_zero_R0V, reset_m0, reset_l0]
      simp only [reset_a0]
      exact carried_empty _ _
    · rw [show scAt V c n' hn' = blkStep V c ⟨n', hn'⟩ (scAt V c (n' - 1) (Nat.lt_of_le_of_lt (Nat.sub_le _ _) hn'))
        from scAt_next V c ⟨n', hn'⟩ h0]
      refine inv0_step_R0V V c kR vR hk hv ⟨n', hn'⟩ b hb h _ ?_
      have key := ih (n' - 1) (by omega) (Nat.lt_of_le_of_lt (Nat.sub_le _ _) hn') b (by omega) h
      rw [show (n' - 1) % 8 + 1 = n' % 8 from by omega] at key
      exact key

include hk hv in
/-- At the last tile of a row the tokens are all of the row's, and numerator / denominator is the context matrix. -/
theorem fin0_ctx_R0V (t : Fin cfg0.N) (h7 : t.val % 8 = 7) (b : Fin 4) (hb : b.val = t.val / 8) (h d : Fin 64) :
    fin0 (scAt V c t.val t.isLt) (ix3 0 h d)
      = ctxK (proj (V c main_arg0) (V c main_arg2)) (proj (V c main_arg0) (V c main_arg6)) b h d := by
  have e8 : pre_R0V (t.val % 8 + 1) = Finset.univ := by rw [h7]; exact pre_eight_R0V
  obtain ⟨hm, hl, ha⟩ := inv0_R0V V c kR vR hk hv t.val t.isLt b hb h
  rw [e8] at hm hl ha
  rw [fin0_apply, ha d, hl]
  unfold ctxK kexp fmax
  simp only [hk, hv]
  rw [← hm]

end Head0

/-! ## Head 0: the write-backs cover the array -/

/-- The part of a staged block that is written back is the block (the blocks tile the array: no edge is clipped). -/
theorem cut6_apply_R0V (t : Fin cfg0.N) (X : Vec Ideal S1x64x64 .f32) (h d : Fin 64) :
    (cfg0.win 6).cut (grid0.coords t) X (ix3 0 h d) = X (ix3 0 h d) := by
  show X _ = X _
  congr 1

/-- The output block at point `t` is batch row `t / 8` of the array. -/
theorem blk6_read_R0V (t : Fin cfg0.N) (G : SC.Idx → EReal) (h d : Fin 64) (hb4 : t.val / 8 < 4) :
    ((cfg0.win 6).blk t).view.read (Elt Ideal) G (ix3 0 h d) = G (ix3 ⟨t.val / 8, hb4⟩ h d) := by
  obtain ⟨e0, e1, e2⟩ := idx0_6_R0V t
  rw [View.read_apply]
  show G _ = G _
  congr 1
  funext a
  apply Fin.ext
  match a with
  | ⟨0, _⟩ => show win0_6.index t 0 * 1 + 1 * 0 = t.val / 8; rw [e0]; omega
  | ⟨1, _⟩ => show win0_6.index t 1 * 64 + 1 * h.val = h.val; rw [e1]; omega
  | ⟨2, _⟩ => show win0_6.index t 2 * 64 + 1 * d.val = d.val; rw [e2]; omega

section Head0c

variable (c : Dev nD) (kR vR : Fin 4 → Fin 16384 → Fin 64 → ℝ)
  (hk : ∀ b r h, proj (V c main_arg0) (V c main_arg2) b r h = ((kR b r h : ℝ) : EReal))
  (hv : ∀ b r d, proj (V c main_arg0) (V c main_arg6) b r d = ((vR b r d : ℝ) : EReal))

include hk hv in
/-- What a row's last tile writes back is its block (batch row `t / 8`) of the context array. -/
theorem flushed0_R0V (t : Fin cfg0.N) (hf : (cfg0.win 6).flush t = true) :
    (dat0 V c).flushed 6 t
      = ((cfg0.win 6).blk t).view.read (Elt Ideal) (ctxArrK (V c main_arg0) (V c main_arg2) (V c main_arg6)) := by
  have h7 : t.val % 8 = 7 := (flush0_6 t).mp hf
  have hN : cfg0.N = 32 := N_0
  have hb4 : t.val / 8 < 4 := by have := t.isLt; omega
  show (cfg0.win 6).cut (grid0.coords t) ((dat0 V c).after 6 t) = _
  rw [after0_6]
  funext j
  obtain ⟨p, h, d, rfl⟩ : ∃ (p : Fin 1) (h d : Fin 64), j = ix3 p h d := ⟨j 0, j 1, j 2, eq_ix3 j⟩
  obtain rfl : p = 0 := Subsingleton.elim _ _
  refine (cut6_apply_R0V t _ h d).trans ?_
  refine Eq.trans ?_ (blk6_read_R0V t _ h d hb4).symm
  exact fin0_ctx_R0V V c kR vR hk hv t h7 ⟨t.val / 8, hb4⟩ rfl h d

end Head0c

/-- Batch row `b` of the result array lies in the block the point `8·b + 7` writes back. -/
theorem cover0_6_R0V (i : SC.Idx) (t : Fin cfg0.N) (ht : t.val = 8 * (i 0).val + 7) : i ∈ ((cfg0.win 6).blk t).view.set := by
  obtain ⟨e0, e1, e2⟩ := idx0_6_R0V t
  have h0 : (i 0).val < 4 := (i 0).isLt
  have h1 : (i 1).val < 64 := (i 1).isLt
  have h2 : (i 2).val < 64 := (i 2).isLt
  show i ∈ ((View.whole main_v0_0).slice (win0_6.rect t)).set
  rw [View.set_slice_whole, Rect.mem_set_unit]
  intro a
  match a with
  | ⟨0, _⟩ => show win0_6.index t 0 * 1 ≤ (i 0).val ∧ (i 0).val < win0_6.index t 0 * 1 + 1; rw [e0, ht]; omega
  | ⟨1, _⟩ => show win0_6.index t 1 * 64 ≤ (i 1).val ∧ (i 1).val < win0_6.index t 1 * 64 + 64; rw [e1]; omega
  | ⟨2, _⟩ => show win0_6.index t 2 * 64 ≤ (i 2).val ∧ (i 2).val < win0_6.index t 2 * 64 + 64; rw [e2]; omega

/-- Head 0's result array: the context matrix of stream 0 (arguments 0, 2, 6: x0, Wk0, Wv0). -/
theorem ctx0_final (c : Dev nD) (hx : IsReal (V c main_arg0)) (hk : IsReal (V c main_arg2)) (hv : IsReal (V c main_arg6)) :
    (dat0 V c).arrAt 6 cfg0.N = ctxArrK (V c main_arg0) (V c main_arg2) (V c main_arg6) := by
  choose kR hkR using proj_real (V c main_arg0) (V c main_arg2) hx hk
  choose vR hvR using proj_real (V c main_arg0) (V c main_arg6) hx hv
  have hN : cfg0.N = 32 := N_0
  refine (dat0 V c).arrAt_eq_of_cover 6 (ctxArrK (V c main_arg0) (V c main_arg2) (V c main_arg6))
    (flushed0_R0V V c kR vR hkR hvR) fun i => ?_
  have h0 : (i 0).val < 4 := (i 0).isLt
  refine ⟨⟨8 * (i 0).val + 7, by omega⟩, (flush0_6 _).mpr (by show (8 * (i 0).val + 7) % 8 = 7; omega), ?_⟩
  exact cover0_6_R0V i _ rfl

/-! ## Head 1: the blocks its windows read -/

theorem idx0_1_R0V : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
theorem idx0_3_R0V : ∀ t : Fin cfg0.N, win0_3.index t 0 = 0 ∧ win0_3.index t 1 = 0 :=
  (by decide +kernel : ∀ t : Fin grid0.N, win0_3.index t 0 = 0 ∧ win0_3.index t 1 = 0)
theorem idx0_5_R0V : ∀ t : Fin cfg0.N, win0_5.index t 0 = 0 ∧ win0_5.index t 1 = 0 :=
  (by decide +kernel : ∀ t : Fin grid0.N, win0_5.index t 0 = 0 ∧ win0_5.index t 1 = 0)
theorem idx0_7_R0V : ∀ t : Fin cfg0.N, win0_7.index t 0 = t.val / 8 ∧ win0_7.index t 1 = 0 ∧ win0_7.index t 2 = 0 :=
  (by decide +kernel : ∀ t : Fin grid0.N, win0_7.index t 0 = t.val / 8 ∧ win0_7.index t 1 = 0 ∧ win0_7.index t 2 = 0)

/-- The stream block at point `t = 8·b + n` is rows `2048·n …` of batch row `b`. -/
theorem xblk1_apply_R0V (c : Dev nD) (t : Fin cfg0.N) (b : Fin 4) (hb : b.val = t.val / 8) (j : Fin 2048) (cc : Fin 256) :
    (iblk0 V c 1 t : Vec Ideal S1x2048x256 .f32) (ix3 0 j cc) = V c main_arg1 (ix3 b (tileEmb_R0V (tn_R0V t) j) cc) := by
  obtain ⟨e0, e1, e2⟩ := idx0_1_R0V t
  unfold iblk0
  rw [View.read_apply]
  show V c main_arg1 _ = V c main_arg1 _
  congr 1
  funext a
  apply Fin.ext
  match a with
  | ⟨0, _⟩ => show win0_1.index t 0 * 1 + 1 * 0 = b.val; rw [e0, hb]; omega
  | ⟨1, _⟩ => show win0_1.index t 1 * 2048 + 1 * j.val = 2048 * (t.val % 8) + j.val; rw [e1]; omega
  | ⟨2, _⟩ => show win0_1.index t 2 * 256 + 1 * cc.val = cc.val; rw [e2]; omega

/-- The key weight's window reads the whole weight at every point. -/
theorem wblk3_apply_R0V (c : Dev nD) (t : Fin cfg0.N) (h : Fin 64) (cc : Fin 256) :
    (iblk0 V c 3 t : Vec Ideal S64x256 .f32) (ix2 h cc) = V c main_arg3 (ix2 h cc) := by
  obtain ⟨e0, e1⟩ := idx0_3_R0V t
  unfold iblk0
  rw [View.read_apply]
  show V c main_arg3 _ = V c main_arg3 _
  congr 1
  funext a
  apply Fin.ext
  match a with
  | ⟨0, _⟩ => show win0_3.index t 0 * 64 + 1 * h.val = h.val; rw [e0]; omega
  | ⟨1, _⟩ => show win0_3.index t 1 * 256 + 1 * cc.val = cc.val; rw [e1]; omega

/-- The value weight's window reads the whole weight at every point. -/
theorem wblk5_apply_R0V (c : Dev nD) (t : Fin cfg0.N) (h : Fin 64) (cc : Fin 256) :
    (iblk0 V c 5 t : Vec Ideal S64x256 .f32) (ix2 h cc) = V c main_arg7 (ix2 h cc) := by
  obtain ⟨e0, e1⟩ := idx0_5_R0V t
  unfold iblk0
  rw [View.read_apply]
  show V c main_arg7 _ = V c main_arg7 _
  congr 1
  funext a
  apply Fin.ext
  match a with
  | ⟨0, _⟩ => show win0_5.index t 0 * 64 + 1 * h.val = h.val; rw [e0]; omega
  | ⟨1, _⟩ => show win0_5.index t 1 * 256 + 1 * cc.val = cc.val; rw [e1]; omega

/-- A tile's scores are the row's key projections at the tile's tokens. -/
theorem tsc1k_R0V (c : Dev nD) (t : Fin cfg0.N) (b : Fin 4) (hb : b.val = t.val / 8) (h : Fin 64) (j : Fin 2048) :
    tsc (iblk0 V c 1 t) (iblk0 V c 3 t) h j = proj (V c main_arg1) (V c main_arg3) b (tileEmb_R0V (tn_R0V t) j) h := by
  unfold tsc proj
  exact Finset.sum_congr rfl fun cc _ => by rw [xblk1_apply_R0V V c t b hb, wblk3_apply_R0V]

/-- A tile's values are the row's value projections at the tile's tokens. -/
theorem tsc1v_R0V (c : Dev nD) (t : Fin cfg0.N) (b : Fin 4) (hb : b.val = t.val / 8) (d : Fin 64) (j : Fin 2048) :
    tsc (iblk0 V c 1 t) (iblk0 V c 5 t) d j = proj (V c main_arg1) (V c main_arg7) b (tileEmb_R0V (tn_R0V t) j) d := by
  unfold tsc proj
  exact Finset.sum_congr rfl fun cc _ => by rw [xblk1_apply_R0V V c t b hb, wblk5_apply_R0V]

/-! ## Head 1: one tile's update carries the triple; the invariant; the last tile's quotient -/

section Head1

variable (c : Dev nD) (kR vR : Fin 4 → Fin 16384 → Fin 64 → ℝ)
  (hk : ∀ b r h, proj (V c main_arg1) (V c main_arg3) b r h = ((kR b r h : ℝ) : EReal))
  (hv : ∀ b r d, proj (V c main_arg1) (V c main_arg7) b r d = ((vR b r d : ℝ) : EReal))

include hk hv in
/-- The update at point `t` is the online-softmax step with the tile's tokens: a triple carried over a token set
    disjoint from the tile becomes the triple over the union. -/
theorem step1_carried_R0V (t : Fin cfg0.N) (b : Fin 4) (hb : b.val = t.val / 8) (h : Fin 64) (s : Sc Ideal) (S : Finset (Fin 16384))
    (hS : Carried (fun r => kR b r h) (fun r d => vR b r d) S (s.m1 (ix2 h 0)) (s.l1 (ix2 h 0)) (fun d => s.a1 (ix2 h d)))
    (hd : Disjoint S (tile_R0V (tn_R0V t))) :
    Carried (fun r => kR b r h) (fun r d => vR b r d) (S ∪ tile_R0V (tn_R0V t))
      ((blkStep V c t s).m1 (ix2 h 0)) ((blkStep V c t s).l1 (ix2 h 0)) (fun d => (blkStep V c t s).a1 (ix2 h d)) := by
  have key := online_step (fun r => kR b r h) (fun r d => vR b r d) S (tile_R0V (tn_R0V t)) hd (tile_nonempty_R0V _) _ _ _ hS
  -- the tile's scores and values are the row's at the tile's tokens
  have ek : ∀ j, tsc (iblk0 V c 1 t) (iblk0 V c 3 t) h j = ((kR b (tileEmb_R0V (tn_R0V t) j) h : ℝ) : EReal) :=
    fun j => (tsc1k_R0V V c t b hb h j).trans (hk _ _ _)
  have ev : ∀ d j, tsc (iblk0 V c 1 t) (iblk0 V c 5 t) d j = ((vR b (tileEmb_R0V (tn_R0V t) j) d : ℝ) : EReal) :=
    fun d j => (tsc1v_R0V V c t b hb d j).trans (hv _ _ _)
  -- the new maximum: the old one against the maximum over the tile's tokens
  have eM : tmax (iblk0 V c 1 t) (iblk0 V c 3 t) s.m1 h
      = max (s.m1 (ix2 h 0)) ((tile_R0V (tn_R0V t)).fold max ⊥ fun r => ((kR b r h : ℝ) : EReal)) := by
    unfold tmax tile_R0V
    rw [Finset.fold_map]
    exact congrArg _ (Finset.fold_congr fun j _ => ek j)
  have em : (blkStep V c t s).m1 (ix2 h 0)
      = max (s.m1 (ix2 h 0)) ((tile_R0V (tn_R0V t)).fold max ⊥ fun r => ((kR b r h : ℝ) : EReal)) :=
    (step_m1 _ _ _ _ _ _ s h).trans eM
  -- the new denominator: sums over the tile's positions are sums over its tokens
  have el : (blkStep V c t s).l1 (ix2 h 0)
      = Ideal.exp (s.m1 (ix2 h 0) - max (s.m1 (ix2 h 0)) ((tile_R0V (tn_R0V t)).fold max ⊥ fun r => ((kR b r h : ℝ) : EReal))) * s.l1 (ix2 h 0)
        + ∑ r ∈ tile_R0V (tn_R0V t), Ideal.exp (((kR b r h : ℝ) : EReal) - max (s.m1 (ix2 h 0)) ((tile_R0V (tn_R0V t)).fold max ⊥ fun r => ((kR b r h : ℝ) : EReal))) := by
    refine (step_l1 _ _ _ _ _ _ s h).trans ?_
    rw [eM]
    congr 1
    unfold tile_R0V
    rw [Finset.sum_map]
    exact Finset.sum_congr rfl fun j _ => by rw [ek j]
  -- the new numerator, likewise
  have ea : (fun d => (blkStep V c t s).a1 (ix2 h d))
      = fun d => Ideal.exp (s.m1 (ix2 h 0) - max (s.m1 (ix2 h 0)) ((tile_R0V (tn_R0V t)).fold max ⊥ fun r => ((kR b r h : ℝ) : EReal))) * s.a1 (ix2 h d)
        + ∑ r ∈ tile_R0V (tn_R0V t), Ideal.exp (((kR b r h : ℝ) : EReal) - max (s.m1 (ix2 h 0)) ((tile_R0V (tn_R0V t)).fold max ⊥ fun r => ((kR b r h : ℝ) : EReal))) * ((vR b r d : ℝ) : EReal) := by
    funext d
    refine (step_a1 _ _ _ _ _ _ s h d).trans ?_
    rw [eM]
    congr 1
    unfold tile_R0V
    rw [Finset.sum_map]
    exact Finset.sum_congr rfl fun j _ => by rw [ek j, ev d j]
  rw [em, el, ea]
  exact key

include hk hv in
/-- From the tokens below the point's tile to the tokens through it. -/
theorem inv1_step_R0V (t : Fin cfg0.N) (b : Fin 4) (hb : b.val = t.val / 8) (h : Fin 64) (s : Sc Ideal)
    (hS : Carried (fun r => kR b r h) (fun r d => vR b r d) (pre_R0V (t.val % 8)) (s.m1 (ix2 h 0)) (s.l1 (ix2 h 0)) (fun d => s.a1 (ix2 h d))) :
    Carried (fun r => kR b r h) (fun r d => vR b r d) (pre_R0V (t.val % 8 + 1))
      ((blkStep V c t s).m1 (ix2 h 0)) ((blkStep V c t s).l1 (ix2 h 0)) (fun d => (blkStep V c t s).a1 (ix2 h d)) := by
  have key := step1_carried_R0V V c kR vR hk hv t b hb h s (pre_R0V (tn_R0V t).val) hS (pre_disj_tile_R0V _)
  rw [pre_union_tile_R0V] at key
  exact key

include hk hv in
/-- After point `n'` (batch row `b = n' / 8`, tile `n' mod 8`) the scratch buffers carry the triple over the tokens of
    tiles `0 … n' mod 8` of row `b`: by induction on the point; a row's first tile starts from −∞, 0, 0. -/
theorem inv1_R0V (n' : ℕ) : ∀ (hn' : n' < cfg0.N) (b : Fin 4) (hb : b.val = n' / 8) (h : Fin 64),
    Carried (fun r => kR b r h) (fun r d => vR b r d) (pre_R0V (n' % 8 + 1))
      ((scAt V c n' hn').m1 (ix2 h 0)) ((scAt V c n' hn').l1 (ix2 h 0)) (fun d => (scAt V c n' hn').a1 (ix2 h d)) := by
  induction n' using Nat.strong_induction_on with
  | _ n' ih =>
    intro hn' b hb h
    by_cases h0 : n' % 8 = 0
    · rw [show scAt V c n' hn' = blkStep V c ⟨n', hn'⟩ reset from scAt_first V c ⟨n', hn'⟩ h0]
      refine inv1_step_R0V V c kR vR hk hv ⟨n', hn'⟩ b hb h reset ?_
      show Carried _ _ (pre_R0V (n' % 8)) _ _ _
      rw [h0, pre_zero_R0V, reset_m1, reset_l1]
      simp only [reset_a1]
      exact carried_empty _ _
    · rw [show scAt V c n' hn' = blkStep V c ⟨n', hn'⟩ (scAt V c (n' - 1) (Nat.lt_of_le_of_lt (Nat.sub_le _ _) hn'))
        from scAt_next V c ⟨n', hn'⟩ h0]
      refine inv1_step_R0V V c kR vR hk hv ⟨n', hn'⟩ b hb h _ ?_
      have key := ih (n' - 1) (by omega) (Nat.lt_of_le_of_lt (Nat.sub_le _ _) hn') b (by omega) h
      rw [show (n' - 1) % 8 + 1 = n' % 8 from by omega] at key
      exact key

include hk hv in
/-- At the last tile of a row the tokens are all of the row's, and numerator / denominator is the context matrix. -/
theorem fin1_ctx_R0V (t : Fin cfg0.N) (h7 : t.val % 8 = 7) (b : Fin 4) (hb : b.val = t.val / 8) (h d : Fin 64) :
    fin1 (scAt V c t.val t.isLt) (ix3 0 h d)
      = ctxK (proj (V c main_arg1) (V c main_arg3)) (proj (V c main_arg1) (V c main_arg7)) b h d := by
  have e8 : pre_R0V (t.val % 8 + 1) = Finset.univ := by rw [h7]; exact pre_eight_R0V
  obtain ⟨hm, hl, ha⟩ := inv1_R0V V c kR vR hk hv t.val t.isLt b hb h
  rw [e8] at hm hl ha
  rw [fin1_apply, ha d, hl]
  unfold ctxK kexp fmax
  simp only [hk, hv]
  rw [← hm]

end Head1

/-! ## Head 1: the write-backs cover the array -/

/-- The part of a staged block that is written back is the block (the blocks tile the array: no edge is clipped). -/
theorem cut7_apply_R0V (t : Fin cfg0.N) (X : Vec Ideal S1x64x64 .f32) (h d : Fin 64) :
    (cfg0.win 7).cut (grid0.coords t) X (ix3 0 h d) = X (ix3 0 h d) := by
  show X _ = X _
  congr 1

/-- The output block at point `t` is batch row `t / 8` of the array. -/
theorem blk7_read_R0V (t : Fin cfg0.N) (G : SC.Idx → EReal) (h d : Fin 64) (hb4 : t.val / 8 < 4) :
    ((cfg0.win 7).blk t).view.read (Elt Ideal) G (ix3 0 h d) = G (ix3 ⟨t.val / 8, hb4⟩ h d) := by
  obtain ⟨e0, e1, e2⟩ := idx0_7_R0V t
  rw [View.read_apply]
  show G _ = G _
  congr 1
  funext a
  apply Fin.ext
  match a with
  | ⟨0, _⟩ => show win0_7.index t 0 * 1 + 1 * 0 = t.val / 8; rw [e0]; omega
  | ⟨1, _⟩ => show win0_7.index t 1 * 64 + 1 * h.val = h.val; rw [e1]; omega
  | ⟨2, _⟩ => show win0_7.index t 2 * 64 + 1 * d.val = d.val; rw [e2]; omega

section Head1c

variable (c : Dev nD) (kR vR : Fin 4 → Fin 16384 → Fin 64 → ℝ)
  (hk : ∀ b r h, proj (V c main_arg1) (V c main_arg3) b r h = ((kR b r h : ℝ) : EReal))
  (hv : ∀ b r d, proj (V c main_arg1) (V c main_arg7) b r d = ((vR b r d : ℝ) : EReal))

include hk hv in
/-- What a row's last tile writes back is its block (batch row `t / 8`) of the context array. -/
theorem flushed1_R0V (t : Fin cfg0.N) (hf : (cfg0.win 7).flush t = true) :
    (dat0 V c).flushed 7 t
      = ((cfg0.win 7).blk t).view.read (Elt Ideal) (ctxArrK (V c main_arg1) (V c main_arg3) (V c main_arg7)) := by
  have h7 : t.val % 8 = 7 := (flush0_7 t).mp hf
  have hN : cfg0.N = 32 := N_0
  have hb4 : t.val / 8 < 4 := by have := t.isLt; omega
  show (cfg0.win 7).cut (grid0.coords t) ((dat0 V c).after 7 t) = _
  rw [after0_7]
  funext j
  obtain ⟨p, h, d, rfl⟩ : ∃ (p : Fin 1) (h d : Fin 64), j = ix3 p h d := ⟨j 0, j 1, j 2, eq_ix3 j⟩
  obtain rfl : p = 0 := Subsingleton.elim _ _
  refine (cut7_apply_R0V t _ h d).trans ?_
  refine Eq.trans ?_ (blk7_read_R0V t _ h d hb4).symm
  exact fin1_ctx_R0V V c kR vR hk hv t h7 ⟨t.val / 8, hb4⟩ rfl h d

end Head1c

/-- Batch row `b` of the result array lies in the block the point `8·b + 7` writes back. -/
theorem cover0_7_R0V (i : SC.Idx) (t : Fin cfg0.N) (ht : t.val = 8 * (i 0).val + 7) : i ∈ ((cfg0.win 7).blk t).view.set := by
  obtain ⟨e0, e1, e2⟩ := idx0_7_R0V t
  have h0 : (i 0).val < 4 := (i 0).isLt
  have h1 : (i 1).val < 64 := (i 1).isLt
  have h2 : (i 2).val < 64 := (i 2).isLt
  show i ∈ ((View.whole main_v0_1).slice (win0_7.rect t)).set
  rw [View.set_slice_whole, Rect.mem_set_unit]
  intro a
  match a with
  | ⟨0, _⟩ => show win0_7.index t 0 * 1 ≤ (i 0).val ∧ (i 0).val < win0_7.index t 0 * 1 + 1; rw [e0, ht]; omega
  | ⟨1, _⟩ => show win0_7.index t 1 * 64 ≤ (i 1).val ∧ (i 1).val < win0_7.index t 1 * 64 + 64; rw [e1]; omega
  | ⟨2, _⟩ => show win0_7.index t 2 * 64 ≤ (i 2).val ∧ (i 2).val < win0_7.index t 2 * 64 + 64; rw [e2]; omega

/-- Head 1's result array: the context matrix of stream 1 (arguments 1, 3, 7: x1, Wk1, Wv1). -/
theorem ctx1_final (c : Dev nD) (hx : IsReal (V c main_arg1)) (hk : IsReal (V c main_arg3)) (hv : IsReal (V c main_arg7)) :
    (dat0 V c).arrAt 7 cfg0.N = ctxArrK (V c main_arg1) (V c main_arg3) (V c main_arg7) := by
  choose kR hkR using proj_real (V c main_arg1) (V c main_arg3) hx hk
  choose vR hvR using proj_real (V c main_arg1) (V c main_arg7) hx hv
  have hN : cfg0.N = 32 := N_0
  refine (dat0 V c).arrAt_eq_of_cover 7 (ctxArrK (V c main_arg1) (V c main_arg3) (V c main_arg7))
    (flushed1_R0V V c kR vR hkR hvR) fun i => ?_
  have h0 : (i 0).val < 4 := (i 0).isLt
  refine ⟨⟨8 * (i 0).val + 7, by omega⟩, (flush0_7 _).mpr (by show (8 * (i 0).val + 7) % 8 = 7; omega), ?_⟩
  exact cover0_7_R0V i _ rfl

end

end Cert.KernelIdeal.Hand

end
-- ==== Proof.KI.R1Value.lean ====
/-
  Region 1's result array at the ideal instance: each point (b, n) writes back the block of 2048 tokens whose lanes
  0–63 are stream 0's soft-maxed queries (softmax over the 64 heads of x0·Wq0ᵀ) applied to the context array w1 of
  batch row b, and whose lanes 64–127 are stream 1's applied to w0; the 32 blocks tile the array.
-/
import proofs.«177014_j489626271899_1_alg».proof.Proof.KI.R1
import proofs.«177014_j489626271899_1_alg».proof.Proof.SpecReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec Idealize.ShloMosaic.ValueIdx

/-! # The output block's payload read at an index -/

/-! ## The queries' product: token `j` of the tile against row `h` of the weight -/

theorem lhs_q_0_R1V (i : S2048x64.Idx) (q : dot_S2048x256_S64x256_S2048x64_1_1_0_0_n_n.contr.Idx) :
    (dot_S2048x256_S64x256_S2048x64_1_1_0_0_n_n.lhsIdx i q 0).val = (i 0).val := by
  unfold DotDims.lhsIdx
  rw [dif_neg (show ¬(0 : Fin S2048x256.rank) ∈ dot_S2048x256_S64x256_S2048x64_1_1_0_0_n_n.lhsBatch by decide), dif_pos (show (0 : Fin S2048x256.rank) ∈ dot_S2048x256_S64x256_S2048x64_1_1_0_0_n_n.lhsNonContracting by decide)]
  rfl
theorem lhs_q_1_R1V (i : S2048x64.Idx) (q : dot_S2048x256_S64x256_S2048x64_1_1_0_0_n_n.contr.Idx) :
    (dot_S2048x256_S64x256_S2048x64_1_1_0_0_n_n.lhsIdx i q 1).val = (q ⟨0, by decide⟩).val :=
  dot_S2048x256_S64x256_S2048x64_1_1_0_0_n_n.lhsIdx_val_of_single rfl i q
theorem rhs_q_0_R1V (i : S2048x64.Idx) (q : dot_S2048x256_S64x256_S2048x64_1_1_0_0_n_n.contr.Idx) :
    (dot_S2048x256_S64x256_S2048x64_1_1_0_0_n_n.rhsIdx i q 0).val = (i 1).val := by
  unfold DotDims.rhsIdx
  rw [dif_neg (show ¬(0 : Fin S64x256.rank) ∈ dot_S2048x256_S64x256_S2048x64_1_1_0_0_n_n.rhsBatch by decide), dif_pos (show (0 : Fin S64x256.rank) ∈ dot_S2048x256_S64x256_S2048x64_1_1_0_0_n_n.rhsNonContracting by decide)]
  rfl
theorem rhs_q_1_R1V (i : S2048x64.Idx) (q : dot_S2048x256_S64x256_S2048x64_1_1_0_0_n_n.contr.Idx) :
    (dot_S2048x256_S64x256_S2048x64_1_1_0_0_n_n.rhsIdx i q 1).val = (q ⟨0, by decide⟩).val :=
  dot_S2048x256_S64x256_S2048x64_1_1_0_0_n_n.rhsIdx_val_of_single rfl i q

/-- The product of a 2048 × 256 tile with the transpose of a 64 × 256 weight, into zero: at (j, h) the sum over the
    256 features. -/
theorem qmat_apply_R1V {φ₁ φ₂ : FTy} (x : FVec Ideal S2048x256 φ₁) (w : FVec Ideal S64x256 φ₂) (j : Fin 2048) (h : Fin 64) :
    matmul dot_S2048x256_S64x256_S2048x64_1_1_0_0_n_n none x w (constant S2048x64 .f32 0x00000000#32) (ix2 j h)
      = ∑ cc : Fin 256, x (ix2 j cc) * w (ix2 h cc) := by
  simp only [matmul]
  rw [Ideal.matmul_constant_zero_apply, ← Equiv.sum_comp (ValueIdx.contrEquiv1 dot_S2048x256_S64x256_S2048x64_1_1_0_0_n_n 256 rfl rfl).symm]
  refine Finset.sum_congr rfl fun k _ => ?_
  have hk := ValueIdx.contrEquiv1_symm_val dot_S2048x256_S64x256_S2048x64_1_1_0_0_n_n 256 rfl rfl k
  have el : dot_S2048x256_S64x256_S2048x64_1_1_0_0_n_n.lhsIdx (ix2 j h) ((ValueIdx.contrEquiv1 dot_S2048x256_S64x256_S2048x64_1_1_0_0_n_n 256 rfl rfl).symm k) = ix2 j k := funext fun a => Fin.ext (by
    match a with
    | ⟨0, _⟩ => exact lhs_q_0_R1V _ _
    | ⟨1, _⟩ => exact (lhs_q_1_R1V _ _).trans hk)
  have er : dot_S2048x256_S64x256_S2048x64_1_1_0_0_n_n.rhsIdx (ix2 j h) ((ValueIdx.contrEquiv1 dot_S2048x256_S64x256_S2048x64_1_1_0_0_n_n 256 rfl rfl).symm k) = ix2 h k := funext fun a => Fin.ext (by
    match a with
    | ⟨0, _⟩ => exact rhs_q_0_R1V _ _
    | ⟨1, _⟩ => exact (rhs_q_1_R1V _ _).trans hk)
  rw [el, er]

/-! ## A row's maximum and sum over the 64 heads, and a column of 2048 entries spread over the 64 lanes -/

/-- The pattern of −∞ denotes the bottom of the extended reals. -/
theorem ofBits_neg_inf_R1V : Ideal.ofBits .f32 0xFF800000#32 = (⊥ : EReal) := by
  simp [Ideal.ofBits, Ideal.ieee]

/-- A row's maximum from −∞ is the fold of `max` over the row. -/
theorem rowmax_apply_R1V (M : FVec Ideal S2048x64 .f32) (hr : S2048x64.Reduces [1] S2048) (hφ : FKind.Formats .f32)
    (hacc : (0xFF800000#32 : BitVec (FTy.bits .f32)) = FKind.maximumf.neutral .f32 hφ) (j : Fin 2048) :
    multiReduction .maximumf [1] S2048 M 0xFF800000#32 hr hφ hacc (ix1 j) = fmax fun h' : Fin 64 => M (ix2 j h') := by
  refine (Ideal.multiReduction_maximumf_single M _ hr hφ hacc (ix1 j)).trans ?_
  unfold fmax
  show Finset.fold max (Ideal.ofBits .f32 0xFF800000#32) _ _ = _
  rw [ofBits_neg_inf_R1V]
  refine congrArg (Finset.fold _ _ · _) (funext fun k => ?_)
  exact congrArg M (funext fun a => Fin.ext (by match a with | ⟨0, _⟩ => rfl | ⟨1, _⟩ => rfl))

/-- A row's sum from 0 is the sum over the row. -/
theorem rowsum_apply_R1V (M : FVec Ideal S2048x64 .f32) (hr : S2048x64.Reduces [1] S2048) (hφ : FKind.Formats .f32)
    (hacc : (0x00000000#32 : BitVec (FTy.bits .f32)) = FKind.add.neutral .f32 hφ) (j : Fin 2048) :
    multiReduction .add [1] S2048 M 0x00000000#32 hr hφ hacc (ix1 j) = ∑ h' : Fin 64, M (ix2 j h') := by
  refine (Ideal.multiReduction_add_single M _ hr hφ hacc (ix1 j)).trans ?_
  refine Finset.sum_congr rfl fun k _ => ?_
  exact congrArg M (funext fun a => Fin.ext (by match a with | ⟨0, _⟩ => rfl | ⟨1, _⟩ => rfl))

/-- A vector of 2048 entries recast as a column and spread over 64 lanes reads, at (j, h), its entry j. -/
theorem col_apply_R1V {α : Type} (v : S2048.Idx → α) (h1 : S2048.ShapeCasts S2048x1) (h2 : S2048x1.Broadcasts S2048x64)
    (j : Fin 2048) (h : Fin 64) :
    broadcastTo S2048x64 (shapeCast S2048x1 v h1) h2 (ix2 j h) = v (ix1 j) := by
  refine (broadcastTo_apply _ h2 (ix2 j h) (ix2 j (0 : Fin 1)) fun ax => ?_).trans ?_
  · match ax with
    | ⟨0, _⟩ => rfl
    | ⟨1, _⟩ => rfl
  · refine shapeCast_apply v h1 _ _ ?_
    rw [Shape.rowMajor_val_two, Shape.rowMajor_val_one]
    show j.val = j.val * 1 + 0
    omega

/-! ## The soft-maxed queries of a tile -/

/-- A tile's query score: token `j` of the tile against row `h` of the query weight. -/
def tq_R1V (x : Vec Ideal S1x2048x256 .f32) (w : Vec Ideal S64x256 .f32) (j : Fin 2048) (h : Fin 64) : EReal :=
  ∑ cc : Fin 256, x (ix3 0 j cc) * w (ix2 h cc)

/-- The soft-max of a row of 64 scores, at head `h`: the maximum from −∞, the sum from 0. -/
def rsm_R1V (q : Fin 64 → EReal) (h : Fin 64) : EReal :=
  Ideal.div (Ideal.exp (q h - fmax q)) (∑ h' : Fin 64, Ideal.exp (q h' - fmax q))

/-- The soft-maxed queries at (j, h): the row soft-max of token `j`'s 64 scores. -/
theorem pay2_apply_R1V (x : Vec Ideal S1x2048x256 .f32) (w : Vec Ideal S64x256 .f32) (j : Fin 2048) (h : Fin 64) :
    k1_pay2 x w (ix2 j h) = rsm_R1V (tq_R1V x w j) h := by
  unfold k1_pay2
  dsimp only
  generalize hM : matmul (F := Ideal) dot_S2048x256_S64x256_S2048x64_1_1_0_0_n_n none _ _ _ = M
  have hMq : ∀ j' h', M (ix2 j' h') = tq_R1V x w j' h' := fun j' h' => by
    rw [← hM]
    refine (qmat_apply_R1V _ _ j' h').trans ?_
    unfold tq_R1V
    refine Finset.sum_congr rfl fun cc _ => ?_
    exact congrArg₂ (· * ·) (shapeCast_1ab_ab_apply x _ j' cc) rfl
  generalize hA : exp (F := Ideal) _ = A
  have hAv : ∀ j' h', A (ix2 j' h') = Ideal.exp (tq_R1V x w j' h' - fmax (tq_R1V x w j')) := fun j' h' => by
    rw [← hA]
    refine congrArg Ideal.exp (congrArg₂ (· - ·) (hMq j' h') ?_)
    refine (col_apply_R1V _ _ _ j' h').trans ?_
    refine (maximumf_apply _ _ _).trans ?_
    refine (congrArg₂ max (show _ = (⊥ : EReal) from ofBits_neg_inf_R1V) (rowmax_apply_R1V M _ _ _ j')).trans ?_
    refine (max_eq_right bot_le).trans ?_
    exact congrArg fmax (funext fun h'' => hMq j' h'')
  refine (divf_apply _ _ _).trans ?_
  unfold rsm_R1V
  refine congrArg₂ Ideal.div (hAv j h) ?_
  refine (col_apply_R1V _ _ _ j h).trans ?_
  refine (rowsum_apply_R1V A _ _ _ j).trans ?_
  exact Finset.sum_congr rfl fun h' _ => hAv j h'

theorem pay3_apply_R1V (x : Vec Ideal S1x2048x256 .f32) (w : Vec Ideal S64x256 .f32) (j : Fin 2048) (h : Fin 64) :
    k1_pay3 x w (ix2 j h) = rsm_R1V (tq_R1V x w j) h :=
  pay2_apply_R1V x w j h

/-- A context block with its unit axis dropped: at (h, d) the block at (0, h, d). -/
theorem pay4_apply_R1V (w0 : Vec Ideal S1x64x64 .f32) (h d : Fin 64) : k1_pay4 w0 (ix2 h d) = w0 (ix3 0 h d) := by
  unfold k1_pay4
  exact shapeCast_1ab_ab_apply w0 _ h d

/-! ## The soft-maxed queries applied to a context block, and the two results side by side along the lanes -/

theorem lhs_c_0_R1V (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_c_1_R1V (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhs_c_0_R1V (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhs_c_1_R1V (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The product of a 2048 × 64 array with a 64 × 64 one, into zero: at (j, d) the sum over the 64 heads. -/
theorem cmat_apply_R1V {φ₁ φ₂ : FTy} (a : FVec Ideal S2048x64 φ₁) (b : FVec Ideal S64x64 φ₂) (j : Fin 2048) (d : Fin 64) :
    matmul dot_S2048x64_S64x64_S2048x64_1_0_0_1_n_n none a b (constant S2048x64 .f32 0x00000000#32) (ix2 j d)
      = ∑ h : Fin 64, a (ix2 j h) * b (ix2 h d) := by
  simp only [matmul]
  rw [Ideal.matmul_constant_zero_apply, ← Equiv.sum_comp (ValueIdx.contrEquiv1 dot_S2048x64_S64x64_S2048x64_1_0_0_1_n_n 64 rfl rfl).symm]
  refine Finset.sum_congr rfl fun k _ => ?_
  have hk := ValueIdx.contrEquiv1_symm_val dot_S2048x64_S64x64_S2048x64_1_0_0_1_n_n 64 rfl rfl k
  have el : dot_S2048x64_S64x64_S2048x64_1_0_0_1_n_n.lhsIdx (ix2 j d) ((ValueIdx.contrEquiv1 dot_S2048x64_S64x64_S2048x64_1_0_0_1_n_n 64 rfl rfl).symm k) = ix2 j k := funext fun a => Fin.ext (by
    match a with
    | ⟨0, _⟩ => exact lhs_c_0_R1V _ _
    | ⟨1, _⟩ => exact (lhs_c_1_R1V _ _).trans hk)
  have er : dot_S2048x64_S64x64_S2048x64_1_0_0_1_n_n.rhsIdx (ix2 j d) ((ValueIdx.contrEquiv1 dot_S2048x64_S64x64_S2048x64_1_0_0_1_n_n 64 rfl rfl).symm k) = ix2 k d := funext fun a => Fin.ext (by
    match a with
    | ⟨0, _⟩ => exact (rhs_c_0_R1V _ _).trans hk
    | ⟨1, _⟩ => exact rhs_c_1_R1V _ _)
  rw [el, er]

/-- Lanes 0–63 of the output block: stream 0's soft-maxed queries applied to the second context block. -/
theorem pay1_lo_R1V (q0 q1 : FVec Ideal S2048x64 .f32) (wb : FVec Ideal S64x64 .bf16) (w1 : Vec Ideal S1x64x64 .f32)
    (j : Fin 2048) (l : Fin 128) (d : Fin 64) (hd : d.val = l.val) :
    k1_pay1 q0 q1 wb w1 (ix3 0 j l) = ∑ h : Fin 64, q0 (ix2 j h) * w1 (ix3 0 h d) := by
  unfold k1_pay1
  refine (shapeCast_ab_1ab_apply _ _ 0 j l).trans ?_
  refine (concatenate_pair_apply_left (t := S2048x128) (s₁ := S2048x64) (s₂ := S2048x64) 1 _ _ _ (ix2 j l) rfl (ix2 j d) fun b => ?_).trans ?_
  · match b with
    | ⟨0, _⟩ => rfl
    | ⟨1, _⟩ => exact hd
  · refine (cmat_apply_R1V _ _ j d).trans ?_
    refine Finset.sum_congr rfl fun h _ => ?_
    exact congrArg (q0 (ix2 j h) * ·) (shapeCast_1ab_ab_apply w1 _ h d)

/-- Lanes 64–127 of the output block: stream 1's soft-maxed queries applied to the first context block. -/
theorem pay1_hi_R1V (q0 q1 : FVec Ideal S2048x64 .f32) (wb : FVec Ideal S64x64 .bf16) (w1 : Vec Ideal S1x64x64 .f32)
    (j : Fin 2048) (l : Fin 128) (d : Fin 64) (hd : d.val + 64 = l.val) :
    k1_pay1 q0 q1 wb w1 (ix3 0 j l) = ∑ h : Fin 64, q1 (ix2 j h) * wb (ix2 h d) := by
  unfold k1_pay1
  refine (shapeCast_ab_1ab_apply _ _ 0 j l).trans ?_
  refine (concatenate_pair_apply_right (t := S2048x128) (s₁ := S2048x64) (s₂ := S2048x64) 1 _ _ _ (ix2 j l) rfl rfl (ix2 j d) (fun b hb => ?_) hd).trans ?_
  · match b with
    | ⟨0, _⟩ => rfl
    | ⟨1, _⟩ => exact absurd rfl hb
  · exact cmat_apply_R1V _ _ j d

/-- Lanes 0–63 of the output block at (j, l): stream 0's row soft-max applied to the second context block. -/
theorem apply1_lo_R1V (x0 x1 : Vec Ideal S1x2048x256 .f32) (wq0 wq1 : Vec Ideal S64x256 .f32) (w0 w1 : Vec Ideal S1x64x64 .f32)
    (j : Fin 2048) (l : Fin 128) (d : Fin 64) (hd : d.val = l.val) :
    apply1 x0 x1 wq0 wq1 w0 w1 (ix3 0 j l) = ∑ h : Fin 64, rsm_R1V (tq_R1V x0 wq0 j) h * w1 (ix3 0 h d) := by
  unfold apply1
  refine (pay1_lo_R1V _ _ _ _ j l d hd).trans ?_
  exact Finset.sum_congr rfl fun h _ => congrArg (· * w1 (ix3 0 h d)) (pay2_apply_R1V x0 wq0 j h)

/-- Lanes 64–127 of the output block at (j, l): stream 1's row soft-max applied to the first context block. -/
theorem apply1_hi_R1V (x0 x1 : Vec Ideal S1x2048x256 .f32) (wq0 wq1 : Vec Ideal S64x256 .f32) (w0 w1 : Vec Ideal S1x64x64 .f32)
    (j : Fin 2048) (l : Fin 128) (d : Fin 64) (hd : d.val + 64 = l.val) :
    apply1 x0 x1 wq0 wq1 w0 w1 (ix3 0 j l) = ∑ h : Fin 64, rsm_R1V (tq_R1V x1 wq1 j) h * w0 (ix3 0 h d) := by
  unfold apply1
  refine (pay1_hi_R1V _ _ _ _ j l d hd).trans ?_
  exact Finset.sum_congr rfl fun h _ => congrArg₂ (· * ·) (pay3_apply_R1V x1 wq1 j h) (pay4_apply_R1V w0 h d)

/-! # The blocks, what each point writes back, and the whole array -/

section

variable (V : (c : Dev nD) → (b : Ref sig .tc) → Buf (Elt Ideal) ((c : Thread nD τ).loc b))

/-! ## The blocks the windows read at a point, by coordinates

Point `t` is batch row `t / 8` and token tile `t % 8`. -/

/-- The windows' block indices at point `t`: (t / 8, t % 8, 0) for the two streams' tiles and the output block, (0, 0) for
    the two query weights, (t / 8, 0, 0) for the two context blocks. -/
theorem idx1_R1V : ∀ t : Fin cfg1.N,
    (win1_0.index t (0 : Fin 3) = t.val / 8 ∧ win1_0.index t (1 : Fin 3) = t.val % 8 ∧ win1_0.index t (2 : Fin 3) = 0)
    ∧ (win1_1.index t (0 : Fin 3) = t.val / 8 ∧ win1_1.index t (1 : Fin 3) = t.val % 8 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 3) = t.val / 8 ∧ win1_4.index t (1 : Fin 3) = 0 ∧ win1_4.index t (2 : Fin 3) = 0)
    ∧ (win1_5.index t (0 : Fin 3) = t.val / 8 ∧ win1_5.index t (1 : Fin 3) = 0 ∧ win1_5.index t (2 : Fin 3) = 0)
    ∧ (win1_6.index t (0 : Fin 3) = t.val / 8 ∧ win1_6.index t (1 : Fin 3) = t.val % 8 ∧ win1_6.index t (2 : Fin 3) = 0) :=
  (by decide +kernel : ∀ t : Fin grid1.N, _)

/-- The batch row and the token of the array that entry `j` of point `t`'s tile is. -/
abbrev brow_R1V (t : Fin cfg1.N) : Fin 4 := ⟨t.val / 8, by have := t.isLt; have hN : cfg1.N = 32 := N_1; omega⟩
abbrev trow_R1V (t : Fin cfg1.N) (j : Fin 2048) : Fin 16384 :=
  ⟨2048 * (t.val % 8) + j.val, by have := j.isLt; omega⟩

/-- A stream's tile at point `t`: entry (0, j, c) is the stream at (batch row, token, c). -/
theorem iblk1_0_R1V (c : Dev nD) (t : Fin cfg1.N) (j : Fin 2048) (cc : Fin 256) :
    iblk1 V c 0 t (ix3 0 j cc) = V c main_arg0 (ix3 (brow_R1V t) (trow_R1V t j) cc) := by
  obtain ⟨e0, e1, e2⟩ := (idx1_R1V t).1
  unfold iblk1
  rw [View.read_apply]
  show V c main_arg0 _ = V c main_arg0 _
  congr 1
  funext a
  apply Fin.ext
  match a with
  | ⟨0, _⟩ => show win1_0.index t (0 : Fin 3) * 1 + 1 * 0 = t.val / 8; rw [e0]; omega
  | ⟨1, _⟩ => show win1_0.index t (1 : Fin 3) * 2048 + 1 * j.val = 2048 * (t.val % 8) + j.val; rw [e1]; omega
  | ⟨2, _⟩ => show win1_0.index t (2 : Fin 3) * 256 + 1 * cc.val = cc.val; rw [e2]; omega

theorem iblk1_1_R1V (c : Dev nD) (t : Fin cfg1.N) (j : Fin 2048) (cc : Fin 256) :
    iblk1 V c 1 t (ix3 0 j cc) = V c main_arg1 (ix3 (brow_R1V t) (trow_R1V t j) cc) := by
  obtain ⟨e0, e1, e2⟩ := (idx1_R1V t).2.1
  unfold iblk1
  rw [View.read_apply]
  show V c main_arg1 _ = V c main_arg1 _
  congr 1
  funext a
  apply Fin.ext
  match a with
  | ⟨0, _⟩ => show win1_1.index t (0 : Fin 3) * 1 + 1 * 0 = t.val / 8; rw [e0]; omega
  | ⟨1, _⟩ => show win1_1.index t (1 : Fin 3) * 2048 + 1 * j.val = 2048 * (t.val % 8) + j.val; rw [e1]; omega
  | ⟨2, _⟩ => show win1_1.index t (2 : Fin 3) * 256 + 1 * cc.val = cc.val; rw [e2]; omega

/-- The query weights are read whole. -/
theorem iblk1_2_R1V (c : Dev nD) (t : Fin cfg1.N) (h : Fin 64) (cc : Fin 256) :
    iblk1 V c 2 t (ix2 h cc) = V c main_arg4 (ix2 h cc) := by
  obtain ⟨e0, e1⟩ := (idx1_R1V t).2.2.1
  unfold iblk1
  rw [View.read_apply]
  show V c main_arg4 _ = V c main_arg4 _
  congr 1
  funext a
  apply Fin.ext
  match a with
  | ⟨0, _⟩ => show win1_2.index t (0 : Fin 2) * 64 + 1 * h.val = h.val; rw [e0]; omega
  | ⟨1, _⟩ => show win1_2.index t (1 : Fin 2) * 256 + 1 * cc.val = cc.val; rw [e1]; omega

theorem iblk1_3_R1V (c : Dev nD) (t : Fin cfg1.N) (h : Fin 64) (cc : Fin 256) :
    iblk1 V c 3 t (ix2 h cc) = V c main_arg5 (ix2 h cc) := by
  obtain ⟨e0, e1⟩ := (idx1_R1V t).2.2.2.1
  unfold iblk1
  rw [View.read_apply]
  show V c main_arg5 _ = V c main_arg5 _
  congr 1
  funext a
  apply Fin.ext
  match a with
  | ⟨0, _⟩ => show win1_3.index t (0 : Fin 2) * 64 + 1 * h.val = h.val; rw [e0]; omega
  | ⟨1, _⟩ => show win1_3.index t (1 : Fin 2) * 256 + 1 * cc.val = cc.val; rw [e1]; omega

/-- A context block at point `t`: entry (0, h, d) is the context array at (batch row, h, d). -/
theorem iblk1_4_R1V (c : Dev nD) (t : Fin cfg1.N) (h d : Fin 64) :
    iblk1 V c 4 t (ix3 0 h d) = V c main_v0_0 (ix3 (brow_R1V t) h d) := by
  obtain ⟨e0, e1, e2⟩ := (idx1_R1V t).2.2.2.2.1
  unfold iblk1
  rw [View.read_apply]
  show V c main_v0_0 _ = V c main_v0_0 _
  congr 1
  funext a
  apply Fin.ext
  match a with
  | ⟨0, _⟩ => show win1_4.index t (0 : Fin 3) * 1 + 1 * 0 = t.val / 8; rw [e0]; omega
  | ⟨1, _⟩ => show win1_4.index t (1 : Fin 3) * 64 + 1 * h.val = h.val; rw [e1]; omega
  | ⟨2, _⟩ => show win1_4.index t (2 : Fin 3) * 64 + 1 * d.val = d.val; rw [e2]; omega

theorem iblk1_5_R1V (c : Dev nD) (t : Fin cfg1.N) (h d : Fin 64) :
    iblk1 V c 5 t (ix3 0 h d) = V c main_v0_1 (ix3 (brow_R1V t) h d) := by
  obtain ⟨e0, e1, e2⟩ := (idx1_R1V t).2.2.2.2.2.1
  unfold iblk1
  rw [View.read_apply]
  show V c main_v0_1 _ = V c main_v0_1 _
  congr 1
  funext a
  apply Fin.ext
  match a with
  | ⟨0, _⟩ => show win1_5.index t (0 : Fin 3) * 1 + 1 * 0 = t.val / 8; rw [e0]; omega
  | ⟨1, _⟩ => show win1_5.index t (1 : Fin 3) * 64 + 1 * h.val = h.val; rw [e1]; omega
  | ⟨2, _⟩ => show win1_5.index t (2 : Fin 3) * 64 + 1 * d.val = d.val; rw [e2]; omega

/-! ## What a point writes back, and the whole array -/

/-- A tile's query scores are the stream's projection at the tile's batch row and token. -/
theorem tq_blk0_R1V (c : Dev nD) (t : Fin cfg1.N) (j : Fin 2048) :
    tq_R1V (iblk1 V c 0 t) (iblk1 V c 2 t) j = proj (V c main_arg0) (V c main_arg4) (brow_R1V t) (trow_R1V t j) := by
  funext h
  unfold tq_R1V proj
  exact Finset.sum_congr rfl fun cc _ => congrArg₂ (· * ·) (iblk1_0_R1V V c t j cc) (iblk1_2_R1V V c t h cc)

theorem tq_blk1_R1V (c : Dev nD) (t : Fin cfg1.N) (j : Fin 2048) :
    tq_R1V (iblk1 V c 1 t) (iblk1 V c 3 t) j = proj (V c main_arg1) (V c main_arg5) (brow_R1V t) (trow_R1V t j) := by
  funext h
  unfold tq_R1V proj
  exact Finset.sum_congr rfl fun cc _ => congrArg₂ (· * ·) (iblk1_1_R1V V c t j cc) (iblk1_3_R1V V c t h cc)

/-- The row soft-max of a projection's 64 scores is the specification's soft-max over the head axis. -/
theorem rsm_eq_qsoft_R1V (q : Fin 4 → Fin 16384 → Fin 64 → EReal) (b : Fin 4) (r : Fin 16384) (h : Fin 64) :
    rsm_R1V (q b r) h = qsoft q b r h := rfl

/-- The output block of point `t` at (0, j, l) is the packed array at (batch row, token, l). -/
theorem apply1_blk_R1V (c : Dev nD) (t : Fin cfg1.N) (j : Fin 2048) (l : Fin 128) :
    apply1 (iblk1 V c 0 t) (iblk1 V c 1 t) (iblk1 V c 2 t) (iblk1 V c 3 t) (iblk1 V c 4 t) (iblk1 V c 5 t) (ix3 0 j l)
      = packed (V c main_arg0) (V c main_arg1) (V c main_arg4) (V c main_arg5) (V c main_v0_0) (V c main_v0_1)
          (ix3 (brow_R1V t) (trow_R1V t j) l) := by
  unfold packed
  by_cases hl : l.val < 64
  · refine (apply1_lo_R1V _ _ _ _ _ _ j l ⟨l.val, hl⟩ rfl).trans ?_
    refine Eq.trans ?_ (dif_pos hl).symm
    unfold attn
    refine Finset.sum_congr rfl fun h _ => ?_
    rw [tq_blk0_R1V, rsm_eq_qsoft_R1V, iblk1_5_R1V]
  · have hl2 : l.val < 128 := l.isLt
    refine (apply1_hi_R1V _ _ _ _ _ _ j l ⟨(l.val - 64) % 64, Nat.mod_lt _ (by decide)⟩ (by show (l.val - 64) % 64 + 64 = l.val; omega)).trans ?_
    refine Eq.trans ?_ (dif_neg hl).symm
    unfold attn
    refine Finset.sum_congr rfl fun h _ => ?_
    rw [tq_blk1_R1V, rsm_eq_qsoft_R1V, iblk1_4_R1V]

/-- What point `t` writes back is block `t` of the packed array. -/
theorem flushed_eq_R1V (c : Dev nD) (t : Fin cfg1.N) :
    (dat1 V c).flushed 6 t = ((cfg1.win 6).blk t).view.read (Elt Ideal) (packed (V c main_arg0) (V c main_arg1) (V c main_arg4) (V c main_arg5) (V c main_v0_0) (V c main_v0_1)) := by
  obtain ⟨e0, e1, e2⟩ := (idx1_R1V t).2.2.2.2.2.2
  funext y
  obtain ⟨u, j, l, rfl⟩ : ∃ (u : Fin 1) (j : Fin 2048) (l : Fin 128), y = ix3 u j l := ⟨y 0, y 1, y 2, eq_ix3 y⟩
  obtain rfl : u = 0 := Fin.ext (by omega)
  show (dat1 V c).after 6 t (ix3 0 j l) = _
  rw [after1_6, View.read_apply]
  refine (apply1_blk_R1V V c t j l).trans ?_
  refine congrArg (packed (V c main_arg0) (V c main_arg1) (V c main_arg4) (V c main_arg5) (V c main_v0_0) (V c main_v0_1)) ?_
  funext a
  apply Fin.ext
  match a with
  | ⟨0, _⟩ => show t.val / 8 = win1_6.index t (0 : Fin 3) * 1 + 1 * 0; rw [e0]; omega
  | ⟨1, _⟩ => show 2048 * (t.val % 8) + j.val = win1_6.index t (1 : Fin 3) * 2048 + 1 * j.val; rw [e1]; omega
  | ⟨2, _⟩ => show l.val = win1_6.index t (2 : Fin 3) * 128 + 1 * l.val; rw [e2]; omega

/-- An index of the array is in point `t`'s block iff each coordinate is in the block's range on its axis. -/
theorem mem_blk6_R1V (t : Fin cfg1.N) (i : S4x16384x128.Idx) :
    i ∈ ((cfg1.win 6).blk t).view.set ↔ ∀ a : Fin 3, win1_6.index t a * S1x2048x128.size a ≤ (i a).val
      ∧ (i a).val < win1_6.index t a * S1x2048x128.size a + S1x2048x128.size a := by
  show i ∈ ((View.whole main_v1).slice (win1_6.rect t)).set ↔ _
  rw [View.set_slice_whole, Rect.mem_set_unit]
  exact Iff.rfl

/-- Every index of the array is in some point's block: token `r` of batch row `b` in point `8·b + r / 2048`'s. -/
theorem cover_R1V (i : S4x16384x128.Idx) :
    ∃ t : Fin cfg1.N, (cfg1.win 6).flush t = true ∧ i ∈ ((cfg1.win 6).blk t).view.set := by
  have hN : cfg1.N = 32 := N_1
  have h0 : (i 0).val < 4 := (i 0).isLt
  have h1 : (i 1).val < 16384 := (i 1).isLt
  have h2 : (i 2).val < 128 := (i 2).isLt
  have ht : 8 * (i 0).val + (i 1).val / 2048 < cfg1.N := by omega
  obtain ⟨e0, e1, e2⟩ := (idx1_R1V ⟨8 * (i 0).val + (i 1).val / 2048, ht⟩).2.2.2.2.2.2
  refine ⟨⟨8 * (i 0).val + (i 1).val / 2048, ht⟩, flush1_6 _, (mem_blk6_R1V _ i).mpr fun a => ?_⟩
  match a with
  | ⟨0, _⟩ =>
    show win1_6.index _ (0 : Fin 3) * 1 ≤ (i 0).val ∧ (i 0).val < win1_6.index _ (0 : Fin 3) * 1 + 1
    rw [e0]; dsimp only; omega
  | ⟨1, _⟩ =>
    show win1_6.index _ (1 : Fin 3) * 2048 ≤ (i 1).val ∧ (i 1).val < win1_6.index _ (1 : Fin 3) * 2048 + 2048
    rw [e1]; dsimp only; omega
  | ⟨2, _⟩ =>
    show win1_6.index _ (2 : Fin 3) * 128 ≤ (i 2).val ∧ (i 2).val < win1_6.index _ (2 : Fin 3) * 128 + 128
    rw [e2]; omega

/-- The packed result array from the region-entry contents of x0, x1, Wq0, Wq1 and the two context arrays. -/
theorem packed_final (c : Dev nD) :
    (dat1 V c).arrAt 6 cfg1.N
      = packed (V c main_arg0) (V c main_arg1) (V c main_arg4) (V c main_arg5) (V c main_v0_0) (V c main_v0_1) := by
  exact (dat1 V c).arrAt_eq_of_cover 6 _ (fun t _ => flushed_eq_R1V V c t) cover_R1V

end

end Cert.KernelIdeal.Hand

end
-- ==== Proof.KI.Tail.lean ====
/-
  The two host slices after region 1: result 0 is lanes 0–63 of the packed array, result 1 lanes 64–127.
-/
import proofs.«177014_j489626271899_1_alg».proof.Proof.KI.Run
import proofs.«177014_j489626271899_1_alg».proof.Proof.SpecReal
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec Idealize.ShloMosaic.ValueIdx

variable (m : (ℓ : Loc nD τ sig) → Buf (Elt Ideal) ℓ)

/-- A slice of the packed shape at offset `off` reads the operand at offset plus coordinate. -/
theorem slice_apply_TL (p : S4x16384x128.Idx → EReal) (off : Fin 3 → Nat) (h : S4x16384x128.Slices off S4x16384x64)
    (i : S4x16384x64.Idx) (k : Fin 128) (hk : off 0 = 0 ∧ off 1 = 0 ∧ off 2 + (i 2).val = k.val) :
    extractStridedSlice S4x16384x64 off p h i = p (ix3 (i 0) (i 1) k) := by
  obtain ⟨h0, h1, h2⟩ := hk
  unfold extractStridedSlice
  congr 1
  funext a
  apply Fin.ext
  match a with
  | ⟨0, _⟩ => show off 0 + (i 0).val = (i 0).val; omega
  | ⟨1, _⟩ => show off 1 + (i 1).val = (i 1).val; omega
  | ⟨2, _⟩ => exact h2

theorem W3_v2 (c : Dev nD) : W3 m c (Proc.devRef .tc main_v2) = lo (W2 m c (Proc.devRef .tc main_v1)) := by
  unfold W3
  show StableHlo.after hostOps2 _ (Proc.devRef .tc main_v2) = _
  after_results
  funext i
  unfold lo
  exact slice_apply_TL _ _ _ i _ ⟨rfl, rfl, by show 0 + (i 2).val = (i 2).val; omega⟩

theorem W3_v3 (c : Dev nD) : W3 m c (Proc.devRef .tc main_v3) = hi (W2 m c (Proc.devRef .tc main_v1)) := by
  unfold W3
  show StableHlo.after hostOps2 _ (Proc.devRef .tc main_v3) = _
  after_results
  funext i
  unfold hi
  exact slice_apply_TL _ _ _ i _ ⟨rfl, rfl, by show 64 + (i 2).val = (i 2).val + 64; omega⟩

end Cert.KernelIdeal.Hand

end
-- ==== Proof.KI.Bridge.lean ====
/-
  The kernel program's two results at the ideal instance are the specification's `G0` and `G1` of the arguments, when
  every argument is real-valued. The host slices read lanes 0–63 and 64–127 of region 1's packed array; that array is
  the packed form of the two query soft-maxes against region 0's two context arrays; those are the context matrices
  in the kernel's spelling (divide once after contracting), which on real-valued scores and values is the reference's
  (divide each exponential first). The arguments themselves reach both regions as launched.
-/
import proofs.«177014_j489626271899_1_alg».proof.Proof.KI.Run
import proofs.«177014_j489626271899_1_alg».proof.Proof.KI.R0Value
import proofs.«177014_j489626271899_1_alg».proof.Proof.KI.R1Value
import proofs.«177014_j489626271899_1_alg».proof.Proof.KI.Tail
import proofs.«177014_j489626271899_1_alg».proof.Proof.SpecReal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec Idealize.ShloMosaic.ValueIdx

variable (m : (ℓ : Loc nD τ sig) → Buf (Elt Ideal) ℓ)

/-- An input array of region 0 is, after the region, what it was at launch. -/
theorem W1_keeps (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w hw _).trans (A_eq0 (V0 m) c w))

theorem V1_arg0 (c : Dev nD) : V1 m c main_arg0 = m ((c : Thread nD τ).loc main_arg0) := W1_keeps m c 0 rfl
theorem V1_arg1 (c : Dev nD) : V1 m c main_arg1 = m ((c : Thread nD τ).loc main_arg1) := W1_keeps m c 1 rfl
theorem V1_arg4 (c : Dev nD) : V1 m c main_arg4 = m ((c : Thread nD τ).loc main_arg4) := W1_of_ne m c main_arg4 (by decide)
theorem V1_arg5 (c : Dev nD) : V1 m c main_arg5 = m ((c : Thread nD τ).loc main_arg5) := W1_of_ne m c main_arg5 (by decide)

section

variable (c : Dev nD)
  (h0 : IsReal (m ((c : Thread nD τ).loc main_arg0))) (h1 : IsReal (m ((c : Thread nD τ).loc main_arg1)))
  (h2 : IsReal (m ((c : Thread nD τ).loc main_arg2))) (h3 : IsReal (m ((c : Thread nD τ).loc main_arg3)))
  (h6 : IsReal (m ((c : Thread nD τ).loc main_arg6))) (h7 : IsReal (m ((c : Thread nD τ).loc main_arg7)))

include h0 h2 h6 in
/-- Region 0's first result array is stream 0's context array. -/
theorem V1_v0_0 : V1 m c main_v0_0
    = ctxArrK (m ((c : Thread nD τ).loc main_arg0)) (m ((c : Thread nD τ).loc main_arg2)) (m ((c : Thread nD τ).loc main_arg6)) :=
  (W1_arr m c 6).trans (ctx0_final (V0 m) c h0 h2 h6)

include h1 h3 h7 in
/-- Region 0's second result array is stream 1's context array. -/
theorem V1_v0_1 : V1 m c main_v0_1
    = ctxArrK (m ((c : Thread nD τ).loc main_arg1)) (m ((c : Thread nD τ).loc main_arg3)) (m ((c : Thread nD τ).loc main_arg7)) :=
  (W1_arr m c 7).trans (ctx1_final (V0 m) c h1 h3 h7)

include h0 h1 h2 h3 h6 h7 in
/-- Region 1's result array is the packed form over the arguments and the two context arrays. -/
theorem W2_v1 : W2 m c (Proc.devRef .tc main_v1)
    = packed (m ((c : Thread nD τ).loc main_arg0)) (m ((c : Thread nD τ).loc main_arg1)) (m ((c : Thread nD τ).loc main_arg4)) (m ((c : Thread nD τ).loc main_arg5))
        (ctxArrK (m ((c : Thread nD τ).loc main_arg0)) (m ((c : Thread nD τ).loc main_arg2)) (m ((c : Thread nD τ).loc main_arg6)))
        (ctxArrK (m ((c : Thread nD τ).loc main_arg1)) (m ((c : Thread nD τ).loc main_arg3)) (m ((c : Thread nD τ).loc main_arg7))) := by
  refine (W2_arr m c 6).trans ((packed_final (V1 m) c).trans ?_)
  rw [V1_arg0, V1_arg1, V1_arg4, V1_arg5, V1_v0_0 m c h0 h2 h6, V1_v0_1 m c h1 h3 h7]

include h0 h1 h2 h3 h6 h7 in
/-- The first result: stream 0's queries against stream 1's context. -/
theorem result0 : W3 m c (Proc.devRef .tc main_v2)
    = G0 (m ((c : Thread nD τ).loc main_arg0)) (m ((c : Thread nD τ).loc main_arg1)) (m ((c : Thread nD τ).loc main_arg3))
        (m ((c : Thread nD τ).loc main_arg4)) (m ((c : Thread nD τ).loc main_arg7)) := by
  rw [W3_v2, W2_v1 m c h0 h1 h2 h3 h6 h7, lo_packed, asCtx_ctxArrK _ _ _ h1 h3 h7]
  rfl

include h0 h1 h2 h3 h6 h7 in
/-- The second result: stream 1's queries against stream 0's context. -/
theorem result1 : W3 m c (Proc.devRef .tc main_v3)
    = G1 (m ((c : Thread nD τ).loc main_arg0)) (m ((c : Thread nD τ).loc main_arg1)) (m ((c : Thread nD τ).loc main_arg2))
        (m ((c : Thread nD τ).loc main_arg5)) (m ((c : Thread nD τ).loc main_arg6)) := by
  rw [W3_v3, W2_v1 m c h0 h1 h2 h3 h6 h7, hi_packed, asCtx_ctxArrK _ _ _ h0 h2 h6]
  rfl

end

end Cert.KernelIdeal.Hand

end
-- ==== Proof.RefValue.lean ====
/-
  The reference's two results are the specification's `G0` and `G1` of the arguments: each operation of the
  reference read at an index (projections as sums over the 256 features, the two soft-maxes with their maxima taken
  from −∞ and their sums from 0, the two contractions), composed.
-/
import proofs.«177014_j489626271899_1_alg».proof.Proof.Gen.ReferenceIdeal.Run
import proofs.«177014_j489626271899_1_alg».proof.Proof.Gen.ReferenceIdeal.Read
import proofs.«177014_j489626271899_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read

/-- The pattern of −∞ denotes the bottom of the extended reals. -/
theorem ofBits_neg_inf : Ideal.ofBits .f32 0xFF800000#32 = (⊥ : EReal) := by
  simp [Ideal.ofBits, Ideal.ieee]

/-- A maximum taken over the token axis from −∞, at batch row `b` and head `h`: the fold of `max` over the tokens. -/
theorem reduce_max_tokens (p : Cert.ReferenceIdeal.S4x16384x64.Idx → Ideal .f32) (c : Cert.ReferenceIdeal.S_.Idx → Ideal .f32)
    (hc : c (Shape.Idx.first Gen.h_S_) = (⊥ : EReal)) (b : Fin 4) (h : Fin 64) :
    Host.reduce FloatOps.maximumf p c Gen.reducesTo_S4x16384x64_S4x64_d1 Gen.h_S_ (ix2 b h)
      = Cert.Spec.fmax fun r' : Fin 16384 => p (ix3 b r' h) := by
  rw [Host.reduce_eq_fold_single FloatOps.maximumf p c Gen.reducesTo_S4x16384x64_S4x64_d1 (by decide) Gen.h_S_, hc]
  unfold Cert.Spec.fmax
  refine congrArg (Finset.fold _ _ · _) (funext fun k => ?_)
  exact congrArg p (funext fun a => Fin.ext (by match a with | ⟨0, _⟩ => rfl | ⟨1, _⟩ => rfl | ⟨2, _⟩ => rfl))

/-- A maximum taken over the head axis from −∞, at batch row `b` and token `r`: the fold of `max` over the heads. -/
theorem reduce_max_heads (p : Cert.ReferenceIdeal.S4x16384x64.Idx → Ideal .f32) (c : Cert.ReferenceIdeal.S_.Idx → Ideal .f32)
    (hc : c (Shape.Idx.first Gen.h_S_) = (⊥ : EReal)) (b : Fin 4) (r : Fin 16384) :
    Host.reduce FloatOps.maximumf p c Gen.reducesTo_S4x16384x64_S4x16384_d2 Gen.h_S_ (ix2 b r)
      = Cert.Spec.fmax fun h' : Fin 64 => p (ix3 b r h') := by
  rw [Host.reduce_eq_fold_single FloatOps.maximumf p c Gen.reducesTo_S4x16384x64_S4x16384_d2 (by decide) Gen.h_S_, hc]
  unfold Cert.Spec.fmax
  refine congrArg (Finset.fold _ _ · _) (funext fun k => ?_)
  exact congrArg p (funext fun a => Fin.ext (by match a with | ⟨0, _⟩ => rfl | ⟨1, _⟩ => rfl | ⟨2, _⟩ => rfl))

/-! ### Stream 0: keys, soft-maxed over the token axis -/

/-- The keys' projection of stream 0 at (b, r, h). -/
theorem v0_apply (x0 : (⟨Cert.ReferenceIdeal.S4x16384x256, .f32⟩ : BufTy).Contents (Elt Ideal)) (x2 : (⟨Cert.ReferenceIdeal.S64x256, .f32⟩ : BufTy).Contents (Elt Ideal)) (b : Fin 4) (r : Fin 16384) (h : Fin 64) :
    val_main_v0 (F := Ideal) x0 x2 (ix3 b r h) = Cert.Spec.proj x0 x2 b r h := by
  rw [val_main_v0_apply]
  unfold Cert.Spec.proj
  refine Finset.sum_congr rfl fun k _ => ?_
  exact congrArg₂ (· * ·) (congrArg x0 (funext fun a => Fin.ext (by match a with | ⟨0, _⟩ => rfl | ⟨1, _⟩ => rfl | ⟨2, _⟩ => rfl))) (congrArg x2 (funext fun a => Fin.ext (by match a with | ⟨0, _⟩ => rfl | ⟨1, _⟩ => rfl)))

/-- The column maximum over all tokens, from −∞. -/
theorem v6_apply (x0 : (⟨Cert.ReferenceIdeal.S4x16384x256, .f32⟩ : BufTy).Contents (Elt Ideal)) (x2 : (⟨Cert.ReferenceIdeal.S64x256, .f32⟩ : BufTy).Contents (Elt Ideal)) (b : Fin 4) (h : Fin 64) :
    val_main_v6 (F := Ideal) x0 x2 (ix2 b h) = Cert.Spec.fmax fun r' : Fin 16384 => Cert.Spec.proj x0 x2 b r' h := by
  unfold val_main_v6
  rw [reduce_max_tokens _ _ ofBits_neg_inf]
  exact congrArg Cert.Spec.fmax (funext fun r' => v0_apply x0 x2 b r' h)

/-- The larger of −∞ and the column maximum is the column maximum. -/
theorem v8_apply (x0 : (⟨Cert.ReferenceIdeal.S4x16384x256, .f32⟩ : BufTy).Contents (Elt Ideal)) (x2 : (⟨Cert.ReferenceIdeal.S64x256, .f32⟩ : BufTy).Contents (Elt Ideal)) (b : Fin 4) (h : Fin 64) :
    val_main_v8 (F := Ideal) x0 x2 (ix2 b h) = Cert.Spec.fmax fun r' : Fin 16384 => Cert.Spec.proj x0 x2 b r' h := by
  rw [val_main_v8_apply, val_main_v7_apply, val_main_cst_0_apply, v6_apply]
  show max (Ideal.ofBits .f32 0xFF800000#32) _ = _
  rw [ofBits_neg_inf]
  exact max_eq_right bot_le

/-- The column maximum broadcast back over the tokens. -/
theorem v10_apply (x0 : (⟨Cert.ReferenceIdeal.S4x16384x256, .f32⟩ : BufTy).Contents (Elt Ideal)) (x2 : (⟨Cert.ReferenceIdeal.S64x256, .f32⟩ : BufTy).Contents (Elt Ideal)) (b : Fin 4) (r : Fin 16384) (h : Fin 64) :
    val_main_v10 (F := Ideal) x0 x2 (ix3 b r h) = Cert.Spec.fmax fun r' : Fin 16384 => Cert.Spec.proj x0 x2 b r' h := by
  rw [val_main_v10_apply, val_main_v9_apply]
  have e : idx_main_v9 (idx_main_v10 (ix3 b r h)) = ix2 b h := funext fun a => Fin.ext (by match a with | ⟨0, _⟩ => rfl | ⟨1, _⟩ => rfl)
  rw [e, v8_apply]

/-- The shifted exponential of a key. -/
theorem v12_apply (x0 : (⟨Cert.ReferenceIdeal.S4x16384x256, .f32⟩ : BufTy).Contents (Elt Ideal)) (x2 : (⟨Cert.ReferenceIdeal.S64x256, .f32⟩ : BufTy).Contents (Elt Ideal)) (b : Fin 4) (r : Fin 16384) (h : Fin 64) :
    val_main_v12 (F := Ideal) x0 x2 (ix3 b r h) = Cert.Spec.kexp (Cert.Spec.proj x0 x2) b r h := by
  rw [val_main_v12_apply, val_main_v11_apply, v0_apply, v10_apply]
  rfl

/-- The column sum of the exponentials, from 0. -/
theorem v13_apply (x0 : (⟨Cert.ReferenceIdeal.S4x16384x256, .f32⟩ : BufTy).Contents (Elt Ideal)) (x2 : (⟨Cert.ReferenceIdeal.S64x256, .f32⟩ : BufTy).Contents (Elt Ideal)) (b : Fin 4) (h : Fin 64) :
    val_main_v13 (F := Ideal) x0 x2 (ix2 b h) = ∑ r' : Fin 16384, Cert.Spec.kexp (Cert.Spec.proj x0 x2) b r' h := by
  rw [val_main_v13_apply, val_main_cst_1_apply]
  show Ideal.ofBits .f32 0x00000000#32 + _ = _
  rw [Ideal.ofBits_zero_f32, zero_add]
  refine Finset.sum_congr rfl fun k _ => ?_
  have e : idx_main_v13 (ix2 b h) k = ix3 b k h := funext fun a => Fin.ext (by match a with | ⟨0, _⟩ => rfl | ⟨1, _⟩ => rfl | ⟨2, _⟩ => rfl)
  rw [e, v12_apply]

/-- The column sum broadcast back over the tokens. -/
theorem v15_apply (x0 : (⟨Cert.ReferenceIdeal.S4x16384x256, .f32⟩ : BufTy).Contents (Elt Ideal)) (x2 : (⟨Cert.ReferenceIdeal.S64x256, .f32⟩ : BufTy).Contents (Elt Ideal)) (b : Fin 4) (r : Fin 16384) (h : Fin 64) :
    val_main_v15 (F := Ideal) x0 x2 (ix3 b r h) = ∑ r' : Fin 16384, Cert.Spec.kexp (Cert.Spec.proj x0 x2) b r' h := by
  rw [val_main_v15_apply, val_main_v14_apply]
  have e : idx_main_v14 (idx_main_v15 (ix3 b r h)) = ix2 b h := funext fun a => Fin.ext (by match a with | ⟨0, _⟩ => rfl | ⟨1, _⟩ => rfl)
  rw [e, v13_apply]

/-- The soft-maxed key. -/
theorem v16_apply (x0 : (⟨Cert.ReferenceIdeal.S4x16384x256, .f32⟩ : BufTy).Contents (Elt Ideal)) (x2 : (⟨Cert.ReferenceIdeal.S64x256, .f32⟩ : BufTy).Contents (Elt Ideal)) (b : Fin 4) (r : Fin 16384) (h : Fin 64) :
    val_main_v16 (F := Ideal) x0 x2 (ix3 b r h) = Cert.Spec.ksoft (Cert.Spec.proj x0 x2) b r h := by
  rw [val_main_v16_apply, v12_apply, v15_apply]
  rfl

/-! ### Stream 0: values and the context matrix -/

/-- The values' projection of stream 0 at (b, r, d). -/
theorem v4_apply (x0 : (⟨Cert.ReferenceIdeal.S4x16384x256, .f32⟩ : BufTy).Contents (Elt Ideal)) (x6 : (⟨Cert.ReferenceIdeal.S64x256, .f32⟩ : BufTy).Contents (Elt Ideal)) (b : Fin 4) (r : Fin 16384) (d : Fin 64) :
    val_main_v4 (F := Ideal) x0 x6 (ix3 b r d) = Cert.Spec.proj x0 x6 b r d := by
  rw [val_main_v4_apply]
  unfold Cert.Spec.proj
  refine Finset.sum_congr rfl fun k _ => ?_
  exact congrArg₂ (· * ·) (congrArg x0 (funext fun a => Fin.ext (by match a with | ⟨0, _⟩ => rfl | ⟨1, _⟩ => rfl | ⟨2, _⟩ => rfl))) (congrArg x6 (funext fun a => Fin.ext (by match a with | ⟨0, _⟩ => rfl | ⟨1, _⟩ => rfl)))

/-- The context matrix of stream 0: the soft-maxed keys contracted with the values over the tokens. -/
theorem v50_apply (x0 : (⟨Cert.ReferenceIdeal.S4x16384x256, .f32⟩ : BufTy).Contents (Elt Ideal)) (x2 x6 : (⟨Cert.ReferenceIdeal.S64x256, .f32⟩ : BufTy).Contents (Elt Ideal)) (b : Fin 4) (h d : Fin 64) :
    val_main_v50 (F := Ideal) x0 x2 x6 (ix3 b h d)
      = Cert.Spec.ctx (Cert.Spec.proj x0 x2) (Cert.Spec.proj x0 x6) b h d := by
  rw [val_main_v50_apply]
  unfold Cert.Spec.ctx
  refine Finset.sum_congr rfl fun k _ => ?_
  have el : lidx_main_v50 (ix3 b h d) k = ix3 b k h := funext fun a => Fin.ext (by match a with | ⟨0, _⟩ => rfl | ⟨1, _⟩ => rfl | ⟨2, _⟩ => rfl)
  have er : ridx_main_v50 (ix3 b h d) k = ix3 b k d := funext fun a => Fin.ext (by match a with | ⟨0, _⟩ => rfl | ⟨1, _⟩ => rfl | ⟨2, _⟩ => rfl)
  rw [el, er, v16_apply, v4_apply]

/-! ### Stream 1: keys, soft-maxed over the token axis -/

/-- The keys' projection of stream 1 at (b, r, h). -/
theorem v1_apply (x1 : (⟨Cert.ReferenceIdeal.S4x16384x256, .f32⟩ : BufTy).Contents (Elt Ideal)) (x3 : (⟨Cert.ReferenceIdeal.S64x256, .f32⟩ : BufTy).Contents (Elt Ideal)) (b : Fin 4) (r : Fin 16384) (h : Fin 64) :
    val_main_v1 (F := Ideal) x1 x3 (ix3 b r h) = Cert.Spec.proj x1 x3 b r h := by
  rw [val_main_v1_apply]
  unfold Cert.Spec.proj
  refine Finset.sum_congr rfl fun k _ => ?_
  exact congrArg₂ (· * ·) (congrArg x1 (funext fun a => Fin.ext (by match a with | ⟨0, _⟩ => rfl | ⟨1, _⟩ => rfl | ⟨2, _⟩ => rfl))) (congrArg x3 (funext fun a => Fin.ext (by match a with | ⟨0, _⟩ => rfl | ⟨1, _⟩ => rfl)))

/-- The column maximum over all tokens, from −∞. -/
theorem v17_apply (x1 : (⟨Cert.ReferenceIdeal.S4x16384x256, .f32⟩ : BufTy).Contents (Elt Ideal)) (x3 : (⟨Cert.ReferenceIdeal.S64x256, .f32⟩ : BufTy).Contents (Elt Ideal)) (b : Fin 4) (h : Fin 64) :
    val_main_v17 (F := Ideal) x1 x3 (ix2 b h) = Cert.Spec.fmax fun r' : Fin 16384 => Cert.Spec.proj x1 x3 b r' h := by
  unfold val_main_v17
  rw [reduce_max_tokens _ _ ofBits_neg_inf]
  exact congrArg Cert.Spec.fmax (funext fun r' => v1_apply x1 x3 b r' h)

/-- The larger of −∞ and the column maximum is the column maximum. -/
theorem v19_apply (x1 : (⟨Cert.ReferenceIdeal.S4x16384x256, .f32⟩ : BufTy).Contents (Elt Ideal)) (x3 : (⟨Cert.ReferenceIdeal.S64x256, .f32⟩ : BufTy).Contents (Elt Ideal)) (b : Fin 4) (h : Fin 64) :
    val_main_v19 (F := Ideal) x1 x3 (ix2 b h) = Cert.Spec.fmax fun r' : Fin 16384 => Cert.Spec.proj x1 x3 b r' h := by
  rw [val_main_v19_apply, val_main_v18_apply, val_main_cst_3_apply, v17_apply]
  show max (Ideal.ofBits .f32 0xFF800000#32) _ = _
  rw [ofBits_neg_inf]
  exact max_eq_right bot_le

/-- The column maximum broadcast back over the tokens. -/
theorem v21_apply (x1 : (⟨Cert.ReferenceIdeal.S4x16384x256, .f32⟩ : BufTy).Contents (Elt Ideal)) (x3 : (⟨Cert.ReferenceIdeal.S64x256, .f32⟩ : BufTy).Contents (Elt Ideal)) (b : Fin 4) (r : Fin 16384) (h : Fin 64) :
    val_main_v21 (F := Ideal) x1 x3 (ix3 b r h) = Cert.Spec.fmax fun r' : Fin 16384 => Cert.Spec.proj x1 x3 b r' h := by
  rw [val_main_v21_apply, val_main_v20_apply]
  have e : idx_main_v20 (idx_main_v21 (ix3 b r h)) = ix2 b h := funext fun a => Fin.ext (by match a with | ⟨0, _⟩ => rfl | ⟨1, _⟩ => rfl)
  rw [e, v19_apply]

/-- The shifted exponential of a key. -/
theorem v23_apply (x1 : (⟨Cert.ReferenceIdeal.S4x16384x256, .f32⟩ : BufTy).Contents (Elt Ideal)) (x3 : (⟨Cert.ReferenceIdeal.S64x256, .f32⟩ : BufTy).Contents (Elt Ideal)) (b : Fin 4) (r : Fin 16384) (h : Fin 64) :
    val_main_v23 (F := Ideal) x1 x3 (ix3 b r h) = Cert.Spec.kexp (Cert.Spec.proj x1 x3) b r h := by
  rw [val_main_v23_apply, val_main_v22_apply, v1_apply, v21_apply]
  rfl

/-- The column sum of the exponentials, from 0. -/
theorem v24_apply (x1 : (⟨Cert.ReferenceIdeal.S4x16384x256, .f32⟩ : BufTy).Contents (Elt Ideal)) (x3 : (⟨Cert.ReferenceIdeal.S64x256, .f32⟩ : BufTy).Contents (Elt Ideal)) (b : Fin 4) (h : Fin 64) :
    val_main_v24 (F := Ideal) x1 x3 (ix2 b h) = ∑ r' : Fin 16384, Cert.Spec.kexp (Cert.Spec.proj x1 x3) b r' h := by
  rw [val_main_v24_apply, val_main_cst_4_apply]
  show Ideal.ofBits .f32 0x00000000#32 + _ = _
  rw [Ideal.ofBits_zero_f32, zero_add]
  refine Finset.sum_congr rfl fun k _ => ?_
  have e : idx_main_v24 (ix2 b h) k = ix3 b k h := funext fun a => Fin.ext (by match a with | ⟨0, _⟩ => rfl | ⟨1, _⟩ => rfl | ⟨2, _⟩ => rfl)
  rw [e, v23_apply]

/-- The column sum broadcast back over the tokens. -/
theorem v26_apply (x1 : (⟨Cert.ReferenceIdeal.S4x16384x256, .f32⟩ : BufTy).Contents (Elt Ideal)) (x3 : (⟨Cert.ReferenceIdeal.S64x256, .f32⟩ : BufTy).Contents (Elt Ideal)) (b : Fin 4) (r : Fin 16384) (h : Fin 64) :
    val_main_v26 (F := Ideal) x1 x3 (ix3 b r h) = ∑ r' : Fin 16384, Cert.Spec.kexp (Cert.Spec.proj x1 x3) b r' h := by
  rw [val_main_v26_apply, val_main_v25_apply]
  have e : idx_main_v25 (idx_main_v26 (ix3 b r h)) = ix2 b h := funext fun a => Fin.ext (by match a with | ⟨0, _⟩ => rfl | ⟨1, _⟩ => rfl)
  rw [e, v24_apply]

/-- The soft-maxed key. -/
theorem v27_apply (x1 : (⟨Cert.ReferenceIdeal.S4x16384x256, .f32⟩ : BufTy).Contents (Elt Ideal)) (x3 : (⟨Cert.ReferenceIdeal.S64x256, .f32⟩ : BufTy).Contents (Elt Ideal)) (b : Fin 4) (r : Fin 16384) (h : Fin 64) :
    val_main_v27 (F := Ideal) x1 x3 (ix3 b r h) = Cert.Spec.ksoft (Cert.Spec.proj x1 x3) b r h := by
  rw [val_main_v27_apply, v23_apply, v26_apply]
  rfl

/-! ### Stream 1: values and the context matrix -/

/-- The values' projection of stream 1 at (b, r, d). -/
theorem v5_apply (x1 : (⟨Cert.ReferenceIdeal.S4x16384x256, .f32⟩ : BufTy).Contents (Elt Ideal)) (x7 : (⟨Cert.ReferenceIdeal.S64x256, .f32⟩ : BufTy).Contents (Elt Ideal)) (b : Fin 4) (r : Fin 16384) (d : Fin 64) :
    val_main_v5 (F := Ideal) x1 x7 (ix3 b r d) = Cert.Spec.proj x1 x7 b r d := by
  rw [val_main_v5_apply]
  unfold Cert.Spec.proj
  refine Finset.sum_congr rfl fun k _ => ?_
  exact congrArg₂ (· * ·) (congrArg x1 (funext fun a => Fin.ext (by match a with | ⟨0, _⟩ => rfl | ⟨1, _⟩ => rfl | ⟨2, _⟩ => rfl))) (congrArg x7 (funext fun a => Fin.ext (by match a with | ⟨0, _⟩ => rfl | ⟨1, _⟩ => rfl)))

/-- The context matrix of stream 1: the soft-maxed keys contracted with the values over the tokens. -/
theorem v51_apply (x1 : (⟨Cert.ReferenceIdeal.S4x16384x256, .f32⟩ : BufTy).Contents (Elt Ideal)) (x3 x7 : (⟨Cert.ReferenceIdeal.S64x256, .f32⟩ : BufTy).Contents (Elt Ideal)) (b : Fin 4) (h d : Fin 64) :
    val_main_v51 (F := Ideal) x1 x3 x7 (ix3 b h d)
      = Cert.Spec.ctx (Cert.Spec.proj x1 x3) (Cert.Spec.proj x1 x7) b h d := by
  rw [val_main_v51_apply]
  unfold Cert.Spec.ctx
  refine Finset.sum_congr rfl fun k _ => ?_
  have el : lidx_main_v51 (ix3 b h d) k = ix3 b k h := funext fun a => Fin.ext (by match a with | ⟨0, _⟩ => rfl | ⟨1, _⟩ => rfl | ⟨2, _⟩ => rfl)
  have er : ridx_main_v51 (ix3 b h d) k = ix3 b k d := funext fun a => Fin.ext (by match a with | ⟨0, _⟩ => rfl | ⟨1, _⟩ => rfl | ⟨2, _⟩ => rfl)
  rw [el, er, v27_apply, v5_apply]

/-! ### Stream 0: queries, soft-maxed over the head axis -/

/-- The queries' projection of stream 0 at (b, r, h). -/
theorem v2_apply (x0 : (⟨Cert.ReferenceIdeal.S4x16384x256, .f32⟩ : BufTy).Contents (Elt Ideal)) (x4 : (⟨Cert.ReferenceIdeal.S64x256, .f32⟩ : BufTy).Contents (Elt Ideal)) (b : Fin 4) (r : Fin 16384) (h : Fin 64) :
    val_main_v2 (F := Ideal) x0 x4 (ix3 b r h) = Cert.Spec.proj x0 x4 b r h := by
  rw [val_main_v2_apply]
  unfold Cert.Spec.proj
  refine Finset.sum_congr rfl fun k _ => ?_
  exact congrArg₂ (· * ·) (congrArg x0 (funext fun a => Fin.ext (by match a with | ⟨0, _⟩ => rfl | ⟨1, _⟩ => rfl | ⟨2, _⟩ => rfl))) (congrArg x4 (funext fun a => Fin.ext (by match a with | ⟨0, _⟩ => rfl | ⟨1, _⟩ => rfl)))

/-- The row maximum over the heads, from −∞. -/
theorem v28_apply (x0 : (⟨Cert.ReferenceIdeal.S4x16384x256, .f32⟩ : BufTy).Contents (Elt Ideal)) (x4 : (⟨Cert.ReferenceIdeal.S64x256, .f32⟩ : BufTy).Contents (Elt Ideal)) (b : Fin 4) (r : Fin 16384) :
    val_main_v28 (F := Ideal) x0 x4 (ix2 b r) = Cert.Spec.fmax fun h' : Fin 64 => Cert.Spec.proj x0 x4 b r h' := by
  unfold val_main_v28
  rw [reduce_max_heads _ _ ofBits_neg_inf]
  exact congrArg Cert.Spec.fmax (funext fun h' => v2_apply x0 x4 b r h')

/-- The larger of −∞ and the row maximum is the row maximum. -/
theorem v30_apply (x0 : (⟨Cert.ReferenceIdeal.S4x16384x256, .f32⟩ : BufTy).Contents (Elt Ideal)) (x4 : (⟨Cert.ReferenceIdeal.S64x256, .f32⟩ : BufTy).Contents (Elt Ideal)) (b : Fin 4) (r : Fin 16384) :
    val_main_v30 (F := Ideal) x0 x4 (ix2 b r) = Cert.Spec.fmax fun h' : Fin 64 => Cert.Spec.proj x0 x4 b r h' := by
  rw [val_main_v30_apply, val_main_v29_apply, val_main_cst_6_apply, v28_apply]
  show max (Ideal.ofBits .f32 0xFF800000#32) _ = _
  rw [ofBits_neg_inf]
  exact max_eq_right bot_le

/-- The row maximum broadcast back over the heads. -/
theorem v32_apply (x0 : (⟨Cert.ReferenceIdeal.S4x16384x256, .f32⟩ : BufTy).Contents (Elt Ideal)) (x4 : (⟨Cert.ReferenceIdeal.S64x256, .f32⟩ : BufTy).Contents (Elt Ideal)) (b : Fin 4) (r : Fin 16384) (h : Fin 64) :
    val_main_v32 (F := Ideal) x0 x4 (ix3 b r h) = Cert.Spec.fmax fun h' : Fin 64 => Cert.Spec.proj x0 x4 b r h' := by
  rw [val_main_v32_apply, val_main_v31_apply]
  have e : idx_main_v31 (idx_main_v32 (ix3 b r h)) = ix2 b r := funext fun a => Fin.ext (by match a with | ⟨0, _⟩ => rfl | ⟨1, _⟩ => rfl)
  rw [e, v30_apply]

/-- The shifted exponential of a query. -/
theorem v34_apply (x0 : (⟨Cert.ReferenceIdeal.S4x16384x256, .f32⟩ : BufTy).Contents (Elt Ideal)) (x4 : (⟨Cert.ReferenceIdeal.S64x256, .f32⟩ : BufTy).Contents (Elt Ideal)) (b : Fin 4) (r : Fin 16384) (h : Fin 64) :
    val_main_v34 (F := Ideal) x0 x4 (ix3 b r h)
      = Ideal.exp (Cert.Spec.proj x0 x4 b r h - Cert.Spec.fmax fun h' : Fin 64 => Cert.Spec.proj x0 x4 b r h') := by
  rw [val_main_v34_apply, val_main_v33_apply, v2_apply, v32_apply]
  rfl

/-- The row sum of the exponentials, from 0. -/
theorem v35_apply (x0 : (⟨Cert.ReferenceIdeal.S4x16384x256, .f32⟩ : BufTy).Contents (Elt Ideal)) (x4 : (⟨Cert.ReferenceIdeal.S64x256, .f32⟩ : BufTy).Contents (Elt Ideal)) (b : Fin 4) (r : Fin 16384) :
    val_main_v35 (F := Ideal) x0 x4 (ix2 b r)
      = ∑ h' : Fin 64, Ideal.exp (Cert.Spec.proj x0 x4 b r h' - Cert.Spec.fmax fun h'' : Fin 64 => Cert.Spec.proj x0 x4 b r h'') := by
  rw [val_main_v35_apply, val_main_cst_7_apply]
  show Ideal.ofBits .f32 0x00000000#32 + _ = _
  rw [Ideal.ofBits_zero_f32, zero_add]
  refine Finset.sum_congr rfl fun k _ => ?_
  have e : idx_main_v35 (ix2 b r) k = ix3 b r k := funext fun a => Fin.ext (by match a with | ⟨0, _⟩ => rfl | ⟨1, _⟩ => rfl | ⟨2, _⟩ => rfl)
  rw [e, v34_apply]

/-- The row sum broadcast back over the heads. -/
theorem v37_apply (x0 : (⟨Cert.ReferenceIdeal.S4x16384x256, .f32⟩ : BufTy).Contents (Elt Ideal)) (x4 : (⟨Cert.ReferenceIdeal.S64x256, .f32⟩ : BufTy).Contents (Elt Ideal)) (b : Fin 4) (r : Fin 16384) (h : Fin 64) :
    val_main_v37 (F := Ideal) x0 x4 (ix3 b r h)
      = ∑ h' : Fin 64, Ideal.exp (Cert.Spec.proj x0 x4 b r h' - Cert.Spec.fmax fun h'' : Fin 64 => Cert.Spec.proj x0 x4 b r h'') := by
  rw [val_main_v37_apply, val_main_v36_apply]
  have e : idx_main_v36 (idx_main_v37 (ix3 b r h)) = ix2 b r := funext fun a => Fin.ext (by match a with | ⟨0, _⟩ => rfl | ⟨1, _⟩ => rfl)
  rw [e, v35_apply]

/-- The soft-maxed query. -/
theorem v38_apply (x0 : (⟨Cert.ReferenceIdeal.S4x16384x256, .f32⟩ : BufTy).Contents (Elt Ideal)) (x4 : (⟨Cert.ReferenceIdeal.S64x256, .f32⟩ : BufTy).Contents (Elt Ideal)) (b : Fin 4) (r : Fin 16384) (h : Fin 64) :
    val_main_v38 (F := Ideal) x0 x4 (ix3 b r h) = Cert.Spec.qsoft (Cert.Spec.proj x0 x4) b r h := by
  rw [val_main_v38_apply, v34_apply, v37_apply]
  rfl

/-! ### Stream 1: queries, soft-maxed over the head axis -/

/-- The queries' projection of stream 1 at (b, r, h). -/
theorem v3_apply (x1 : (⟨Cert.ReferenceIdeal.S4x16384x256, .f32⟩ : BufTy).Contents (Elt Ideal)) (x5 : (⟨Cert.ReferenceIdeal.S64x256, .f32⟩ : BufTy).Contents (Elt Ideal)) (b : Fin 4) (r : Fin 16384) (h : Fin 64) :
    val_main_v3 (F := Ideal) x1 x5 (ix3 b r h) = Cert.Spec.proj x1 x5 b r h := by
  rw [val_main_v3_apply]
  unfold Cert.Spec.proj
  refine Finset.sum_congr rfl fun k _ => ?_
  exact congrArg₂ (· * ·) (congrArg x1 (funext fun a => Fin.ext (by match a with | ⟨0, _⟩ => rfl | ⟨1, _⟩ => rfl | ⟨2, _⟩ => rfl))) (congrArg x5 (funext fun a => Fin.ext (by match a with | ⟨0, _⟩ => rfl | ⟨1, _⟩ => rfl)))

/-- The row maximum over the heads, from −∞. -/
theorem v39_apply (x1 : (⟨Cert.ReferenceIdeal.S4x16384x256, .f32⟩ : BufTy).Contents (Elt Ideal)) (x5 : (⟨Cert.ReferenceIdeal.S64x256, .f32⟩ : BufTy).Contents (Elt Ideal)) (b : Fin 4) (r : Fin 16384) :
    val_main_v39 (F := Ideal) x1 x5 (ix2 b r) = Cert.Spec.fmax fun h' : Fin 64 => Cert.Spec.proj x1 x5 b r h' := by
  unfold val_main_v39
  rw [reduce_max_heads _ _ ofBits_neg_inf]
  exact congrArg Cert.Spec.fmax (funext fun h' => v3_apply x1 x5 b r h')

/-- The larger of −∞ and the row maximum is the row maximum. -/
theorem v41_apply (x1 : (⟨Cert.ReferenceIdeal.S4x16384x256, .f32⟩ : BufTy).Contents (Elt Ideal)) (x5 : (⟨Cert.ReferenceIdeal.S64x256, .f32⟩ : BufTy).Contents (Elt Ideal)) (b : Fin 4) (r : Fin 16384) :
    val_main_v41 (F := Ideal) x1 x5 (ix2 b r) = Cert.Spec.fmax fun h' : Fin 64 => Cert.Spec.proj x1 x5 b r h' := by
  rw [val_main_v41_apply, val_main_v40_apply, val_main_cst_9_apply, v39_apply]
  show max (Ideal.ofBits .f32 0xFF800000#32) _ = _
  rw [ofBits_neg_inf]
  exact max_eq_right bot_le

/-- The row maximum broadcast back over the heads. -/
theorem v43_apply (x1 : (⟨Cert.ReferenceIdeal.S4x16384x256, .f32⟩ : BufTy).Contents (Elt Ideal)) (x5 : (⟨Cert.ReferenceIdeal.S64x256, .f32⟩ : BufTy).Contents (Elt Ideal)) (b : Fin 4) (r : Fin 16384) (h : Fin 64) :
    val_main_v43 (F := Ideal) x1 x5 (ix3 b r h) = Cert.Spec.fmax fun h' : Fin 64 => Cert.Spec.proj x1 x5 b r h' := by
  rw [val_main_v43_apply, val_main_v42_apply]
  have e : idx_main_v42 (idx_main_v43 (ix3 b r h)) = ix2 b r := funext fun a => Fin.ext (by match a with | ⟨0, _⟩ => rfl | ⟨1, _⟩ => rfl)
  rw [e, v41_apply]

/-- The shifted exponential of a query. -/
theorem v45_apply (x1 : (⟨Cert.ReferenceIdeal.S4x16384x256, .f32⟩ : BufTy).Contents (Elt Ideal)) (x5 : (⟨Cert.ReferenceIdeal.S64x256, .f32⟩ : BufTy).Contents (Elt Ideal)) (b : Fin 4) (r : Fin 16384) (h : Fin 64) :
    val_main_v45 (F := Ideal) x1 x5 (ix3 b r h)
      = Ideal.exp (Cert.Spec.proj x1 x5 b r h - Cert.Spec.fmax fun h' : Fin 64 => Cert.Spec.proj x1 x5 b r h') := by
  rw [val_main_v45_apply, val_main_v44_apply, v3_apply, v43_apply]
  rfl

/-- The row sum of the exponentials, from 0. -/
theorem v46_apply (x1 : (⟨Cert.ReferenceIdeal.S4x16384x256, .f32⟩ : BufTy).Contents (Elt Ideal)) (x5 : (⟨Cert.ReferenceIdeal.S64x256, .f32⟩ : BufTy).Contents (Elt Ideal)) (b : Fin 4) (r : Fin 16384) :
    val_main_v46 (F := Ideal) x1 x5 (ix2 b r)
      = ∑ h' : Fin 64, Ideal.exp (Cert.Spec.proj x1 x5 b r h' - Cert.Spec.fmax fun h'' : Fin 64 => Cert.Spec.proj x1 x5 b r h'') := by
  rw [val_main_v46_apply, val_main_cst_10_apply]
  show Ideal.ofBits .f32 0x00000000#32 + _ = _
  rw [Ideal.ofBits_zero_f32, zero_add]
  refine Finset.sum_congr rfl fun k _ => ?_
  have e : idx_main_v46 (ix2 b r) k = ix3 b r k := funext fun a => Fin.ext (by match a with | ⟨0, _⟩ => rfl | ⟨1, _⟩ => rfl | ⟨2, _⟩ => rfl)
  rw [e, v45_apply]

/-- The row sum broadcast back over the heads. -/
theorem v48_apply (x1 : (⟨Cert.ReferenceIdeal.S4x16384x256, .f32⟩ : BufTy).Contents (Elt Ideal)) (x5 : (⟨Cert.ReferenceIdeal.S64x256, .f32⟩ : BufTy).Contents (Elt Ideal)) (b : Fin 4) (r : Fin 16384) (h : Fin 64) :
    val_main_v48 (F := Ideal) x1 x5 (ix3 b r h)
      = ∑ h' : Fin 64, Ideal.exp (Cert.Spec.proj x1 x5 b r h' - Cert.Spec.fmax fun h'' : Fin 64 => Cert.Spec.proj x1 x5 b r h'') := by
  rw [val_main_v48_apply, val_main_v47_apply]
  have e : idx_main_v47 (idx_main_v48 (ix3 b r h)) = ix2 b r := funext fun a => Fin.ext (by match a with | ⟨0, _⟩ => rfl | ⟨1, _⟩ => rfl)
  rw [e, v46_apply]

/-- The soft-maxed query. -/
theorem v49_apply (x1 : (⟨Cert.ReferenceIdeal.S4x16384x256, .f32⟩ : BufTy).Contents (Elt Ideal)) (x5 : (⟨Cert.ReferenceIdeal.S64x256, .f32⟩ : BufTy).Contents (Elt Ideal)) (b : Fin 4) (r : Fin 16384) (h : Fin 64) :
    val_main_v49 (F := Ideal) x1 x5 (ix3 b r h) = Cert.Spec.qsoft (Cert.Spec.proj x1 x5) b r h := by
  rw [val_main_v49_apply, v45_apply, v48_apply]
  rfl

/-! ### The two results -/

/-- The first result (`%52`) at (b, r, d). -/
theorem v52_apply (x0 x1 : (⟨Cert.ReferenceIdeal.S4x16384x256, .f32⟩ : BufTy).Contents (Elt Ideal)) (x3 x4 x7 : (⟨Cert.ReferenceIdeal.S64x256, .f32⟩ : BufTy).Contents (Elt Ideal)) (b : Fin 4) (r : Fin 16384) (d : Fin 64) :
    val_main_v52 (F := Ideal) x0 x1 x3 x4 x7 (ix3 b r d)
      = Cert.Spec.attn (Cert.Spec.proj x0 x4) (Cert.Spec.ctx (Cert.Spec.proj x1 x3) (Cert.Spec.proj x1 x7)) b r d := by
  rw [val_main_v52_apply]
  unfold Cert.Spec.attn
  refine Finset.sum_congr rfl fun k _ => ?_
  have el : lidx_main_v52 (ix3 b r d) k = ix3 b r k := funext fun a => Fin.ext (by match a with | ⟨0, _⟩ => rfl | ⟨1, _⟩ => rfl | ⟨2, _⟩ => rfl)
  have er : ridx_main_v52 (ix3 b r d) k = ix3 b k d := funext fun a => Fin.ext (by match a with | ⟨0, _⟩ => rfl | ⟨1, _⟩ => rfl | ⟨2, _⟩ => rfl)
  rw [el, er, v38_apply, v51_apply]

/-- The second result (`%53`) at (b, r, d). -/
theorem v53_apply (x0 x1 : (⟨Cert.ReferenceIdeal.S4x16384x256, .f32⟩ : BufTy).Contents (Elt Ideal)) (x2 x5 x6 : (⟨Cert.ReferenceIdeal.S64x256, .f32⟩ : BufTy).Contents (Elt Ideal)) (b : Fin 4) (r : Fin 16384) (d : Fin 64) :
    val_main_v53 (F := Ideal) x0 x1 x2 x5 x6 (ix3 b r d)
      = Cert.Spec.attn (Cert.Spec.proj x1 x5) (Cert.Spec.ctx (Cert.Spec.proj x0 x2) (Cert.Spec.proj x0 x6)) b r d := by
  rw [val_main_v53_apply]
  unfold Cert.Spec.attn
  refine Finset.sum_congr rfl fun k _ => ?_
  have el : lidx_main_v53 (ix3 b r d) k = ix3 b r k := funext fun a => Fin.ext (by match a with | ⟨0, _⟩ => rfl | ⟨1, _⟩ => rfl | ⟨2, _⟩ => rfl)
  have er : ridx_main_v53 (ix3 b r d) k = ix3 b k d := funext fun a => Fin.ext (by match a with | ⟨0, _⟩ => rfl | ⟨1, _⟩ => rfl | ⟨2, _⟩ => rfl)
  rw [el, er, v49_apply, v50_apply]

/-- The first result (`%52`): stream 0's soft-maxed queries applied to stream 1's context matrix. -/
theorem v52_eq_G0 (x0 x1 : (⟨Cert.ReferenceIdeal.S4x16384x256, .f32⟩ : BufTy).Contents (Elt Ideal)) (x3 x4 x7 : (⟨Cert.ReferenceIdeal.S64x256, .f32⟩ : BufTy).Contents (Elt Ideal)) :
    val_main_v52 (F := Ideal) x0 x1 x3 x4 x7 = Cert.Spec.G0 x0 x1 x3 x4 x7 := by
  funext i
  obtain ⟨b, r, d, rfl⟩ : ∃ (b : Fin 4) (r : Fin 16384) (d : Fin 64), i = ix3 b r d := ⟨i 0, i 1, i 2, eq_ix3 i⟩
  exact v52_apply x0 x1 x3 x4 x7 b r d

/-- The second result (`%53`): stream 1's soft-maxed queries applied to stream 0's context matrix. -/
theorem v53_eq_G1 (x0 x1 : (⟨Cert.ReferenceIdeal.S4x16384x256, .f32⟩ : BufTy).Contents (Elt Ideal)) (x2 x5 x6 : (⟨Cert.ReferenceIdeal.S64x256, .f32⟩ : BufTy).Contents (Elt Ideal)) :
    val_main_v53 (F := Ideal) x0 x1 x2 x5 x6 = Cert.Spec.G1 x0 x1 x2 x5 x6 := by
  funext i
  obtain ⟨b, r, d, rfl⟩ : ∃ (b : Fin 4) (r : Fin 16384) (d : Fin 64), i = ix3 b r d := ⟨i 0, i 1, i 2, eq_ix3 i⟩
  exact v53_apply x0 x1 x2 x5 x6 b r d

end Cert.ReferenceIdeal.RefValue

end
-- ==== Proof.Finite.lean ====
/-
  From the precondition "every float input is finite" (each `|x| < +∞` compared entry by entry and and-reduced to one
  bit, the eight bits conjoined) to: every entry of every argument is a real number.
-/
import proofs.«177014_j489626271899_1_alg».proof.Pre_finite_inputs
import proofs.«177014_j489626271899_1_alg».proof.Proof.Gen.Pre_finite_inputs
import proofs.«177014_j489626271899_1_alg».proof.Proof.SpecReal
import Idealize.ShloMosaic.Lib.ReduceAll
import Idealize.ShloMosaic.Lib.IdealHost
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- The word of +∞ denotes the top of the extended reals. -/
theorem ofBits_inf : Ideal.ofBits .f32 0x7F800000#32 = (⊤ : EReal) := by simp [Ideal.ofBits, Ideal.ieee]

/-- An extended real whose absolute value `max x (−x)` is below +∞ is a real number: −∞ and +∞ both have absolute value +∞. -/
theorem real_of_abs_lt_top (x : EReal) (h : max x (-x) < ⊤) : ∃ y : ℝ, x = (y : EReal) := by
  induction x using EReal.rec with
  | bot => exact absurd h (by simp)
  | coe r => exact ⟨r, rfl⟩
  | top => exact absurd h (by simp)

/-- A one-bit word made from a truth value is 1 only when the truth value holds. -/
theorem of_ofBool_decide_eq_one (p : Prop) [Decidable p] (h : BitVec.ofBool (decide p) = 1#1) : p := by
  by_contra hn
  rw [decide_eq_false hn] at h
  exact absurd h (by decide)

/-- The conjunction of two one-bit arrays is 1 at an index exactly when both are. -/
theorem andi_apply_eq_one {s : Shape} (x y : IVec s 1) (i : s.Idx) : andi x y i = 1#1 ↔ x i = 1#1 ∧ y i = 1#1 :=
  IntOp.andi_eq_one

/-- One argument's bit: if the and-reduction over all axes of `|a| < +∞` is 1, every entry of `a` is a real number. -/
theorem isReal_of_bit {s : Shape} {axes : List (Fin s.rank)} (hb : S_.BroadcastsInDim s ![]) (hr : s.ReducesTo axes S_)
    (hu : 0 < S_.numel) (a : FVec Ideal s .f32)
    (e : Host.reduce IntOp.andi (cmpf .olt (Host.absf a) (broadcastInDim s ![] hb (constant (F := Ideal) S_ .f32 0x7F800000#32)))
      (constantI S_ 1 1#1) hr hu ValueIdx.ix0 = 1#1) :
    Cert.Spec.IsReal a := by
  intro i
  have h1 := Host.reduce_andi_all _ _ hr hu ValueIdx.ix0 e i
  rw [ValueIdx.cmpf_apply, ValueIdx.broadcastInDim_scalar_apply, ValueIdx.constant_apply, ofBits_inf] at h1
  have h2 : BitVec.ofBool (decide (max (a i : EReal) (-(a i)) < (⊤ : EReal))) = 1#1 := h1
  exact real_of_abs_lt_top _ (of_ofBool_decide_eq_one _ h2)

/-- If the printed predicate is all ones on eight arrays, each array is real-valued. -/
theorem real_of_fn (a0 a1 : FVec Ideal S4x16384x256 .f32) (a2 a3 a4 a5 a6 a7 : FVec Ideal S64x256 .f32)
    (h : Cert.Pre_finite_inputs.fn (F := Ideal) a0 a1 a2 a3 a4 a5 a6 a7 = fun _ => 1#1) :
    Cert.Spec.IsReal a0 ∧ Cert.Spec.IsReal a1 ∧ Cert.Spec.IsReal a2 ∧ Cert.Spec.IsReal a3
      ∧ Cert.Spec.IsReal a4 ∧ Cert.Spec.IsReal a5 ∧ Cert.Spec.IsReal a6 ∧ Cert.Spec.IsReal a7 := by
  have h0 := congrFun h ValueIdx.ix0
  dsimp only [fn, fn_part1, fn_part2] at h0
  simp only [andi_apply_eq_one] at h0
  obtain ⟨⟨⟨⟨⟨⟨⟨e0, e1⟩, e2⟩, e3⟩, e4⟩, e5⟩, e6⟩, e7⟩ := h0
  exact ⟨isReal_of_bit _ _ _ a0 e0, isReal_of_bit _ _ _ a1 e1, isReal_of_bit _ _ _ a2 e2, isReal_of_bit _ _ _ a3 e3,
    isReal_of_bit _ _ _ a4 e4, isReal_of_bit _ _ _ a5 e5, isReal_of_bit _ _ _ a6 e6, isReal_of_bit _ _ _ a7 e7⟩

end Cert.Finite

end
-- ==== Proof.lean ====
/-
  The certificate's claims, assembled.

  The kernel program is two pipelined regions and two host slices. Region 0 reduces each batch row's 16384 tokens,
  tile by tile, into two 64 × 64 context arrays by the online-softmax recurrence (a running maximum, a running sum of
  exponentials and that sum weighted by the values, rescaled by exp (old maximum − new maximum) at each tile); region 1
  soft-maxes each token's queries over the heads and applies the other stream's context array. Both printed programs
  (word level and idealized) are the same text read at two float instances, and the frame — every weakly fair
  execution terminates, nothing faults, the arguments end as launched — is one argument, generic in the instance:
  per grid point the body's run in its control case, the six scratch buffers tracked between points, the regions and
  the host slices launched in order.

  Over the extended reals, with every argument real-valued (the precondition), the running triple after the last
  tile is the maximum, the sum of exponentials and the weighted sum over the whole row, so region 0's arrays are the
  context matrices divided once after the contraction; the reference divides each exponential first; the two agree
  because the column sums are positive reals. Region 1 and the reference's last contractions are then the same sums
  index by index, and the host slices pick the two results out of the packed array.
-/
import proofs.«177014_j489626271899_1_alg».proof.Defs
import proofs.«177014_j489626271899_1_alg».proof.Proof.Gen.Kernel
import proofs.«177014_j489626271899_1_alg».proof.Proof.Gen.KernelIdeal
import proofs.«177014_j489626271899_1_alg».proof.Proof.Gen.ReferenceIdeal
import proofs.«177014_j489626271899_1_alg».proof.Proof.Gen.Pre_finite_inputs
import proofs.«177014_j489626271899_1_alg».proof.Proof.Gen.ReferenceIdeal.Run
import proofs.«177014_j489626271899_1_alg».proof.Proof.Gen.ReferenceIdeal.Read
import proofs.«177014_j489626271899_1_alg».proof.Proof.K.Run
import proofs.«177014_j489626271899_1_alg».proof.Proof.KI.Run
import proofs.«177014_j489626271899_1_alg».proof.Proof.KI.Bridge
import proofs.«177014_j489626271899_1_alg».proof.Proof.RefValue
import proofs.«177014_j489626271899_1_alg».proof.Proof.Finite
import Idealize.ShloMosaic.Adequacy
import Idealize.ShloMosaic.Init

noncomputable section

namespace Cert.Proof

open Idealize.ShloMosaic Idealize.SL.Sem

/-- The word-level program's frame: its run with the results dropped. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2.2) (Cert.Kernel.Hand.run_value (F := Bits) m ρ)

/-- The idealized program's frame: the same run at the ideal instance. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2.2) (Cert.KernelIdeal.Hand.run_value (F := Ideal) m ρ)

/-- The reference's frame: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The two idealized programs, from memories agreeing on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := fun c => Cert.Finite.real_of_fn _ _ _ _ _ _ _ _ (hpre c)
  refine ⟨fun c => Cert.Spec.G0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)),
    fun c => Cert.Spec.G1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ?_) (Cert.KernelIdeal.Hand.run_value (F := Ideal) m ρ)
    obtain ⟨r0, r1, r2, r3, _, _, r6, r7⟩ := hreal c
    exact ⟨(h c).1.trans (Cert.KernelIdeal.Hand.result0 m c r0 r1 r2 r3 r6 r7),
      (h c).2.1.trans (Cert.KernelIdeal.Hand.result1 m c r0 r1 r2 r3 r6 r7), (h c).2.2⟩
  · refine (θ_run Cert.ReferenceIdeal.defs _ _).mono (fun _ h c => ?_) (Cert.ReferenceIdeal.Value.run (F := Ideal) m' ρ')
    obtain ⟨e0, e1, e2, e3, e4, e5, e6, e7⟩ := hagree c
    refine ⟨(h c).1.trans ?_, (h c).2.1.trans ?_, (h c).2.2⟩
    · rw [Cert.ReferenceIdeal.Read.val_main_v52_eq, Cert.ReferenceIdeal.RefValue.v52_eq_G0, e0, e1, e3, e4, e7]
    · rw [Cert.ReferenceIdeal.Read.val_main_v53_eq, Cert.ReferenceIdeal.RefValue.v53_eq_G1, e0, e1, e2, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
